-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg6
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S10000x40 : Shape := ⟨2, ![10000, 40]⟩
abbrev S200x10000 : Shape := ⟨2, ![200, 10000]⟩
abbrev S400x40 : Shape := ⟨2, ![400, 40]⟩
abbrev S200x128 : Shape := ⟨2, ![200, 128]⟩
abbrev S200x40 : Shape := ⟨2, ![200, 40]⟩
abbrev S200 : Shape := ⟨1, ![200]⟩
abbrev S200x1 : Shape := ⟨2, ![200, 1]⟩

abbrev nBuf : Space → Nat
  | .hbm => 12
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x128, .f32⟩
  | .hbm, ⟨9, _⟩ => ⟨S1x128, .f32⟩
  | .hbm, ⟨10, _⟩ => ⟨S1x40, .f32⟩
  | .hbm, ⟨11, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x40, .f32⟩
  | .local _ .vmem, ⟨6, _⟩ => ⟨S1x40, .f32⟩
  | .local _ .vmem, ⟨7, _⟩ => ⟨S200x10000, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S400x40, .f32⟩
  | .local _ .vmem, ⟨12, _⟩ => ⟨S400x40, .f32⟩
  | .local _ .vmem, ⟨13, _⟩ => ⟨S10000x128, .f32⟩
  | .local _ .vmem, ⟨14, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) : Fin 2 → Nat :=
  let arg1 : BitVec 32 := BitVec.ofNat 32 (i 1).val
  let c400_i32 : BitVec 32 := 400#32
  let v25 : BitVec 32 := Scalar.muli arg1 c400_i32
  let v26 : BitVec 32 := Scalar.addi v25 c0_i32_14
  let v27 : Index := Scalar.indexCast v26
  let c0_15 : Index := 0#32
  ![v27.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S200x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S200x10000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S400x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S128_S1x128 : S128.ShapeCasts S1x128
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  reduces_S200x40_S200 : S200x40.Reduces [1] S200
  shapeCasts_S200_S200x1 : S200.ShapeCasts S200x1
  broadcasts_S200x1_S200x40 : S200x1.Broadcasts S200x40
  inb_S400x40_S200x40_0_0 : ∀ a, (![0, 0] : Fin 2 → Nat) a + S200x40.size a ≤ S400x40.size a
  h_S200x40 : 0 < S200x40.numel
  inb_S400x40_S200x40_200_0 : ∀ a, (![200, 0] : Fin 2 → Nat) a + S200x40.size a ≤ S400x40.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x40_S200x40_1_0_0_1_n_n_wf : DotDims.WF S200x128 S128x40 S200x40 [1] [0] [0] [1] [] []
  hrank0 : 0 < grid0.rank
  k0_off1_inb : ∀ i : grid0.Coords, ∀ (k0_h2 : k0_cond2 i = 1#1), ∀ (r : Fin 2), ∀ a, (k0_off1 i (BitVec.ofNat 32 (200 * r.val))) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x10000.size a ≤ S10000x10000.size a
  hwx0_7 : ∀ i : grid0.Coords, EltTy.bits .f32 = 32 ∨ (Rect.block (s := S10000x10000) S200x10000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x10000.size a ≤ S10000x10000.size a
  hwx0_8 : ∀ i : grid0.Coords, EltTy.bits .f32 = 32 ∨ (Rect.block (s := S10000x10000) S200x10000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x40.size a ≤ S10000x40.size a
  hwx0_9 : ∀ i : grid0.Coords, EltTy.bits .f32 = 32 ∨ (Rect.block (s := S10000x40) S400x40.size (cc0_transform_9 i) (hinb0_9 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x40_S200x40_1_0_0_1_n_n : DotDims S200x128 S128x40 S200x40 where
  lhsContracting := [1]
  rhsContracting := [0]
  lhsNonContracting := [0]
  rhsNonContracting := [1]
  lhsBatch := []
  rhsBatch := []
  wf := dot_S200x128_S128x40_S200x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S200x10000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S200x10000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S400x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond4 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x40, .f32⟩
  | .hbm, ⟨22, _⟩ => ⟨S1x40, .f32⟩
  | .hbm, ⟨23, _⟩ => ⟨S10000x40, .f32⟩
  | .hbm, ⟨24, _⟩ => ⟨S10000x40, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x40, .f32⟩
  | .hbm, ⟨32, _⟩ => ⟨S10000x40, .f32⟩
  | .hbm, ⟨33, _⟩ => ⟨S10000x40, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x40, .f32⟩
  | .hbm, ⟨39, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v15 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.K.Common.lean ====
/-
  What the four runs of the kernel body and the proof data share: the arrays as the kernel region finds them (the three
  bias vectors reshaped to rows before it), the blocks the windows stage at each grid point, and at which points of the
  2 × 25 grid each of the body's four guarded stages runs — the first support product at point 0, the hidden rows at points
  0 … 24, the second support product at point 25, the output rows at points 25 … 49.
-/
import proofs.«155996_g78357383349033_cont_sun_m_330_6_alg».proof.Proof.Gen.Kernel.Launch
import proofs.«155996_g78357383349033_cont_sun_m_330_6_alg».proof.Proof.Gen.Kernel.Skeleton
import proofs.«155996_g78357383349033_cont_sun_m_330_6_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: after the three reshapes of the bias vectors. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's four guards over the grid -/

/-- The first support product's guard: the first phase's first row block. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)

/-- The hidden rows' guard: the first phase. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The second support product's guard: the second phase's first row block. -/
abbrev cond3 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
theorem hcond3 : ∀ t : Fin cfg0.N, cond3 (grid0.coords t) ↔ t.val = 25 :=
  (by decide +kernel : ∀ t : Fin grid0.N, cond3 (grid0.coords t) ↔ t.val = 25)

/-- The output rows' guard: the second phase. -/
abbrev cond4 (i : grid0.Coords) : Prop := k0_cond4 i = 1#1
theorem hcond4 : ∀ t : Fin cfg0.N, cond4 (grid0.coords t) ↔ 25 ≤ t.val :=
  (by decide +kernel : ∀ t : Fin grid0.N, cond4 (grid0.coords t) ↔ 25 ≤ t.val)

/-- The row block a point works on. -/
theorem coord1 : ∀ t : Fin cfg0.N, ((grid0.coords t) 1).val = t.val % 25 :=
  (by decide +kernel : ∀ t : Fin grid0.N, ((grid0.coords t) 1).val = t.val % 25)

/-! ## Where the output window is idle, and when it is written back -/

theorem idle9_lo : ∀ t : Fin cfg0.N, t.val < 25 → cfg0.idle 9 (grid0.coords t) = true := by decide +kernel
theorem live9_hi : ∀ t : Fin cfg0.N, 25 ≤ t.val → cfg0.idle 9 (grid0.coords t) = false := by decide +kernel
theorem noFlush9_lo : ∀ t : Fin cfg0.N, t.val < 25 → (cfg0.win 9).flush t = false := by decide +kernel
theorem flush9_hi : ∀ t : Fin cfg0.N, 25 ≤ t.val → (cfg0.win 9).flush t = true := by decide +kernel
theorem live_in : ∀ (w : Fin cfg0.W), w.val < 9 → ∀ t : Fin cfg0.N, cfg0.idle w (grid0.coords t) = false := by decide +kernel

/-! ## The staging and scratch memrefs -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x40 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x10000 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S200x10000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x40 .f32 := win0_9.stage (cfg0.slots t 9)
abbrev hs9 (t : Fin cfg0.N) : (ms9 t).IsWhole := hstage0_9 ((cfg0.slots t 9).cast nbuf0_9)
/-- The scratch that holds the hidden array. -/
abbrev scH : Memref sig .tc .vmem S10000x128 .f32 := Memref.whole cc0_scratch0
/-- The scratch that holds the current support product. -/
abbrev scS : Memref sig .tc .vmem S10000x128 .f32 := Memref.whole cc0_scratch1

/-- The two scratch buffers, each at some contents: what the launch hands the region beside the windows. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scH fullShare d) ∗ (∃ d, owns (c : Thread nD τ) scS fullShare d)) := by
  rw [scopedRest0_eq]; simp only [scH, scS, owns_whole]; try rfl

end Cert.Kernel.Hand

end
-- ==== Proof.K.Vals.lean ====
/-
  The values the kernel leaves, as functions of the arrays the region finds.

  S₁ = x · W1 (computed at the first point), the hidden array H (row r written at point r / 400 of the first phase from
  the adjacency block holding row r), S₂ = H · W2 (computed at the first point of the second phase), and the block of
  400 output rows point t of the second phase stores: its upper 200 rows from the top adjacency window, its lower 200
  rows from the bottom one.
-/
import proofs.«155996_g78357383349033_cont_sun_m_330_6_alg».proof.Proof.K.Common
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's block at a point, at its literal type. -/
abbrev b0 (c : Dev nD) (t : Fin cfg0.N) : Vec F S10000x128 .f32 := iblk m c 0 t
abbrev b1 (c : Dev nD) (t : Fin cfg0.N) : Vec F S128x128 .f32 := iblk m c 1 t
abbrev b2 (c : Dev nD) (t : Fin cfg0.N) : Vec F S1x128 .f32 := iblk m c 2 t
abbrev b3 (c : Dev nD) (t : Fin cfg0.N) : Vec F S128x128 .f32 := iblk m c 3 t
abbrev b4 (c : Dev nD) (t : Fin cfg0.N) : Vec F S1x128 .f32 := iblk m c 4 t
abbrev b5 (c : Dev nD) (t : Fin cfg0.N) : Vec F S128x40 .f32 := iblk m c 5 t
abbrev b6 (c : Dev nD) (t : Fin cfg0.N) : Vec F S1x40 .f32 := iblk m c 6 t
abbrev b7 (c : Dev nD) (t : Fin cfg0.N) : Vec F S200x10000 .f32 := iblk m c 7 t
abbrev b8 (c : Dev nD) (t : Fin cfg0.N) : Vec F S200x10000 .f32 := iblk m c 8 t

/-- The first point, and the first point of the second phase. -/
abbrev t0 : Fin cfg0.N := ⟨0, by decide⟩
abbrev t25 : Fin cfg0.N := ⟨25, by decide⟩

/-- The point of the first phase that writes hidden row `r`. -/
def ptOf (j : S10000x128.Idx) : Fin cfg0.N := ⟨(j 0).val / 400, by
  have h : (j 0).val < 10000 := (j 0).isLt
  have hN : cfg0.N = 50 := N_0
  omega⟩

/-- S₁ = x · W1. -/
def S1v (c : Dev nD) : Vec F S10000x128 .f32 := k0_pay1 (b0 m c t0) (b1 m c t0)

/-- The hidden array: row r from the adjacency block that holds it (the top window's for r mod 400 < 200, else the bottom's). -/
def H1v (c : Dev nD) : Vec F S10000x128 .f32 := fun j =>
  if h : (j 0).val % 400 < 200 then
    k0_pay2 (b7 m c (ptOf j)) (S1v m c) (b2 m c (ptOf j)) (ValueIdx.ix2 (⟨(j 0).val % 400, h⟩ : Fin 200) (j 1))
  else
    k0_pay3 (b8 m c (ptOf j)) (S1v m c) (b2 m c (ptOf j))
      (ValueIdx.ix2 (⟨(j 0).val % 400 - 200, by have := Nat.mod_lt (j 0).val (show 0 < 400 by decide); omega⟩ : Fin 200) (j 1))

/-- S₂ = H · W2. -/
def S2v (c : Dev nD) : Vec F S10000x128 .f32 := k0_pay4 (H1v m c) (b3 m c t25)

/-- The block of 400 output rows a point of the second phase stores. -/
def Oblk (c : Dev nD) (t : Fin cfg0.N) : Vec F S400x40 .f32 := fun j =>
  if h : (j 0).val < 200 then
    k0_pay6 (b7 m c t) (S2v m c) (b4 m c t) (b5 m c t) (b6 m c t) (ValueIdx.ix2 (⟨(j 0).val, h⟩ : Fin 200) (j 1))
  else
    k0_pay5 (k0_pay7 (b8 m c t) (S2v m c) (b4 m c t)) (b5 m c t) (constant S200x40 .f32 0x00000000#32) (b6 m c t)
      (ValueIdx.ix2 (⟨(j 0).val - 200, by have h400 : (j 0).val < 400 := (j 0).isLt; omega⟩ : Fin 200) (j 1))

/-- What the hidden scratch is known to hold when `n` points of the first phase have run: its first 400·n rows. -/
def HInv (c : Dev nD) (n : ℕ) (H : Vec F S10000x128 .f32) : Prop :=
  ∀ j : S10000x128.Idx, (j 0).val < 400 * n → H j = H1v m c j

theorem HInv_full (c : Dev nD) (n : ℕ) (hn : 25 ≤ n) (H : Vec F S10000x128 .f32) (h : HInv m c n H) : H = H1v m c :=
  funext fun j => h j (by have h1 : (j 0).val < 10000 := (j 0).isLt; omega)

end Cert.Kernel.Hand

end
-- ==== Proof.K.Launch.lean ====
/-
  The launch of the one kernel region for ANY proof data over the printed pipeline whose two adjacency windows hold the
  adjacency array at the two halves of its full share: from the body obligation at every grid point, every weakly fair
  execution of the program terminates with each window's array at what the write-backs leave and every other
  unscoped buffer as the region found it.
-/
import proofs.«155996_g78357383349033_cont_sun_m_330_6_alg».proof.Proof.K.Common
import Idealize.ShloMosaic.Lib.Pipeline.Launch
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each INPUT window holds: the two windows on the adjacency array (7 and 8) one half each of the
    full share, every other window the full share. -/
def qS : Fin cfg0.W → PosShare TreeShare := fun w =>
  if w = 7 then fullShare.left else if w = 8 then fullShare.right else fullShare

/-- With input shares `qS`, every window holds its array at `qS`: the one output window (9) holds the full share, which
    is what `qS` names there too. -/
theorem share_eq_qS {c : Dev nD} (dat : Dat τ (Elt F) Unit ℕ (UR sig nD τ) ℕ cfg0 c) (hq : ∀ w, dat.q w = qS w) :
    ∀ w, dat.share w = qS w := by
  intro w
  unfold Dat.share
  rw [hq]
  fin_cases w <;> rfl

/-- The pipeline's per-window points-tos before point 0, each window's array a whole buffer at the entry contents, read
    window by window. -/
theorem arrays_entry (c : Dev nD) (dat : Dat τ (Elt F) Unit ℕ (UR sig nD τ) ℕ cfg0 c)
    (hA : ∀ w, dat.A w = V m c (Pipeline.arrRef spec0 w)) (hq : ∀ w, dat.q w = qS w) :
    (dat.arrays (dat.arrAt · 0) : sProp 𝕄)
      = bigSep Finset.univ fun w : Fin 10 =>
          ((((c : Thread nD τ).loc (Pipeline.arrRef spec0 w)) ↦{qS w} V m c (Pipeline.arrRef spec0 w)) : sProp 𝕄) := by
  unfold Dat.arrays
  exact bigSep_congr fun w _ => by
    rw [(arr_whole0 w).set_eq_univ, share_eq_qS dat hq w]
    change (_ ↦{qS w} dat.A w : sProp 𝕄) = _
    rw [hA w]

/-- The nine DISTINCT buffers behind the ten windows' arrays, each whole at the full share, one by one: the adjacency
    array `main_arg1` is behind two windows and is listed once. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg2) ↦{fullShare} V' main_arg2)
          ∗ (((c : Thread nD τ).loc main_call0_v0) ↦{fullShare} V' main_call0_v0) ∗ (((c : Thread nD τ).loc main_arg4) ↦{fullShare} V' main_arg4)
          ∗ (((c : Thread nD τ).loc main_call0_v1) ↦{fullShare} V' main_call0_v1) ∗ (((c : Thread nD τ).loc main_arg6) ↦{fullShare} V' main_arg6)
          ∗ (((c : Thread nD τ).loc main_call0_v2) ↦{fullShare} V' main_call0_v2) ∗ (((c : Thread nD τ).loc main_arg1) ↦{fullShare} V' main_arg1)
          ∗ (((c : Thread nD τ).loc main_v0) ↦{fullShare} V' main_v0)) := by
  unfold Pipeline.arrBufs
  exact bigSep_eq_bigSepL_of_eq [main_arg0, main_arg2, main_call0_v0, main_arg4, main_call0_v1, main_arg6, main_call0_v2, main_arg1, main_v0]
    (by decide) (by decide) _

/-- The launch's hand-over of the arrays: the nine buffers whole at the full share make the ten windows' points-tos — for
    the eight windows on arrays of their own the buffer as it is, the adjacency array's full share split into its two
    halves, the left for window 7 and the right for window 8. -/
theorem hsplit0 (c : Dev nD) (dat : Dat τ (Elt F) Unit ℕ (UR sig nD τ) ℕ cfg0 c)
    (hA : ∀ w, dat.A w = V m c (Pipeline.arrRef spec0 w)) (hq : ∀ w, dat.q w = qS w) :
    (Pipeline.arrBufs (Ix := Unit) (Name := ℕ) (U := UR sig nD τ) (Lvl := ℕ) spec0 c (V m c) : sProp 𝕄) ⊢ dat.arrays (dat.arrAt · 0) := by
  rw [arrays_entry m c dat hA hq, bigSep_W0, arrBufs0_eq]
  iintro ⟨H0, H2, Hv0, H4, Hv1, H6, Hv2, H1, Hr⟩
  ihave H1' := (pointsTo_share (PosShare.mem_left_op_right fullShare)).1 $$ H1
  icases H1' with ⟨H1a, H1b⟩
  isplitl [H0]; · iexact H0
  isplitl [H2]; · iexact H2
  isplitl [Hv0]; · iexact Hv0
  isplitl [H4]; · iexact H4
  isplitl [Hv1]; · iexact Hv1
  isplitl [H6]; · iexact H6
  isplitl [Hv2]; · iexact Hv2
  isplitl [H1a]; · iexact H1a
  isplitl [H1b]; · iexact H1b
  iexact Hr

/-- THE LAUNCH. -/
theorem launch (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hq : ∀ c w, (dats 0 c).q w = qS w)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run (defs (F := F)) (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = V m c b) := by
  classical
  exact Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj))
    (hu₀ := BI.Entails.refl _)
    (V := V m) (hmain := hmain m Variants.none)
    (hsplit := fun c => hsplit0 m c (dats 0 c) (hA c) (hq c))
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show _ ⊢ (Pipeline.scopedRest (Ix := Unit) (Name := ℕ) (U := UR sig nD τ) (Lvl := ℕ) (Val := Elt F) spec0 c : sProp 𝕄) from by
      iintro ⟨-, H⟩; iexact H).trans (hin c))
    (hout := fun c => (hout c).trans (by iintro H; isplitr; · iempintro
                                         iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Hand

end
-- ==== Proof.K.Data.lean ====
/-
  The proof data of the one pipeline: every input window's staging buffer holds its block; the output window's holds, at a
  point of the second phase, the 400 rows that point stores; between points the support scratch holds S₁ through the first
  phase and S₂ afterwards, and the hidden scratch holds the hidden rows written so far.
-/
import proofs.«155996_g78357383349033_cont_sun_m_330_6_alg».proof.Proof.K.Vals
import proofs.«155996_g78357383349033_cont_sun_m_330_6_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before point `k` (after point `k − 1`). -/
def Phi (c : Dev nD) (k : ℕ) : sProp 𝕄 :=
  if k = 0 then iprop((∃ d, owns (c : Thread nD τ) scH fullShare d) ∗ (∃ d, owns (c : Thread nD τ) scS fullShare d))
  else iprop((∃ H, ⌜HInv m c (min k 25) H⌝ ∗ owns (c : Thread nD τ) scH fullShare H)
    ∗ owns (c : Thread nD τ) scS fullShare (if k ≤ 25 then S1v m c else S2v m c))

theorem Phi_zero (c : Dev nD) : Phi m c 0 = iprop((∃ d, owns (c : Thread nD τ) scH fullShare d) ∗ (∃ d, owns (c : Thread nD τ) scS fullShare d)) :=
  if_pos rfl

theorem Phi_lo (c : Dev nD) (k : ℕ) (h0 : k ≠ 0) (h : k ≤ 25) :
    Phi m c k = iprop((∃ H, ⌜HInv m c k H⌝ ∗ owns (c : Thread nD τ) scH fullShare H) ∗ owns (c : Thread nD τ) scS fullShare (S1v m c)) := by
  unfold Phi; rw [if_neg h0, if_pos h, Nat.min_eq_left h]

theorem Phi_hi (c : Dev nD) (k : ℕ) (h : 25 < k) :
    Phi m c k = iprop((∃ H, ⌜HInv m c 25 H⌝ ∗ owns (c : Thread nD τ) scH fullShare H) ∗ owns (c : Thread nD τ) scS fullShare (S2v m c)) := by
  unfold Phi; rw [if_neg (by omega), if_neg (by omega), Nat.min_eq_right (by omega)]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Oblk m c t
  Φ t := Phi m c t.val
  q := qS
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem Phi_succ (c : Dev nD) (t : Fin cfg0.N) : (dats m 0 c).Φ t.succ = Phi m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = Oblk m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

end Cert.Kernel.Hand

end
-- ==== Proof.K.BodyDefs.lean ====
/-
  The body obligation's pre- and postcondition at a grid point, the ten windows written out one by one.
-/
import proofs.«155996_g78357383349033_cont_sun_m_330_6_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and every window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) :
    (dats m 0 c).leavesExact 0 t = owns (c : Thread nD τ) (ms0 t) fullShare (iblk m c 0 t) := by
  unfold Dat.leavesExact; rw [live_in 0 (by decide) t, after0]
theorem leaves1 (c : Dev nD) (t : Fin cfg0.N) :
    (dats m 0 c).leavesExact 1 t = owns (c : Thread nD τ) (ms1 t) fullShare (iblk m c 1 t) := by
  unfold Dat.leavesExact; rw [live_in 1 (by decide) t, after1]
theorem leaves2 (c : Dev nD) (t : Fin cfg0.N) :
    (dats m 0 c).leavesExact 2 t = owns (c : Thread nD τ) (ms2 t) fullShare (iblk m c 2 t) := by
  unfold Dat.leavesExact; rw [live_in 2 (by decide) t, after2]
theorem leaves3 (c : Dev nD) (t : Fin cfg0.N) :
    (dats m 0 c).leavesExact 3 t = owns (c : Thread nD τ) (ms3 t) fullShare (iblk m c 3 t) := by
  unfold Dat.leavesExact; rw [live_in 3 (by decide) t, after3]
theorem leaves4 (c : Dev nD) (t : Fin cfg0.N) :
    (dats m 0 c).leavesExact 4 t = owns (c : Thread nD τ) (ms4 t) fullShare (iblk m c 4 t) := by
  unfold Dat.leavesExact; rw [live_in 4 (by decide) t, after4]
theorem leaves5 (c : Dev nD) (t : Fin cfg0.N) :
    (dats m 0 c).leavesExact 5 t = owns (c : Thread nD τ) (ms5 t) fullShare (iblk m c 5 t) := by
  unfold Dat.leavesExact; rw [live_in 5 (by decide) t, after5]
theorem leaves6 (c : Dev nD) (t : Fin cfg0.N) :
    (dats m 0 c).leavesExact 6 t = owns (c : Thread nD τ) (ms6 t) fullShare (iblk m c 6 t) := by
  unfold Dat.leavesExact; rw [live_in 6 (by decide) t, after6]
theorem leaves7 (c : Dev nD) (t : Fin cfg0.N) :
    (dats m 0 c).leavesExact 7 t = owns (c : Thread nD τ) (ms7 t) fullShare (iblk m c 7 t) := by
  unfold Dat.leavesExact; rw [live_in 7 (by decide) t, after7]
theorem leaves8 (c : Dev nD) (t : Fin cfg0.N) :
    (dats m 0 c).leavesExact 8 t = owns (c : Thread nD τ) (ms8 t) fullShare (iblk m c 8 t) := by
  unfold Dat.leavesExact; rw [live_in 8 (by decide) t, after8]

theorem leaves9_lo (c : Dev nD) (t : Fin cfg0.N) (h : t.val < 25) :
    (dats m 0 c).leavesExact 9 t = iprop(∃ d, owns (c : Thread nD τ) (ms9 t) fullShare ((dats m 0 c).before 9 t d)) :=
  Dat.leavesExact_idle (dats m 0 c) 9 t (idle9_lo t h) (noFlush9_lo t h)

theorem leaves9_hi (c : Dev nD) (t : Fin cfg0.N) (h : 25 ≤ t.val) :
    (dats m 0 c).leavesExact 9 t = owns (c : Thread nD τ) (ms9 t) fullShare (Oblk m c t) := by
  unfold Dat.leavesExact; rw [live9_hi t h, after9]

end Cert.Kernel.Hand

end
-- ==== Proof.K.RunA.lean ====
/-
  The kernel body at the first grid point: the support product x · W1 is stored whole into the support scratch, then read
  back by the two adjacency blocks' products, whose rectified results are stored into the hidden scratch's first 400 rows.
-/
import proofs.«155996_g78357383349033_cont_sun_m_330_6_alg».proof.Proof.K.Common
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem hz2 : (![0, 0] : Fin 2 → ℕ) = fun _ => 0 := by funext a; fin_cases a <;> rfl

/-- A whole-buffer store over anything reads back as its payload. -/
private theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

set_option maxHeartbeats 8000000 in
/-- The body run at the first point: the support scratch ends at x · W1, the hidden scratch with the two slice stores written
    over what it held; the inputs are handed back as found. -/
theorem runA (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : cond1 i) (hc2 : cond2 i) (hc3 : ¬cond3 i) (hc4 : ¬cond4 i)
    (x0 : Vec F S10000x128 .f32) (x1 : Vec F S128x128 .f32) (x2 : Vec F S1x128 .f32) (x7 x8 : Vec F S200x10000 .f32) (xh xs : Vec F S10000x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare x7 ∗ owns (c : Thread nD τ) arg10 fullShare x8 ∗ owns (c : Thread nD τ) arg12 fullShare xh ∗ owns (c : Thread nD τ) arg13 fullShare xs
        ∗ (iprop(owns (c : Thread nD τ) arg2 fullShare x0 ∗ owns (c : Thread nD τ) arg3 fullShare x1 ∗ owns (c : Thread nD τ) arg4 fullShare x2 ∗ owns (c : Thread nD τ) arg9 fullShare x7 ∗ owns (c : Thread nD τ) arg10 fullShare x8
            ∗ (arg12.view.loc (c : Thread nD τ) ↦[arg12.view.set]{fullShare} arg12.view.writes (Elt F) (harg12.unread xh)
                [⟨Rect.unit (s := S10000x128) (k0_off1 i 200#32) S200x128.size (k0_off1_inb i hc2 1), k0_pay3 x8 (k0_pay1 x0 x1) x2⟩,
                 ⟨Rect.unit (s := S10000x128) (k0_off1 i 0#32) S200x128.size (k0_off1_inb i hc2 0), k0_pay2 x7 (k0_pay1 x0 x1) x2⟩])
            ∗ owns (c : Thread nD τ) arg13 fullShare (k0_pay1 x0 x1)) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  unfold owns
  iintro ⟨⟨%f0, %hf0, H0⟩, ⟨%f1, %hf1, H1⟩, ⟨%f2, %hf2, H2⟩, ⟨%f7, %hf7, H7⟩, ⟨%f8, %hf8, H8⟩, ⟨%fh, %hfh, HH⟩, ⟨%fs, %hfs, HS⟩, Hk⟩
  obtain rfl := harg2.eq_unread hf0; obtain rfl := harg3.eq_unread hf1; obtain rfl := harg4.eq_unread hf2
  obtain rfl := harg9.eq_unread hf7; obtain rfl := harg10.eq_unread hf8
  obtain rfl := harg12.eq_unread hfh; obtain rfl := harg13.eq_unread hfs
  sl_exec (disch := first | exact hc1 | exact hc2 | exact hc3 | exact hc4)
  sl_step
  sl_unfold_run_names
  have e0 : View.readAt (Elt F) arg2.view (Rect.unit ![0, 0] S10000x128.size inb_S10000x128_S10000x128_0_0).toLoadRect (harg2.unread x0) = x0 := by
    rw [View.readAt_eq_ld, harg2.read_unread]; exact View.ld_unit_zero (S := S10000x128) hz _ _
  have e1 : View.readAt (Elt F) arg3.view (Rect.unit ![0, 0] S128x128.size inb_S128x128_S128x128_0_0).toLoadRect (harg3.unread x1) = x1 := by
    rw [View.readAt_eq_ld, harg3.read_unread]; exact View.ld_unit_zero (S := S128x128) hz _ _
  have e2 : View.readAt (Elt F) arg4.view (Rect.unit ![0, 0] S1x128.size inb_S1x128_S1x128_0_0).toLoadRect (harg4.unread x2) = x2 := by
    rw [View.readAt_eq_ld, harg4.read_unread]; exact View.ld_unit_zero (S := S1x128) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  rw [e0, e1, e2, e7, e8]
  rw [View.readCov_unit_zero (Val := Elt F) (S := S10000x128) (e := .f32) arg13.view hz inb_S10000x128_S10000x128_0_0 (k0_pay1 x0 x1)]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H7]
  · iexists _; isplitr; · ipureintro; exact harg9.read_unread _
    iexact H7
  isplitl [H8]
  · iexists _; isplitr; · ipureintro; exact harg10.read_unread _
    iexact H8
  isplitl [HH]
  · iexact HH
  · iexists _; isplitr
    swap; · iexact HS
    ipureintro; exact read_writes_whole _ _ hz _ _

end Cert.Kernel.Hand

end
-- ==== Proof.K.Pieces.lean ====
/-
  What the kernel's slice stores leave, read as whole-buffer functions.

  In the first phase the two stores of a point write hidden rows 400·t … 400·t + 399 — so the hidden scratch, known to hold
  the hidden array on its first 400·t rows, then holds it on its first 400·(t + 1) rows. In the second phase the two stores
  of a point fill the 400-row output block: they read back as the block function of that point.
-/
import proofs.«155996_g78357383349033_cont_sun_m_330_6_alg».proof.Proof.K.Vals
import Idealize.ShloMosaic.Lib.Writes
import Idealize.ShloMosaic.Lib.Pipeline.Value
import Idealize.ShloMosaic.Lib.Pipeline.FrameBody
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row of the upper half-slice a first-phase point stores: 400·t. -/
theorem k0_off1_lo : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])

/-- The first row of the lower half-slice: 400·t + 200. -/
theorem k0_off1_hi : ∀ t : Fin cfg0.N, t.val < 25 → k0_off1 (grid0.coords t) 200#32 = ![400 * t.val + 200, 0] :=
  (by decide +kernel : ∀ t : Fin grid0.N, t.val < 25 → k0_off1 (grid0.coords t) 200#32 = ![400 * t.val + 200, 0])

/-! ## Two stacked row slices of a two-axis buffer

Two stores of `h` full rows each, the earlier at rows `n … n + h − 1` and the later at rows `n + h … n + 2h − 1`:
a row below `n` keeps what the buffer held, a row of the earlier slice reads the earlier payload, a row of the
later slice the later payload — each at the row's offset inside its slice. -/

section TwoSlices

variable {κ : Kind} {sp : Space} {R C h : ℕ} {e : EltTy}

/-- The coordinate inside a slice of `h` rows from row `o` of an element whose row lies in the slice. -/
abbrev inSlice (o : ℕ) (j : (⟨2, ![R, C]⟩ : Shape).Idx) (hj : o ≤ (j 0).val ∧ (j 0).val < o + h) : (⟨2, ![h, C]⟩ : Shape).Idx :=
  ValueIdx.ix2 (⟨(j 0).val - o, by omega⟩ : Fin h) (j 1)

/-- The slice places that coordinate back on the element. -/
theorem emb_inSlice (o : ℕ) (off : Fin 2 → ℕ) (hoff : off = ![o, 0])
    (inb : ∀ a, off a + (⟨2, ![h, C]⟩ : Shape).size a ≤ (⟨2, ![R, C]⟩ : Shape).size a)
    (j : (⟨2, ![R, C]⟩ : Shape).Idx) (hj : o ≤ (j 0).val ∧ (j 0).val < o + h) :
    (Rect.unit (s := ⟨2, ![R, C]⟩) off (⟨2, ![h, C]⟩ : Shape).size inb).emb (inSlice o j hj) = j := by
  subst hoff
  refine funext fun a => Fin.ext ?_
  rw [Rect.emb_apply]
  match a with
  | ⟨0, _⟩ => show o + 1 * ((j 0).val - o) = (j 0).val; omega
  | ⟨1, _⟩ => show 0 + 1 * (j 1).val = (j 1).val; omega

/-- An element whose row is outside a slice's rows is not in the slice. -/
theorem not_mem_slice (o : ℕ) (off : Fin 2 → ℕ) (hoff : off = ![o, 0])
    (inb : ∀ a, off a + (⟨2, ![h, C]⟩ : Shape).size a ≤ (⟨2, ![R, C]⟩ : Shape).size a)
    (j : (⟨2, ![R, C]⟩ : Shape).Idx) (hj : (j 0).val < o ∨ o + h ≤ (j 0).val) :
    j ∉ (Rect.unit (s := ⟨2, ![R, C]⟩) off (⟨2, ![h, C]⟩ : Shape).size inb).set := by
  subst hoff
  rw [Rect.mem_set_unit]
  intro hm
  have h0 := hm 0
  have h1 : o ≤ (j 0).val ∧ (j 0).val < o + h := h0
  omega

variable (v : View sig κ sp ⟨2, ![R, C]⟩ e) (f : v.ty.Contents (Elt F))
  (n : ℕ) (offH offL : Fin 2 → ℕ) (hL : offL = ![n, 0]) (hH : offH = ![n + h, 0])
  (inbH : ∀ a, offH a + (⟨2, ![h, C]⟩ : Shape).size a ≤ (⟨2, ![R, C]⟩ : Shape).size a)
  (inbL : ∀ a, offL a + (⟨2, ![h, C]⟩ : Shape).size a ≤ (⟨2, ![R, C]⟩ : Shape).size a)
  (wH wL : (⟨2, ![h, C]⟩ : Shape).Idx → Elt F e) (j : (⟨2, ![R, C]⟩ : Shape).Idx)

include hL hH in
/-- A row below both slices keeps the buffer's contents. -/
theorem read_twoSlices_below (hj : (j 0).val < n) :
    v.read (Elt F) (v.writes (Elt F) f
      [⟨Rect.unit (s := ⟨2, ![R, C]⟩) offH (⟨2, ![h, C]⟩ : Shape).size inbH, wH⟩,
       ⟨Rect.unit (s := ⟨2, ![R, C]⟩) offL (⟨2, ![h, C]⟩ : Shape).size inbL, wL⟩]) j = v.read (Elt F) f j := by
  refine View.read_writes_apply_of_forall_not_mem v f j _ fun p hp => ?_
  rcases List.mem_cons.mp hp with rfl | hp
  · exact not_mem_slice (n + h) offH hH inbH j (by omega)
  · rcases List.mem_cons.mp hp with rfl | hp
    · exact not_mem_slice n offL hL inbL j (by omega)
    · exact absurd hp List.not_mem_nil

include hL hH in
/-- A row of the earlier slice reads the earlier payload. -/
theorem read_twoSlices_lo (hj : n ≤ (j 0).val ∧ (j 0).val < n + h) :
    v.read (Elt F) (v.writes (Elt F) f
      [⟨Rect.unit (s := ⟨2, ![R, C]⟩) offH (⟨2, ![h, C]⟩ : Shape).size inbH, wH⟩,
       ⟨Rect.unit (s := ⟨2, ![R, C]⟩) offL (⟨2, ![h, C]⟩ : Shape).size inbL, wL⟩]) j = wL (inSlice n j hj) := by
  rw [View.writes_cons, View.read_slice_write_of_not_mem _ _ _ _
    (by rw [Rect.map_emb_univ]; exact not_mem_slice (n + h) offH hH inbH j (by omega))]
  have key := View.read_writes_cons_emb v f (Rect.unit (s := ⟨2, ![R, C]⟩) offL (⟨2, ![h, C]⟩ : Shape).size inbL) wL [] (inSlice n j hj)
  rw [emb_inSlice n offL hL inbL j hj] at key
  exact key

include hH in
/-- A row of the later slice reads the later payload. -/
theorem read_twoSlices_hi (hj : n + h ≤ (j 0).val ∧ (j 0).val < n + h + h) :
    v.read (Elt F) (v.writes (Elt F) f
      [⟨Rect.unit (s := ⟨2, ![R, C]⟩) offH (⟨2, ![h, C]⟩ : Shape).size inbH, wH⟩,
       ⟨Rect.unit (s := ⟨2, ![R, C]⟩) offL (⟨2, ![h, C]⟩ : Shape).size inbL, wL⟩]) j = wH (inSlice (n + h) j hj) := by
  have key := View.read_writes_cons_emb v f (Rect.unit (s := ⟨2, ![R, C]⟩) offH (⟨2, ![h, C]⟩ : Shape).size inbH) wH
    [⟨Rect.unit (s := ⟨2, ![R, C]⟩) offL (⟨2, ![h, C]⟩ : Shape).size inbL, wL⟩] (inSlice (n + h) j hj)
  rw [emb_inSlice (n + h) offH hH inbH j hj] at key
  exact key

end TwoSlices

/-! ## The hidden array on the rows a first-phase point stores -/

/-- On the upper 200 rows of point `t`'s block the hidden array is the top window's payload. -/
theorem H1v_lo (c : Dev nD) (t : Fin cfg0.N) (j : S10000x128.Idx)
    (hj : 400 * t.val ≤ (j 0).val ∧ (j 0).val < 400 * t.val + 200) :
    H1v m c j = k0_pay2 (b7 m c t) (S1v m c) (b2 m c t) (inSlice (400 * t.val) j hj) := by
  have hmod : (j 0).val % 400 = (j 0).val - 400 * t.val := by omega
  have hlt : (j 0).val % 400 < 200 := by omega
  have hpt : ptOf j = t := Fin.ext (by show (j 0).val / 400 = t.val; omega)
  unfold H1v
  rw [dif_pos hlt, hpt]
  refine congrArg _ (funext fun a => ?_)
  match a with
  | ⟨0, _⟩ => exact Fin.ext hmod
  | ⟨1, _⟩ => rfl

/-- On the lower 200 rows of point `t`'s block the hidden array is the bottom window's payload. -/
theorem H1v_hi (c : Dev nD) (t : Fin cfg0.N) (j : S10000x128.Idx)
    (hj : 400 * t.val + 200 ≤ (j 0).val ∧ (j 0).val < 400 * t.val + 200 + 200) :
    H1v m c j = k0_pay3 (b8 m c t) (S1v m c) (b2 m c t) (inSlice (400 * t.val + 200) j hj) := by
  have hmod : (j 0).val % 400 - 200 = (j 0).val - (400 * t.val + 200) := by omega
  have hge : ¬ (j 0).val % 400 < 200 := by omega
  have hpt : ptOf j = t := Fin.ext (by show (j 0).val / 400 = t.val; omega)
  unfold H1v
  rw [dif_neg hge, hpt]
  refine congrArg _ (funext fun a => ?_)
  match a with
  | ⟨0, _⟩ => exact Fin.ext hmod
  | ⟨1, _⟩ => rfl

/-- One more first-phase point: after its two slice stores the scratch holds the hidden array on 400 more rows. -/
theorem HInv_step {κ : Kind} {sp : Space} (v : View sig κ sp S10000x128 .f32) (c : Dev nD) (t : Fin cfg0.N) (h25 : t.val < 25)
    (hc2 : cond2 (grid0.coords t)) (f : v.ty.Contents (Elt F)) (hH : HInv m c t.val (v.read (Elt F) f))
    (S : Vec F S10000x128 .f32) (hS : S = S1v m c) :
    HInv m c (t.val + 1) (v.read (Elt F) (v.writes (Elt F) f
      [⟨Rect.unit (s := S10000x128) (k0_off1 (grid0.coords t) 200#32) S200x128.size (k0_off1_inb (grid0.coords t) hc2 1), k0_pay3 (b8 m c t) S (b2 m c t)⟩,
       ⟨Rect.unit (s := S10000x128) (k0_off1 (grid0.coords t) 0#32) S200x128.size (k0_off1_inb (grid0.coords t) hc2 0), k0_pay2 (b7 m c t) S (b2 m c t)⟩])) := by
  subst hS
  intro j hj
  have hlo := k0_off1_lo t h25
  have hhi := k0_off1_hi t h25
  by_cases h1 : (j 0).val < 400 * t.val
  · rw [read_twoSlices_below (h := 200) v f (400 * t.val) _ _ hlo hhi _ _ _ _ j h1]
    exact hH j h1
  · by_cases h2 : (j 0).val < 400 * t.val + 200
    · rw [read_twoSlices_lo (h := 200) v f (400 * t.val) _ _ hlo hhi _ _ _ _ j ⟨by omega, h2⟩]
      exact (H1v_lo m c t j ⟨by omega, h2⟩).symm
    · rw [read_twoSlices_hi (h := 200) v f (400 * t.val) _ _ hhi _ _ _ _ j ⟨by omega, by omega⟩]
      exact (H1v_hi m c t j ⟨by omega, by omega⟩).symm

/-- The two half-block stores of a second-phase point read back as that point's output block, whatever was there. -/
theorem Oblk_eq {κ : Kind} {sp : Space} (v : View sig κ sp S400x40 .f32) (c : Dev nD) (t : Fin cfg0.N) (f : v.ty.Contents (Elt F))
    (S : Vec F S10000x128 .f32) (hS : S = S2v m c) :
    v.read (Elt F) (v.writes (Elt F) f
      [⟨Rect.unit (s := S400x40) ![200, 0] S200x40.size inb_S400x40_S200x40_200_0,
          k0_pay5 (k0_pay7 (b8 m c t) S (b4 m c t)) (b5 m c t) (constant S200x40 .f32 0x00000000#32) (b6 m c t)⟩,
       ⟨Rect.unit (s := S400x40) ![0, 0] S200x40.size inb_S400x40_S200x40_0_0,
          k0_pay6 (b7 m c t) S (b4 m c t) (b5 m c t) (b6 m c t)⟩]) = Oblk m c t := by
  subst hS
  funext j
  have h400 : (j 0).val < 400 := (j 0).isLt
  by_cases h1 : (j 0).val < 200
  · rw [read_twoSlices_lo (h := 200) v f 0 _ _ rfl rfl _ _ _ _ j ⟨by omega, by omega⟩]
    unfold Oblk
    rw [dif_pos h1]
    refine congrArg _ (funext fun a => ?_)
    match a with
    | ⟨0, _⟩ => exact Fin.ext (Nat.sub_zero _)
    | ⟨1, _⟩ => rfl
  · rw [read_twoSlices_hi (h := 200) v f 0 _ _ rfl _ _ _ _ j ⟨by omega, by omega⟩]
    unfold Oblk
    rw [dif_neg h1]

end Cert.Kernel.Hand

end
-- ==== Proof.K.BodyA.lean ====
/-
  The body obligation at the first grid point: both scratch buffers hold anything; the point leaves S₁ in the support
  scratch and the hidden array's first 400 rows in the hidden scratch.
-/
import proofs.«155996_g78357383349033_cont_sun_m_330_6_alg».proof.Proof.K.BodyDefs
import proofs.«155996_g78357383349033_cont_sun_m_330_6_alg».proof.Proof.K.RunA
import proofs.«155996_g78357383349033_cont_sun_m_330_6_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (h0 : t.val = 0) :
    bodyPre m c t ⊢ wp frame (wpE (defs₀ (F := F)) Variants.none c none) Set.univ (bodyAt0 t) (fun _ => bodyPost m c t) := by
  have h25 : t.val < 25 := by omega
  have hc1 : cond1 (grid0.coords t) := (hcond1 t).mpr h0
  have hc2 : cond2 (grid0.coords t) := (hcond2 t).mpr h25
  have hc3 : ¬cond3 (grid0.coords t) := fun h => by have := (hcond3 t).mp h; omega
  have hc4 : ¬cond4 (grid0.coords t) := fun h => by have := (hcond4 t).mp h; omega
  have hS : k0_pay1 (b0 m c t) (b1 m c t) = S1v m c := by
    have ht : t = t0 := Fin.ext h0
    subst ht; rfl
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, show Phi m c t.val = Phi m c 0 from by rw [h0], Phi_zero,
    Phi_lo m c (t.val + 1) (Nat.succ_ne_zero _) h25]
  rw [leaves0, leaves1, leaves2, leaves3, leaves4, leaves5, leaves6, leaves7, leaves8, leaves9_lo m c t h25]
  iintro ⟨⟨⟨%dH, HH⟩, ⟨%dS, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b0 m c t) (b1 m c t) (b2 m c t) (b7 m c t) (b8 m c t) dH dS Set.univ _)
  isplitl [H0]; · iexact H0
  isplitl [H1]; · iexact H1
  isplitl [H2]; · iexact H2
  isplitl [H7]; · iexact H7
  isplitl [H8]; · iexact H8
  isplitl [HH]; · iexact HH
  isplitl [HS]; · iexact HS
  iintro ⟨H0, H1, H2, H7, H8, HH, HS⟩
  isplitl [HH HS]
  · isplitl [HH]
    · iexists _
      isplitr
      swap
      · unfold owns; iexists _; isplitr
        swap; · iexact HH
        ipureintro; rfl
      · ipureintro
        exact HInv_step m scH.view c t h25 hc2 _ (fun j hj => by rw [h0] at hj; omega) _ hS
    · rw [← hS]; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Hand

end
-- ==== Proof.K.RunB.lean ====
/-
  The kernel body at a first-phase point after the first: two blocks of 200 rows of the adjacency matrix are multiplied
  with the resident support product, the bias row is added, the rectifier applied, and the two results stored into the
  hidden scratch at rows 400·i … 400·i + 399; nothing else is written.
-/
import proofs.«155996_g78357383349033_cont_sun_m_330_6_alg».proof.Proof.K.Common
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

set_option maxHeartbeats 4000000 in
/-- The body run at a point of the first phase other than its first: the hidden scratch ends with the two slice stores
    written over what it held; the inputs and the support scratch are handed back as found. -/
theorem runB (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : ¬cond1 i) (hc2 : cond2 i) (hc3 : ¬cond3 i) (hc4 : ¬cond4 i)
    (x2 : Vec F S1x128 .f32) (x7 x8 : Vec F S200x10000 .f32) (xh xs : Vec F S10000x128 .f32)
    (E : Set ℕ) (K : PUnit → sProp 𝕄) :
    iprop(owns (c : Thread nD τ) arg4 fullShare x2 ∗ owns (c : Thread nD τ) arg9 fullShare x7 ∗ owns (c : Thread nD τ) arg10 fullShare x8 ∗ owns (c : Thread nD τ) arg12 fullShare xh ∗ owns (c : Thread nD τ) arg13 fullShare xs
        ∗ (iprop(owns (c : Thread nD τ) arg4 fullShare x2 ∗ owns (c : Thread nD τ) arg9 fullShare x7 ∗ owns (c : Thread nD τ) arg10 fullShare x8
            ∗ (arg12.view.loc (c : Thread nD τ) ↦[arg12.view.set]{fullShare} arg12.view.writes (Elt F) (harg12.unread xh)
                [⟨Rect.unit (s := S10000x128) (k0_off1 i 200#32) S200x128.size (k0_off1_inb i hc2 1), k0_pay3 x8 xs x2⟩,
                 ⟨Rect.unit (s := S10000x128) (k0_off1 i 0#32) S200x128.size (k0_off1_inb i hc2 0), k0_pay2 x7 xs x2⟩])
            ∗ owns (c : Thread nD τ) arg13 fullShare xs) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  unfold owns
  iintro ⟨⟨%f2, %hf2, H2⟩, ⟨%f7, %hf7, H7⟩, ⟨%f8, %hf8, H8⟩, ⟨%fh, %hfh, HH⟩, ⟨%fs, %hfs, HS⟩, Hk⟩
  obtain rfl := harg4.eq_unread hf2; obtain rfl := harg9.eq_unread hf7; obtain rfl := harg10.eq_unread hf8
  obtain rfl := harg12.eq_unread hfh; obtain rfl := harg13.eq_unread hfs
  sl_exec (disch := first | exact hc1 | exact hc2 | exact hc3 | exact hc4)
  sl_step
  have e2 : View.readAt (Elt F) arg4.view (Rect.unit ![0, 0] S1x128.size inb_S1x128_S1x128_0_0).toLoadRect (harg4.unread x2) = x2 := by
    rw [View.readAt_eq_ld, harg4.read_unread]; exact View.ld_unit_zero (S := S1x128) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  have es : View.readAt (Elt F) arg13.view (Rect.unit ![0, 0] S10000x128.size inb_S10000x128_S10000x128_0_0).toLoadRect (harg13.unread xs) = xs := by
    rw [View.readAt_eq_ld, harg13.read_unread]; exact View.ld_unit_zero (S := S10000x128) hz _ _
  rw [e2, e7, e8, es]
  iapply Hk
  isplitl [H2]
  · iexists _; isplitr; · ipureintro; exact harg4.read_unread _
    iexact H2
  isplitl [H7]
  · iexists _; isplitr; · ipureintro; exact harg9.read_unread _
    iexact H7
  isplitl [H8]
  · iexists _; isplitr; · ipureintro; exact harg10.read_unread _
    iexact H8
  isplitl [HH]
  · iexact HH
  · iexists _; isplitr; · ipureintro; exact harg13.read_unread _
    iexact HS

end Cert.Kernel.Hand

end
-- ==== Proof.K.BodyB.lean ====
/-
  The body obligation at a first-phase point after the first: the support scratch holds S₁ and is only read; the hidden
  scratch, right on its first 400·t rows, is right on 400 more after the point's two slice stores; every window's buffer
  is handed back as found.
-/
import proofs.«155996_g78357383349033_cont_sun_m_330_6_alg».proof.Proof.K.BodyDefs
import proofs.«155996_g78357383349033_cont_sun_m_330_6_alg».proof.Proof.K.RunB
import proofs.«155996_g78357383349033_cont_sun_m_330_6_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  have hc1 : ¬cond1 (grid0.coords t) := fun h => h0 ((hcond1 t).mp h)
  have hc2 : cond2 (grid0.coords t) := (hcond2 t).mpr h25
  have hc3 : ¬cond3 (grid0.coords t) := fun h => by have := (hcond3 t).mp h; omega
  have hc4 : ¬cond4 (grid0.coords t) := fun h => by have := (hcond4 t).mp h; omega
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, Phi_lo m c t.val h0 (Nat.le_of_lt h25), Phi_lo m c (t.val + 1) (Nat.succ_ne_zero _) h25]
  rw [leaves0, leaves1, leaves2, leaves3, leaves4, leaves5, leaves6, leaves7, leaves8, leaves9_lo m c t h25]
  iintro ⟨⟨⟨%H, %hH, HH⟩, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b2 m c t) (b7 m c t) (b8 m c t) H (S1v m c) Set.univ _)
  isplitl [H2]; · iexact H2
  isplitl [H7]; · iexact H7
  isplitl [H8]; · iexact H8
  isplitl [HH]; · iexact HH
  isplitl [HS]; · iexact HS
  iintro ⟨H2, H7, H8, HH, HS⟩
  isplitl [HH HS]
  · isplitl [HH]
    · iexists _
      isplitr
      swap
      · unfold owns; iexists _; isplitr
        swap; · iexact HH
        ipureintro; rfl
      · ipureintro
        exact HInv_step m scH.view c t h25 hc2 _
          (show HInv m c t.val (scH.view.read (Elt F) ((Memref.isWhole_whole _ : scH.IsWhole).unread H)) from by
            rw [Memref.IsWhole.read_unread]; exact hH) _ rfl
    · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.Kernel.Hand

end
-- ==== Proof.K.RunC.lean ====
/-
  The kernel body at the first point of the second phase: the support product H · W2 of the whole hidden scratch is stored
  into the support scratch, then read back by the two adjacency blocks' products, which go through the class weights and the
  row-wise log-softmax into the two halves of the output block.
-/
import proofs.«155996_g78357383349033_cont_sun_m_330_6_alg».proof.Proof.K.Common
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem hz2 : (![0, 0] : Fin 2 → ℕ) = fun _ => 0 := by funext a; fin_cases a <;> rfl

/-- A whole-buffer store over anything reads back as its payload. -/
private theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

set_option maxHeartbeats 8000000 in
/-- The body run at the first point of the second phase: the support scratch ends at H · W2 (H what the hidden scratch holds),
    the output block with its two halves stored; the inputs and the hidden scratch are handed back as found. -/
theorem runC (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : ¬cond1 i) (hc2 : ¬cond2 i) (hc3 : cond3 i) (hc4 : cond4 i)
    (x3 : Vec F S128x128 .f32) (x4 : Vec F S1x128 .f32) (x5 : Vec F S128x40 .f32) (x6 : Vec F S1x40 .f32) (x7 x8 : Vec F S200x10000 .f32) (xo : Vec F S400x40 .f32) (xh xs : Vec F S10000x128 .f32)
    (E : Set ℕ) (K : PUnit → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xh ∗ owns (c : Thread nD τ) arg13 fullShare xs
        ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (arg11.view.loc (c : Thread nD τ) ↦[arg11.view.set]{fullShare} arg11.view.writes (Elt F) (harg11.unread xo)
                [⟨Rect.unit (s := S400x40) ![200, 0] S200x40.size inb_S400x40_S200x40_200_0, k0_pay5 (k0_pay7 x8 (k0_pay4 xh x3) x4) x5 (constant S200x40 .f32 0x00000000#32) x6⟩,
                 ⟨Rect.unit (s := S400x40) ![0, 0] S200x40.size inb_S400x40_S200x40_0_0, k0_pay6 x7 (k0_pay4 xh x3) x4 x5 x6⟩])
            ∗ owns (c : Thread nD τ) arg12 fullShare xh ∗ owns (c : Thread nD τ) arg13 fullShare (k0_pay4 xh x3)) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fh, %hfh, HH⟩, ⟨%fs, %hfs, HS⟩, Hk⟩
  obtain rfl := harg5.eq_unread hf3
  obtain rfl := harg6.eq_unread hf4; obtain rfl := harg7.eq_unread hf5; obtain rfl := harg8.eq_unread hf6
  obtain rfl := harg9.eq_unread hf7; obtain rfl := harg10.eq_unread hf8
  obtain rfl := harg11.eq_unread hfo; obtain rfl := harg12.eq_unread hfh; obtain rfl := harg13.eq_unread hfs
  sl_exec (disch := first | exact hc1 | exact hc2 | exact hc3 | exact hc4)
  sl_step
  sl_unfold_run_names
  have e3 : View.readAt (Elt F) arg5.view (Rect.unit ![0, 0] S128x128.size inb_S128x128_S128x128_0_0).toLoadRect (harg5.unread x3) = x3 := by
    rw [View.readAt_eq_ld, harg5.read_unread]; exact View.ld_unit_zero (S := S128x128) hz _ _
  have e4 : View.readAt (Elt F) arg6.view (Rect.unit ![0, 0] S1x128.size inb_S1x128_S1x128_0_0).toLoadRect (harg6.unread x4) = x4 := by
    rw [View.readAt_eq_ld, harg6.read_unread]; exact View.ld_unit_zero (S := S1x128) hz _ _
  have e5 : View.readAt (Elt F) arg7.view (Rect.unit ![0, 0] S128x40.size inb_S128x40_S128x40_0_0).toLoadRect (harg7.unread x5) = x5 := by
    rw [View.readAt_eq_ld, harg7.read_unread]; exact View.ld_unit_zero (S := S128x40) hz _ _
  have e6 : View.readAt (Elt F) arg8.view (Rect.unit ![0, 0] S1x40.size inb_S1x40_S1x40_0_0).toLoadRect (harg8.unread x6) = x6 := by
    rw [View.readAt_eq_ld, harg8.read_unread]; exact View.ld_unit_zero (S := S1x40) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  have eh : View.readAt (Elt F) arg12.view (Rect.unit ![0, 0] S10000x128.size inb_S10000x128_S10000x128_0_0).toLoadRect (harg12.unread xh) = xh := by
    rw [View.readAt_eq_ld, harg12.read_unread]; exact View.ld_unit_zero (S := S10000x128) hz _ _
  rw [e3, e4, e5, e6, e7, e8, eh]
  rw [View.readCov_unit_zero (Val := Elt F) (S := S10000x128) (e := .f32) arg13.view hz inb_S10000x128_S10000x128_0_0 (k0_pay4 xh x3)]
  iapply Hk
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexact HO
  isplitl [HH]
  · iexists _; isplitr; · ipureintro; exact harg12.read_unread _
    iexact HH
  · iexists _; isplitr
    swap; · iexact HS
    ipureintro; exact read_writes_whole _ _ hz _ _

end Cert.Kernel.Hand

end
-- ==== Proof.K.BodyC.lean ====
/-
  The body obligation at the first point of the second phase: the hidden scratch holds the whole hidden array; the point
  leaves S₂ in the support scratch and stores the first output block.
-/
import proofs.«155996_g78357383349033_cont_sun_m_330_6_alg».proof.Proof.K.BodyDefs
import proofs.«155996_g78357383349033_cont_sun_m_330_6_alg».proof.Proof.K.RunC
import proofs.«155996_g78357383349033_cont_sun_m_330_6_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (h25 : t.val = 25) :
    bodyPre m c t ⊢ wp frame (wpE (defs₀ (F := F)) Variants.none c none) Set.univ (bodyAt0 t) (fun _ => bodyPost m c t) := by
  have hge : 25 ≤ t.val := by omega
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr h25
  have hc4 : cond4 (grid0.coords t) := (hcond4 t).mpr hge
  have hS : k0_pay4 (H1v m c) (b3 m c t) = S2v m c := by
    have ht : t = t25 := Fin.ext h25
    subst ht; rfl
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, Phi_lo m c t.val (by omega) (by omega), Phi_hi m c (t.val + 1) (by omega)]
  rw [leaves0, leaves1, leaves2, leaves3, leaves4, leaves5, leaves6, leaves7, leaves8, leaves9_hi m c t hge]
  iintro ⟨⟨⟨%H, %hH, HH⟩, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hHe : H = H1v m c := HInv_full m c t.val hge H hH
  subst hHe
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b3 m c t) (b4 m c t) (b5 m c t) (b6 m c t) (b7 m c t) (b8 m c t) ((dats m 0 c).before 9 t d9) (H1v m c) (S1v m c) Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  iintro ⟨H3, H4, H5, H6, H7, H8, H9, HH, HS⟩
  isplitl [HH HS]
  · isplitl [HH]
    · iexists _
      isplitr
      · ipureintro; rw [h25] at hH; exact hH
      · iexact HH
    · rw [← hS]; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact Oblk_eq m (ms9 t).view c t _ _ hS

end Cert.Kernel.Hand

end
-- ==== Proof.K.RunD.lean ====
/-
  The kernel body at a second-phase point after its first: each of the two adjacency blocks is multiplied with the resident
  support product, the bias row added, the result multiplied with the class weights, the class bias added, and the row-wise
  log-softmax stored into the upper and the lower 200 rows of the output block.
-/
import proofs.«155996_g78357383349033_cont_sun_m_330_6_alg».proof.Proof.K.Common
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem hz2 : (![0, 0] : Fin 2 → ℕ) = fun _ => 0 := by funext a; fin_cases a <;> rfl

set_option maxHeartbeats 8000000 in
/-- The body run at a point of the second phase other than its first: the output block ends with its two halves stored;
    the inputs and the support scratch are handed back as found. -/
theorem runD (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : ¬cond1 i) (hc2 : ¬cond2 i) (hc3 : ¬cond3 i) (hc4 : cond4 i)
    (x4 : Vec F S1x128 .f32) (x5 : Vec F S128x40 .f32) (x6 : Vec F S1x40 .f32) (x7 x8 : Vec F S200x10000 .f32) (xo : Vec F S400x40 .f32) (xs : Vec F S10000x128 .f32)
    (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg13 fullShare xs
        ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (arg11.view.loc (c : Thread nD τ) ↦[arg11.view.set]{fullShare} arg11.view.writes (Elt F) (harg11.unread xo)
                [⟨Rect.unit (s := S400x40) ![200, 0] S200x40.size inb_S400x40_S200x40_200_0, k0_pay5 (k0_pay7 x8 xs x4) x5 (constant S200x40 .f32 0x00000000#32) x6⟩,
                 ⟨Rect.unit (s := S400x40) ![0, 0] S200x40.size inb_S400x40_S200x40_0_0, k0_pay6 x7 xs x4 x5 x6⟩])
            ∗ owns (c : Thread nD τ) arg13 fullShare xs) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  simp only [k0_part1_eq_skeleton]
  unfold owns
  iintro ⟨⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg6.eq_unread hf4; obtain rfl := harg7.eq_unread hf5; obtain rfl := harg8.eq_unread hf6
  obtain rfl := harg9.eq_unread hf7; obtain rfl := harg10.eq_unread hf8
  obtain rfl := harg11.eq_unread hfo; obtain rfl := harg13.eq_unread hfs
  sl_exec (disch := first | exact hc1 | exact hc2 | exact hc3 | exact hc4)
  sl_step
  sl_unfold_run_names
  have e4 : View.readAt (Elt F) arg6.view (Rect.unit ![0, 0] S1x128.size inb_S1x128_S1x128_0_0).toLoadRect (harg6.unread x4) = x4 := by
    rw [View.readAt_eq_ld, harg6.read_unread]; exact View.ld_unit_zero (S := S1x128) hz _ _
  have e5 : View.readAt (Elt F) arg7.view (Rect.unit ![0, 0] S128x40.size inb_S128x40_S128x40_0_0).toLoadRect (harg7.unread x5) = x5 := by
    rw [View.readAt_eq_ld, harg7.read_unread]; exact View.ld_unit_zero (S := S128x40) hz _ _
  have e6 : View.readAt (Elt F) arg8.view (Rect.unit ![0, 0] S1x40.size inb_S1x40_S1x40_0_0).toLoadRect (harg8.unread x6) = x6 := by
    rw [View.readAt_eq_ld, harg8.read_unread]; exact View.ld_unit_zero (S := S1x40) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  have es : View.readAt (Elt F) arg13.view (Rect.unit ![0, 0] S10000x128.size inb_S10000x128_S10000x128_0_0).toLoadRect (harg13.unread xs) = xs := by
    rw [View.readAt_eq_ld, harg13.read_unread]; exact View.ld_unit_zero (S := S10000x128) hz _ _
  rw [e4, e5, e6, e7, e8, es]
  iapply Hk
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexact HO
  · iexists _; isplitr; · ipureintro; exact harg13.read_unread _
    iexact HS

end Cert.Kernel.Hand

end
-- ==== Proof.K.BodyD.lean ====
/-
  The body obligation at a second-phase point after its first: the support scratch holds S₂ and is only read; the point
  stores its output block.
-/
import proofs.«155996_g78357383349033_cont_sun_m_330_6_alg».proof.Proof.K.BodyDefs
import proofs.«155996_g78357383349033_cont_sun_m_330_6_alg».proof.Proof.K.RunD
import proofs.«155996_g78357383349033_cont_sun_m_330_6_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_D (c : Dev nD) (t : Fin cfg0.N) (h25 : 25 < t.val) :
    bodyPre m c t ⊢ wp frame (wpE (defs₀ (F := F)) Variants.none c none) Set.univ (bodyAt0 t) (fun _ => bodyPost m c t) := by
  have hge : 25 ≤ t.val := by omega
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr hge
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, Phi_hi m c t.val h25, Phi_hi m c (t.val + 1) (by omega)]
  rw [leaves0, leaves1, leaves2, leaves3, leaves4, leaves5, leaves6, leaves7, leaves8, leaves9_hi m c t hge]
  iintro ⟨⟨HH, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b4 m c t) (b5 m c t) (b6 m c t) (b7 m c t) (b8 m c t) ((dats m 0 c).before 9 t d9) (S2v m c) Set.univ _)
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H4, H5, H6, H7, H8, H9, HS⟩
  isplitl [HH HS]
  · isplitl [HH]
    · iexact HH
    · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact Oblk_eq m (ms9 t).view c t _ _ rfl

end Cert.Kernel.Hand

end
-- ==== Proof.K.Body.lean ====
/-
  The body obligation at every grid point: the point is the first, a later one of the first phase, the first of the second
  phase, or a later one of the second phase.
-/
import proofs.«155996_g78357383349033_cont_sun_m_330_6_alg».proof.Proof.K.BodyA
import proofs.«155996_g78357383349033_cont_sun_m_330_6_alg».proof.Proof.K.BodyB
import proofs.«155996_g78357383349033_cont_sun_m_330_6_alg».proof.Proof.K.BodyC
import proofs.«155996_g78357383349033_cont_sun_m_330_6_alg».proof.Proof.K.BodyD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 25
  · exact sound_B m c t h0 h1
  by_cases h2 : t.val = 25
  · exact sound_C m c t h2
  · exact sound_D m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Final.lean ====
/-
  The kernel's whole result array. Point t of the second phase writes its block of 400 rows back to rows
  400·(t − 25) … 400·(t − 25) + 399 of the result, once; the 25 blocks tile the 10000 rows: the array ends holding, at row r,
  row r mod 400 of the block of point 25 + r / 400.
-/
import proofs.«155996_g78357383349033_cont_sun_m_330_6_alg».proof.Proof.K.Data
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second-phase point whose block holds result row `r`. -/
def ptOut (j : S10000x40.Idx) : Fin cfg0.N := ⟨25 + (j 0).val / 400, by
  have h : (j 0).val < 10000 := (j 0).isLt
  have hN : cfg0.N = 50 := N_0
  omega⟩

/-- The kernel's result array. -/
def Gout (c : Dev nD) : Vec F S10000x40 .f32 := fun j =>
  Oblk m c (ptOut j) (ValueIdx.ix2 (⟨(j 0).val % 400, Nat.mod_lt _ (by decide)⟩ : Fin 400) (j 1))

/-- The result window's printed index map, decided once over the grid: at a point of the second phase the block index is
    the point's number within the phase on the rows and zero on the columns. -/
theorem idx9 : ∀ t : Fin cfg0.N, 25 ≤ t.val → win0_9.index t (0 : Fin 2) = t.val - 25 ∧ win0_9.index t (1 : Fin 2) = 0 :=
  (by decide +kernel : ∀ t : Fin grid0.N, 25 ≤ t.val → win0_9.index t (0 : Fin 2) = t.val - 25 ∧ win0_9.index t (1 : Fin 2) = 0)

/-- What a point t of the second phase writes back is its block of the result array: the element y of the block sits at
    row 400·(t − 25) + y₀, whose covering point is t and whose row inside that point's block is y₀. -/
theorem flushed9_eq (c : Dev nD) (t : Fin cfg0.N) (ht : 25 ≤ t.val) :
    (dats m 0 c).flushed 9 t = ((cfg0.win 9).blk t).view.read (Elt F) (Gout m c) := by
  show (cfg0.win 9).cut (grid0.coords t) ((dats m 0 c).after 9 t) = _
  rw [after9]
  obtain ⟨e0, e1⟩ := idx9 t ht
  have hN : cfg0.N = 50 := N_0
  have htN : t.val < 50 := hN ▸ t.isLt
  funext y
  have hy0 : (y 0).val < 400 := (y 0).isLt
  have hy1 : (y 1).val < 40 := (y 1).isLt
  -- the array index of the block's element y: block index × block size + the coordinate inside the block
  have k0 : ((((cfg0.win 9).blk t).view.emb y : S10000x40.Idx) 0).val = (t.val - 25) * 400 + (y 0).val := by
    show win0_9.index t (0 : Fin 2) * 400 + 1 * (y 0).val = _
    rw [e0]; omega
  have k1 : ((((cfg0.win 9).blk t).view.emb y : S10000x40.Idx) 1).val = (y 1).val := by
    show win0_9.index t (1 : Fin 2) * 40 + 1 * (y 1).val = _
    rw [e1]; omega
  show Oblk m c t ((cfg0.win 9).xinj (grid0.coords t) y)
    = Oblk m c (ptOut (((cfg0.win 9).blk t).view.emb y))
        (ValueIdx.ix2 (⟨((((cfg0.win 9).blk t).view.emb y : S10000x40.Idx) 0).val % 400, Nat.mod_lt _ (by decide)⟩ : Fin 400)
          ((((cfg0.win 9).blk t).view.emb y : S10000x40.Idx) 1))
  -- the point covering that row is t itself
  have hp : ptOut (((cfg0.win 9).blk t).view.emb y) = t :=
    Fin.ext (by show 25 + ((((cfg0.win 9).blk t).view.emb y : S10000x40.Idx) 0).val / 400 = t.val; rw [k0]; omega)
  rw [hp]
  congr 1
  funext a
  apply Fin.ext
  match a with
  | ⟨0, _⟩ => show (y 0).val = ((((cfg0.win 9).blk t).view.emb y : S10000x40.Idx) 0).val % 400; rw [k0]; omega
  | ⟨1, _⟩ => show (y 1).val = ((((cfg0.win 9).blk t).view.emb y : S10000x40.Idx) 1).val; rw [k1]

/-- An index of the result array is in point t's block iff each coordinate is in the block's range on its axis. -/
theorem mem_blk9 (t : Fin cfg0.N) (i : S10000x40.Idx) :
    i ∈ ((cfg0.win 9).blk t).view.set ↔ ∀ a : Fin 2, win0_9.index t a * S400x40.size a ≤ (i a).val ∧ (i a).val < win0_9.index t a * S400x40.size a + S400x40.size a := by
  show i ∈ ((View.whole main_v0).slice (win0_9.rect t)).set ↔ _
  rw [View.set_slice_whole, Rect.mem_set_unit]
  exact Iff.rfl

/-- The 25 blocks of the second phase tile the 10000 rows: row r is in the block of point 25 + r / 400, which writes back. -/
theorem cover9 (i : S10000x40.Idx) : ∃ t : Fin cfg0.N, (cfg0.win 9).flush t = true ∧ i ∈ ((cfg0.win 9).blk t).view.set := by
  have hi0 : (i 0).val < 10000 := (i 0).isLt
  have hi1 : (i 1).val < 40 := (i 1).isLt
  have hv : (ptOut i).val = 25 + (i 0).val / 400 := rfl
  have hp : 25 ≤ (ptOut i).val := by omega
  obtain ⟨e0, e1⟩ := idx9 (ptOut i) hp
  refine ⟨ptOut i, flush9_hi _ hp, ?_⟩
  rw [mem_blk9]
  intro a
  match a with
  | ⟨0, _⟩ =>
    show win0_9.index (ptOut i) (0 : Fin 2) * 400 ≤ (i 0).val ∧ (i 0).val < win0_9.index (ptOut i) (0 : Fin 2) * 400 + 400
    rw [e0, hv]; omega
  | ⟨1, _⟩ =>
    show win0_9.index (ptOut i) (1 : Fin 2) * 40 ≤ (i 1).val ∧ (i 1).val < win0_9.index (ptOut i) (1 : Fin 2) * 40 + 40
    rw [e1]; omega

/-- After the last point the result window's array holds the result array. -/
theorem final9 (c : Dev nD) : (dats m 0 c).arrAt 9 cfg0.N = Gout m c :=
  (dats m 0 c).arrAt_eq_of_cover 9 (Gout m c)
    (fun t hf => flushed9_eq m c t (by
      by_contra h
      have hlo : (cfg0.win 9).flush t = false := noFlush9_lo t (by omega)
      rw [hlo] at hf
      exact Bool.false_ne_true hf))
    cover9

end Cert.Kernel.Hand

end
-- ==== Proof.K.VArgs.lean ====
/-
  The arrays as the kernel region finds them: the eight argument arrays are untouched by the three reshapes before the
  region, and each reshaped bias row holds the bias vector's entries.
-/
import proofs.«155996_g78357383349033_cont_sun_m_330_6_alg».proof.Proof.K.Common
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each of the three reshapes writes only its own result row, and an argument is none of those three references. -/
local macro "not_written" : tactic =>
  `(tactic| (simp only [hostOps0, List.Forall, StableHlo.TRef.reshape, StableHlo.reshape_writes, Finset.mem_singleton]
             repeat' apply And.intro
             all_goals exact StableHlo.devRef_ne_of_ne (by decide)))

/-- None of the three reshapes writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- None of the three reshapes writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- None of the three reshapes writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- None of the three reshapes writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- None of the three reshapes writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- None of the three reshapes writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- None of the three reshapes writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- None of the three reshapes writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))

/-- The first bias row: entry (0, k) is the first bias vector's entry k. -/
theorem V_b1row (c : Dev nD) (k : Fin 128) :
    (V m c main_call0_v0 : S1x128.Idx → Elt F .f32) (ValueIdx.ix2 0 k) = (m ((c : Thread nD τ).loc main_arg3) : S128.Idx → Elt F .f32) (ValueIdx.ix1 k) := by
  -- the row is the vector recast to one row of the same length
  have e : (V m c main_call0_v0 : S1x128.Idx → Elt F .f32)
      = shapeCast S1x128 (m ((c : Thread nD τ).loc main_arg3) : S128.Idx → Elt F .f32) shapeCasts_S128_S1x128 := by
    dsimp only [V, V0, hostOps0]; after_results; rfl
  rw [e]
  -- a recast keeps the row-major position: entry (0, k) of the row sits at position 0 * 128 + k = k
  exact shapeCast_apply _ _ (ValueIdx.ix2 0 k) (ValueIdx.ix1 k) (by
    rw [Shape.rowMajor_val_two, Shape.rowMajor_val_one]; show k.val = 0 * 128 + k.val; omega)

/-- The second bias row. -/
theorem V_b2row (c : Dev nD) (k : Fin 128) :
    (V m c main_call0_v1 : S1x128.Idx → Elt F .f32) (ValueIdx.ix2 0 k) = (m ((c : Thread nD τ).loc main_arg5) : S128.Idx → Elt F .f32) (ValueIdx.ix1 k) := by
  -- the row is the vector recast to one row of the same length
  have e : (V m c main_call0_v1 : S1x128.Idx → Elt F .f32)
      = shapeCast S1x128 (m ((c : Thread nD τ).loc main_arg5) : S128.Idx → Elt F .f32) shapeCasts_S128_S1x128 := by
    dsimp only [V, V0, hostOps0]; after_results; rfl
  rw [e]
  -- a recast keeps the row-major position: entry (0, k) of the row sits at position 0 * 128 + k = k
  exact shapeCast_apply _ _ (ValueIdx.ix2 0 k) (ValueIdx.ix1 k) (by
    rw [Shape.rowMajor_val_two, Shape.rowMajor_val_one]; show k.val = 0 * 128 + k.val; omega)

/-- The class bias row. -/
theorem V_bfcrow (c : Dev nD) (k : Fin 40) :
    (V m c main_call0_v2 : S1x40.Idx → Elt F .f32) (ValueIdx.ix2 0 k) = (m ((c : Thread nD τ).loc main_arg7) : S40.Idx → Elt F .f32) (ValueIdx.ix1 k) := by
  -- the row is the vector recast to one row of the same length
  have e : (V m c main_call0_v2 : S1x40.Idx → Elt F .f32)
      = shapeCast S1x40 (m ((c : Thread nD τ).loc main_arg7) : S40.Idx → Elt F .f32) shapeCasts_S40_S1x40 := by
    dsimp only [V, V0, hostOps0]; after_results; rfl
  rw [e]
  -- a recast keeps the row-major position: entry (0, k) of the row sits at position 0 * 40 + k = k
  exact shapeCast_apply _ _ (ValueIdx.ix2 0 k) (ValueIdx.ix1 k) (by
    rw [Shape.rowMajor_val_two, Shape.rowMajor_val_one]; show k.val = 0 * 40 + k.val; omega)

end Cert.Kernel.Hand

end
-- ==== Proof.K.Frame.lean ====
/-
  The run of the program: the launch over the proof data and the body obligation; then what it leaves — the eight argument
  arrays as they were, and the result array at the kernel's result function.
-/
import proofs.«155996_g78357383349033_cont_sun_m_330_6_alg».proof.Proof.K.Body
import proofs.«155996_g78357383349033_cont_sun_m_330_6_alg».proof.Proof.K.Final
import proofs.«155996_g78357383349033_cont_sun_m_330_6_alg».proof.Proof.K.VArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region — the two scratch buffers at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_eq, show (dats m 0 c).Φ 0 = Phi m c 0 from rfl, Phi_zero]

/-- After the last point the invariant gives the two scratch buffers back, their contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : (Fin.last cfg0.N).val = 50 := by rw [Fin.val_last]; exact N_0
  rw [scopedRest_eq, show (dats m 0 c).Φ (Fin.last cfg0.N) = Phi m c (Fin.last cfg0.N).val from rfl, hN, Phi_hi m c 50 (by decide)]
  iintro ⟨⟨%H, -, HH⟩, HS⟩
  isplitl [HH]
  · iexists _; iexact HH
  · iexists _; iexact HS

/-- Every weakly fair execution of the program terminates, each window's array at what the write-backs leave and every
    other unscoped buffer as the region found it. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  launch m ρ (dats m) (fun c => (body_obligation m c).loose) (fun _ _ => rfl) (A_eq m) (fun _ _ => rfl) (hin m) (hout m)

/-- The program runs, and its argument arrays end unchanged, its result array at the kernel's result function. -/
theorem run_value : θ_run (defs (F := F)) (onTc (τ := τ) (main (F := F))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c =>
    ⟨((h c).1 9).trans (final9 m c),
     ((h c).1 0).trans (((dats m 0 c).arrAt_in 0 rfl _).trans ((A_eq m c 0).trans (V_main_arg0 m c))),
     ((h c).1 7).trans (((dats m 0 c).arrAt_in 7 rfl _).trans ((A_eq m c 7).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c),
     ((h c).1 3).trans (((dats m 0 c).arrAt_in 3 rfl _).trans ((A_eq m c 3).trans (V_main_arg4 m c))),
     ((h c).2 main_arg5 (Pipeline.mem_restRefs_of main_arg5 rfl (by decide))).trans (V_main_arg5 m c),
     ((h c).1 5).trans (((dats m 0 c).arrAt_in 5 rfl _).trans ((A_eq m c 5).trans (V_main_arg6 m c))),
     ((h c).2 main_arg7 (Pipeline.mem_restRefs_of main_arg7 rfl (by decide))).trans (V_main_arg7 m c)⟩) (run_main m ρ)

/-- The frame: the program runs and its argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c => (h c).2) (run_value m ρ)

end Cert.Kernel.Hand

end
-- ==== Proof.KI.Common.lean ====
/-
  What the four runs of the kernel body and the proof data share: the arrays as the kernel region finds them (the three
  bias vectors reshaped to rows before it), the blocks the windows stage at each grid point, and at which points of the
  2 × 25 grid each of the body's four guarded stages runs — the first support product at point 0, the hidden rows at points
  0 … 24, the second support product at point 25, the output rows at points 25 … 49.
-/
import proofs.«155996_g78357383349033_cont_sun_m_330_6_alg».proof.Proof.Gen.KernelIdeal.Launch
import proofs.«155996_g78357383349033_cont_sun_m_330_6_alg».proof.Proof.Gen.KernelIdeal.Skeleton
import proofs.«155996_g78357383349033_cont_sun_m_330_6_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: after the three reshapes of the bias vectors. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's four guards over the grid -/

/-- The first support product's guard: the first phase's first row block. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)

/-- The hidden rows' guard: the first phase. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The second support product's guard: the second phase's first row block. -/
abbrev cond3 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
theorem hcond3 : ∀ t : Fin cfg0.N, cond3 (grid0.coords t) ↔ t.val = 25 :=
  (by decide +kernel : ∀ t : Fin grid0.N, cond3 (grid0.coords t) ↔ t.val = 25)

/-- The output rows' guard: the second phase. -/
abbrev cond4 (i : grid0.Coords) : Prop := k0_cond4 i = 1#1
theorem hcond4 : ∀ t : Fin cfg0.N, cond4 (grid0.coords t) ↔ 25 ≤ t.val :=
  (by decide +kernel : ∀ t : Fin grid0.N, cond4 (grid0.coords t) ↔ 25 ≤ t.val)

/-- The row block a point works on. -/
theorem coord1 : ∀ t : Fin cfg0.N, ((grid0.coords t) 1).val = t.val % 25 :=
  (by decide +kernel : ∀ t : Fin grid0.N, ((grid0.coords t) 1).val = t.val % 25)

/-! ## Where the output window is idle, and when it is written back -/

theorem idle9_lo : ∀ t : Fin cfg0.N, t.val < 25 → cfg0.idle 9 (grid0.coords t) = true := by decide +kernel
theorem live9_hi : ∀ t : Fin cfg0.N, 25 ≤ t.val → cfg0.idle 9 (grid0.coords t) = false := by decide +kernel
theorem noFlush9_lo : ∀ t : Fin cfg0.N, t.val < 25 → (cfg0.win 9).flush t = false := by decide +kernel
theorem flush9_hi : ∀ t : Fin cfg0.N, 25 ≤ t.val → (cfg0.win 9).flush t = true := by decide +kernel
theorem live_in : ∀ (w : Fin cfg0.W), w.val < 9 → ∀ t : Fin cfg0.N, cfg0.idle w (grid0.coords t) = false := by decide +kernel

/-! ## The staging and scratch memrefs -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x40 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S200x10000 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S200x10000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x40 .f32 := win0_9.stage (cfg0.slots t 9)
abbrev hs9 (t : Fin cfg0.N) : (ms9 t).IsWhole := hstage0_9 ((cfg0.slots t 9).cast nbuf0_9)
/-- The scratch that holds the hidden array. -/
abbrev scH : Memref sig .tc .vmem S10000x128 .f32 := Memref.whole cc0_scratch0
/-- The scratch that holds the current support product. -/
abbrev scS : Memref sig .tc .vmem S10000x128 .f32 := Memref.whole cc0_scratch1

/-- The two scratch buffers, each at some contents: what the launch hands the region beside the windows. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scH fullShare d) ∗ (∃ d, owns (c : Thread nD τ) scS fullShare d)) := by
  rw [scopedRest0_eq]; simp only [scH, scS, owns_whole]; try rfl

end Cert.KernelIdeal.Hand

end
-- ==== Proof.KI.Vals.lean ====
/-
  The values the kernel leaves, as functions of the arrays the region finds.

  S₁ = x · W1 (computed at the first point), the hidden array H (row r written at point r / 400 of the first phase from
  the adjacency block holding row r), S₂ = H · W2 (computed at the first point of the second phase), and the block of
  400 output rows point t of the second phase stores: its upper 200 rows from the top adjacency window, its lower 200
  rows from the bottom one.
-/
import proofs.«155996_g78357383349033_cont_sun_m_330_6_alg».proof.Proof.KI.Common
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's block at a point, at its literal type. -/
abbrev b0 (c : Dev nD) (t : Fin cfg0.N) : Vec F S10000x128 .f32 := iblk m c 0 t
abbrev b1 (c : Dev nD) (t : Fin cfg0.N) : Vec F S128x128 .f32 := iblk m c 1 t
abbrev b2 (c : Dev nD) (t : Fin cfg0.N) : Vec F S1x128 .f32 := iblk m c 2 t
abbrev b3 (c : Dev nD) (t : Fin cfg0.N) : Vec F S128x128 .f32 := iblk m c 3 t
abbrev b4 (c : Dev nD) (t : Fin cfg0.N) : Vec F S1x128 .f32 := iblk m c 4 t
abbrev b5 (c : Dev nD) (t : Fin cfg0.N) : Vec F S128x40 .f32 := iblk m c 5 t
abbrev b6 (c : Dev nD) (t : Fin cfg0.N) : Vec F S1x40 .f32 := iblk m c 6 t
abbrev b7 (c : Dev nD) (t : Fin cfg0.N) : Vec F S200x10000 .f32 := iblk m c 7 t
abbrev b8 (c : Dev nD) (t : Fin cfg0.N) : Vec F S200x10000 .f32 := iblk m c 8 t

/-- The first point, and the first point of the second phase. -/
abbrev t0 : Fin cfg0.N := ⟨0, by decide⟩
abbrev t25 : Fin cfg0.N := ⟨25, by decide⟩

/-- The point of the first phase that writes hidden row `r`. -/
def ptOf (j : S10000x128.Idx) : Fin cfg0.N := ⟨(j 0).val / 400, by
  have h : (j 0).val < 10000 := (j 0).isLt
  have hN : cfg0.N = 50 := N_0
  omega⟩

/-- S₁ = x · W1. -/
def S1v (c : Dev nD) : Vec F S10000x128 .f32 := k0_pay1 (b0 m c t0) (b1 m c t0)

/-- The hidden array: row r from the adjacency block that holds it (the top window's for r mod 400 < 200, else the bottom's). -/
def H1v (c : Dev nD) : Vec F S10000x128 .f32 := fun j =>
  if h : (j 0).val % 400 < 200 then
    k0_pay2 (b7 m c (ptOf j)) (S1v m c) (b2 m c (ptOf j)) (ValueIdx.ix2 (⟨(j 0).val % 400, h⟩ : Fin 200) (j 1))
  else
    k0_pay3 (b8 m c (ptOf j)) (S1v m c) (b2 m c (ptOf j))
      (ValueIdx.ix2 (⟨(j 0).val % 400 - 200, by have := Nat.mod_lt (j 0).val (show 0 < 400 by decide); omega⟩ : Fin 200) (j 1))

/-- S₂ = H · W2. -/
def S2v (c : Dev nD) : Vec F S10000x128 .f32 := k0_pay4 (H1v m c) (b3 m c t25)

/-- The block of 400 output rows a point of the second phase stores. -/
def Oblk (c : Dev nD) (t : Fin cfg0.N) : Vec F S400x40 .f32 := fun j =>
  if h : (j 0).val < 200 then
    k0_pay6 (b7 m c t) (S2v m c) (b4 m c t) (b5 m c t) (b6 m c t) (ValueIdx.ix2 (⟨(j 0).val, h⟩ : Fin 200) (j 1))
  else
    k0_pay5 (k0_pay7 (b8 m c t) (S2v m c) (b4 m c t)) (b5 m c t) (constant S200x40 .f32 0x00000000#32) (b6 m c t)
      (ValueIdx.ix2 (⟨(j 0).val - 200, by have h400 : (j 0).val < 400 := (j 0).isLt; omega⟩ : Fin 200) (j 1))

/-- What the hidden scratch is known to hold when `n` points of the first phase have run: its first 400·n rows. -/
def HInv (c : Dev nD) (n : ℕ) (H : Vec F S10000x128 .f32) : Prop :=
  ∀ j : S10000x128.Idx, (j 0).val < 400 * n → H j = H1v m c j

theorem HInv_full (c : Dev nD) (n : ℕ) (hn : 25 ≤ n) (H : Vec F S10000x128 .f32) (h : HInv m c n H) : H = H1v m c :=
  funext fun j => h j (by have h1 : (j 0).val < 10000 := (j 0).isLt; omega)

end Cert.KernelIdeal.Hand

end
-- ==== Proof.KI.Launch.lean ====
/-
  The launch of the one kernel region for ANY proof data over the printed pipeline whose two adjacency windows hold the
  adjacency array at the two halves of its full share: from the body obligation at every grid point, every weakly fair
  execution of the program terminates with each window's array at what the write-backs leave and every other
  unscoped buffer as the region found it.
-/
import proofs.«155996_g78357383349033_cont_sun_m_330_6_alg».proof.Proof.KI.Common
import Idealize.ShloMosaic.Lib.Pipeline.Launch
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each INPUT window holds: the two windows on the adjacency array (7 and 8) one half each of the
    full share, every other window the full share. -/
def qS : Fin cfg0.W → PosShare TreeShare := fun w =>
  if w = 7 then fullShare.left else if w = 8 then fullShare.right else fullShare

/-- With input shares `qS`, every window holds its array at `qS`: the one output window (9) holds the full share, which
    is what `qS` names there too. -/
theorem share_eq_qS {c : Dev nD} (dat : Dat τ (Elt F) Unit ℕ (UR sig nD τ) ℕ cfg0 c) (hq : ∀ w, dat.q w = qS w) :
    ∀ w, dat.share w = qS w := by
  intro w
  unfold Dat.share
  rw [hq]
  fin_cases w <;> rfl

/-- The pipeline's per-window points-tos before point 0, each window's array a whole buffer at the entry contents, read
    window by window. -/
theorem arrays_entry (c : Dev nD) (dat : Dat τ (Elt F) Unit ℕ (UR sig nD τ) ℕ cfg0 c)
    (hA : ∀ w, dat.A w = V m c (Pipeline.arrRef spec0 w)) (hq : ∀ w, dat.q w = qS w) :
    (dat.arrays (dat.arrAt · 0) : sProp 𝕄)
      = bigSep Finset.univ fun w : Fin 10 =>
          ((((c : Thread nD τ).loc (Pipeline.arrRef spec0 w)) ↦{qS w} V m c (Pipeline.arrRef spec0 w)) : sProp 𝕄) := by
  unfold Dat.arrays
  exact bigSep_congr fun w _ => by
    rw [(arr_whole0 w).set_eq_univ, share_eq_qS dat hq w]
    change (_ ↦{qS w} dat.A w : sProp 𝕄) = _
    rw [hA w]

/-- The nine DISTINCT buffers behind the ten windows' arrays, each whole at the full share, one by one: the adjacency
    array `main_arg1` is behind two windows and is listed once. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg2) ↦{fullShare} V' main_arg2)
          ∗ (((c : Thread nD τ).loc main_call0_v0) ↦{fullShare} V' main_call0_v0) ∗ (((c : Thread nD τ).loc main_arg4) ↦{fullShare} V' main_arg4)
          ∗ (((c : Thread nD τ).loc main_call0_v1) ↦{fullShare} V' main_call0_v1) ∗ (((c : Thread nD τ).loc main_arg6) ↦{fullShare} V' main_arg6)
          ∗ (((c : Thread nD τ).loc main_call0_v2) ↦{fullShare} V' main_call0_v2) ∗ (((c : Thread nD τ).loc main_arg1) ↦{fullShare} V' main_arg1)
          ∗ (((c : Thread nD τ).loc main_v0) ↦{fullShare} V' main_v0)) := by
  unfold Pipeline.arrBufs
  exact bigSep_eq_bigSepL_of_eq [main_arg0, main_arg2, main_call0_v0, main_arg4, main_call0_v1, main_arg6, main_call0_v2, main_arg1, main_v0]
    (by decide) (by decide) _

/-- The launch's hand-over of the arrays: the nine buffers whole at the full share make the ten windows' points-tos — for
    the eight windows on arrays of their own the buffer as it is, the adjacency array's full share split into its two
    halves, the left for window 7 and the right for window 8. -/
theorem hsplit0 (c : Dev nD) (dat : Dat τ (Elt F) Unit ℕ (UR sig nD τ) ℕ cfg0 c)
    (hA : ∀ w, dat.A w = V m c (Pipeline.arrRef spec0 w)) (hq : ∀ w, dat.q w = qS w) :
    (Pipeline.arrBufs (Ix := Unit) (Name := ℕ) (U := UR sig nD τ) (Lvl := ℕ) spec0 c (V m c) : sProp 𝕄) ⊢ dat.arrays (dat.arrAt · 0) := by
  rw [arrays_entry m c dat hA hq, bigSep_W0, arrBufs0_eq]
  iintro ⟨H0, H2, Hv0, H4, Hv1, H6, Hv2, H1, Hr⟩
  ihave H1' := (pointsTo_share (PosShare.mem_left_op_right fullShare)).1 $$ H1
  icases H1' with ⟨H1a, H1b⟩
  isplitl [H0]; · iexact H0
  isplitl [H2]; · iexact H2
  isplitl [Hv0]; · iexact Hv0
  isplitl [H4]; · iexact H4
  isplitl [Hv1]; · iexact Hv1
  isplitl [H6]; · iexact H6
  isplitl [Hv2]; · iexact Hv2
  isplitl [H1a]; · iexact H1a
  isplitl [H1b]; · iexact H1b
  iexact Hr

/-- THE LAUNCH. -/
theorem launch (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hA : ∀ c w, (dats 0 c).A w = V m c (Pipeline.arrRef spec0 w))
    (hq : ∀ c w, (dats 0 c).q w = qS w)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run (defs (F := F)) (onTc (τ := τ) (main (F := F))) ⟨m, fun _ => 0, ρ⟩ (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = V m c b) := by
  classical
  exact Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj))
    (hu₀ := BI.Entails.refl _)
    (V := V m) (hmain := hmain m Variants.none)
    (hsplit := fun c => hsplit0 m c (dats 0 c) (hA c) (hq c))
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show _ ⊢ (Pipeline.scopedRest (Ix := Unit) (Name := ℕ) (U := UR sig nD τ) (Lvl := ℕ) (Val := Elt F) spec0 c : sProp 𝕄) from by
      iintro ⟨-, H⟩; iexact H).trans (hin c))
    (hout := fun c => (hout c).trans (by iintro H; isplitr; · iempintro
                                         iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Hand

end
-- ==== Proof.KI.Data.lean ====
/-
  The proof data of the one pipeline: every input window's staging buffer holds its block; the output window's holds, at a
  point of the second phase, the 400 rows that point stores; between points the support scratch holds S₁ through the first
  phase and S₂ afterwards, and the hidden scratch holds the hidden rows written so far.
-/
import proofs.«155996_g78357383349033_cont_sun_m_330_6_alg».proof.Proof.KI.Vals
import proofs.«155996_g78357383349033_cont_sun_m_330_6_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before point `k` (after point `k − 1`). -/
def Phi (c : Dev nD) (k : ℕ) : sProp 𝕄 :=
  if k = 0 then iprop((∃ d, owns (c : Thread nD τ) scH fullShare d) ∗ (∃ d, owns (c : Thread nD τ) scS fullShare d))
  else iprop((∃ H, ⌜HInv m c (min k 25) H⌝ ∗ owns (c : Thread nD τ) scH fullShare H)
    ∗ owns (c : Thread nD τ) scS fullShare (if k ≤ 25 then S1v m c else S2v m c))

theorem Phi_zero (c : Dev nD) : Phi m c 0 = iprop((∃ d, owns (c : Thread nD τ) scH fullShare d) ∗ (∃ d, owns (c : Thread nD τ) scS fullShare d)) :=
  if_pos rfl

theorem Phi_lo (c : Dev nD) (k : ℕ) (h0 : k ≠ 0) (h : k ≤ 25) :
    Phi m c k = iprop((∃ H, ⌜HInv m c k H⌝ ∗ owns (c : Thread nD τ) scH fullShare H) ∗ owns (c : Thread nD τ) scS fullShare (S1v m c)) := by
  unfold Phi; rw [if_neg h0, if_pos h, Nat.min_eq_left h]

theorem Phi_hi (c : Dev nD) (k : ℕ) (h : 25 < k) :
    Phi m c k = iprop((∃ H, ⌜HInv m c 25 H⌝ ∗ owns (c : Thread nD τ) scH fullShare H) ∗ owns (c : Thread nD τ) scS fullShare (S2v m c)) := by
  unfold Phi; rw [if_neg (by omega), if_neg (by omega), Nat.min_eq_right (by omega)]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Oblk m c t
  Φ t := Phi m c t.val
  q := qS
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem Phi_succ (c : Dev nD) (t : Fin cfg0.N) : (dats m 0 c).Φ t.succ = Phi m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = Oblk m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

end Cert.KernelIdeal.Hand

end
-- ==== Proof.KI.BodyDefs.lean ====
/-
  The body obligation's pre- and postcondition at a grid point, the ten windows written out one by one.
-/
import proofs.«155996_g78357383349033_cont_sun_m_330_6_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and every window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) :
    (dats m 0 c).leavesExact 0 t = owns (c : Thread nD τ) (ms0 t) fullShare (iblk m c 0 t) := by
  unfold Dat.leavesExact; rw [live_in 0 (by decide) t, after0]
theorem leaves1 (c : Dev nD) (t : Fin cfg0.N) :
    (dats m 0 c).leavesExact 1 t = owns (c : Thread nD τ) (ms1 t) fullShare (iblk m c 1 t) := by
  unfold Dat.leavesExact; rw [live_in 1 (by decide) t, after1]
theorem leaves2 (c : Dev nD) (t : Fin cfg0.N) :
    (dats m 0 c).leavesExact 2 t = owns (c : Thread nD τ) (ms2 t) fullShare (iblk m c 2 t) := by
  unfold Dat.leavesExact; rw [live_in 2 (by decide) t, after2]
theorem leaves3 (c : Dev nD) (t : Fin cfg0.N) :
    (dats m 0 c).leavesExact 3 t = owns (c : Thread nD τ) (ms3 t) fullShare (iblk m c 3 t) := by
  unfold Dat.leavesExact; rw [live_in 3 (by decide) t, after3]
theorem leaves4 (c : Dev nD) (t : Fin cfg0.N) :
    (dats m 0 c).leavesExact 4 t = owns (c : Thread nD τ) (ms4 t) fullShare (iblk m c 4 t) := by
  unfold Dat.leavesExact; rw [live_in 4 (by decide) t, after4]
theorem leaves5 (c : Dev nD) (t : Fin cfg0.N) :
    (dats m 0 c).leavesExact 5 t = owns (c : Thread nD τ) (ms5 t) fullShare (iblk m c 5 t) := by
  unfold Dat.leavesExact; rw [live_in 5 (by decide) t, after5]
theorem leaves6 (c : Dev nD) (t : Fin cfg0.N) :
    (dats m 0 c).leavesExact 6 t = owns (c : Thread nD τ) (ms6 t) fullShare (iblk m c 6 t) := by
  unfold Dat.leavesExact; rw [live_in 6 (by decide) t, after6]
theorem leaves7 (c : Dev nD) (t : Fin cfg0.N) :
    (dats m 0 c).leavesExact 7 t = owns (c : Thread nD τ) (ms7 t) fullShare (iblk m c 7 t) := by
  unfold Dat.leavesExact; rw [live_in 7 (by decide) t, after7]
theorem leaves8 (c : Dev nD) (t : Fin cfg0.N) :
    (dats m 0 c).leavesExact 8 t = owns (c : Thread nD τ) (ms8 t) fullShare (iblk m c 8 t) := by
  unfold Dat.leavesExact; rw [live_in 8 (by decide) t, after8]

theorem leaves9_lo (c : Dev nD) (t : Fin cfg0.N) (h : t.val < 25) :
    (dats m 0 c).leavesExact 9 t = iprop(∃ d, owns (c : Thread nD τ) (ms9 t) fullShare ((dats m 0 c).before 9 t d)) :=
  Dat.leavesExact_idle (dats m 0 c) 9 t (idle9_lo t h) (noFlush9_lo t h)

theorem leaves9_hi (c : Dev nD) (t : Fin cfg0.N) (h : 25 ≤ t.val) :
    (dats m 0 c).leavesExact 9 t = owns (c : Thread nD τ) (ms9 t) fullShare (Oblk m c t) := by
  unfold Dat.leavesExact; rw [live9_hi t h, after9]

end Cert.KernelIdeal.Hand

end
-- ==== Proof.KI.RunA.lean ====
/-
  The kernel body at the first grid point: the support product x · W1 is stored whole into the support scratch, then read
  back by the two adjacency blocks' products, whose rectified results are stored into the hidden scratch's first 400 rows.
-/
import proofs.«155996_g78357383349033_cont_sun_m_330_6_alg».proof.Proof.KI.Common
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem hz2 : (![0, 0] : Fin 2 → ℕ) = fun _ => 0 := by funext a; fin_cases a <;> rfl

/-- A whole-buffer store over anything reads back as its payload. -/
private theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

set_option maxHeartbeats 8000000 in
/-- The body run at the first point: the support scratch ends at x · W1, the hidden scratch with the two slice stores written
    over what it held; the inputs are handed back as found. -/
theorem runA (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : cond1 i) (hc2 : cond2 i) (hc3 : ¬cond3 i) (hc4 : ¬cond4 i)
    (x0 : Vec F S10000x128 .f32) (x1 : Vec F S128x128 .f32) (x2 : Vec F S1x128 .f32) (x7 x8 : Vec F S200x10000 .f32) (xh xs : Vec F S10000x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare x7 ∗ owns (c : Thread nD τ) arg10 fullShare x8 ∗ owns (c : Thread nD τ) arg12 fullShare xh ∗ owns (c : Thread nD τ) arg13 fullShare xs
        ∗ (iprop(owns (c : Thread nD τ) arg2 fullShare x0 ∗ owns (c : Thread nD τ) arg3 fullShare x1 ∗ owns (c : Thread nD τ) arg4 fullShare x2 ∗ owns (c : Thread nD τ) arg9 fullShare x7 ∗ owns (c : Thread nD τ) arg10 fullShare x8
            ∗ (arg12.view.loc (c : Thread nD τ) ↦[arg12.view.set]{fullShare} arg12.view.writes (Elt F) (harg12.unread xh)
                [⟨Rect.unit (s := S10000x128) (k0_off1 i 200#32) S200x128.size (k0_off1_inb i hc2 1), k0_pay3 x8 (k0_pay1 x0 x1) x2⟩,
                 ⟨Rect.unit (s := S10000x128) (k0_off1 i 0#32) S200x128.size (k0_off1_inb i hc2 0), k0_pay2 x7 (k0_pay1 x0 x1) x2⟩])
            ∗ owns (c : Thread nD τ) arg13 fullShare (k0_pay1 x0 x1)) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  unfold owns
  iintro ⟨⟨%f0, %hf0, H0⟩, ⟨%f1, %hf1, H1⟩, ⟨%f2, %hf2, H2⟩, ⟨%f7, %hf7, H7⟩, ⟨%f8, %hf8, H8⟩, ⟨%fh, %hfh, HH⟩, ⟨%fs, %hfs, HS⟩, Hk⟩
  obtain rfl := harg2.eq_unread hf0; obtain rfl := harg3.eq_unread hf1; obtain rfl := harg4.eq_unread hf2
  obtain rfl := harg9.eq_unread hf7; obtain rfl := harg10.eq_unread hf8
  obtain rfl := harg12.eq_unread hfh; obtain rfl := harg13.eq_unread hfs
  sl_exec (disch := first | exact hc1 | exact hc2 | exact hc3 | exact hc4)
  sl_step
  sl_unfold_run_names
  have e0 : View.readAt (Elt F) arg2.view (Rect.unit ![0, 0] S10000x128.size inb_S10000x128_S10000x128_0_0).toLoadRect (harg2.unread x0) = x0 := by
    rw [View.readAt_eq_ld, harg2.read_unread]; exact View.ld_unit_zero (S := S10000x128) hz _ _
  have e1 : View.readAt (Elt F) arg3.view (Rect.unit ![0, 0] S128x128.size inb_S128x128_S128x128_0_0).toLoadRect (harg3.unread x1) = x1 := by
    rw [View.readAt_eq_ld, harg3.read_unread]; exact View.ld_unit_zero (S := S128x128) hz _ _
  have e2 : View.readAt (Elt F) arg4.view (Rect.unit ![0, 0] S1x128.size inb_S1x128_S1x128_0_0).toLoadRect (harg4.unread x2) = x2 := by
    rw [View.readAt_eq_ld, harg4.read_unread]; exact View.ld_unit_zero (S := S1x128) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  rw [e0, e1, e2, e7, e8]
  rw [View.readCov_unit_zero (Val := Elt F) (S := S10000x128) (e := .f32) arg13.view hz inb_S10000x128_S10000x128_0_0 (k0_pay1 x0 x1)]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H7]
  · iexists _; isplitr; · ipureintro; exact harg9.read_unread _
    iexact H7
  isplitl [H8]
  · iexists _; isplitr; · ipureintro; exact harg10.read_unread _
    iexact H8
  isplitl [HH]
  · iexact HH
  · iexists _; isplitr
    swap; · iexact HS
    ipureintro; exact read_writes_whole _ _ hz _ _

end Cert.KernelIdeal.Hand

end
-- ==== Proof.KI.Pieces.lean ====
/-
  What the kernel's slice stores leave, read as whole-buffer functions.

  In the first phase the two stores of a point write hidden rows 400·t … 400·t + 399 — so the hidden scratch, known to hold
  the hidden array on its first 400·t rows, then holds it on its first 400·(t + 1) rows. In the second phase the two stores
  of a point fill the 400-row output block: they read back as the block function of that point.
-/
import proofs.«155996_g78357383349033_cont_sun_m_330_6_alg».proof.Proof.KI.Vals
import Idealize.ShloMosaic.Lib.Writes
import Idealize.ShloMosaic.Lib.Pipeline.Value
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row of the upper half-slice a first-phase point stores: 400·t. -/
theorem k0_off1_lo : ∀ t : Fin cfg0.N, t.val < 25 → k0_off1 (grid0.coords t) 0#32 = ![400 * t.val, 0] :=
  (by decide +kernel : ∀ t : Fin grid0.N, t.val < 25 → k0_off1 (grid0.coords t) 0#32 = ![400 * t.val, 0])

/-- The first row of the lower half-slice: 400·t + 200. -/
theorem k0_off1_hi : ∀ t : Fin cfg0.N, t.val < 25 → k0_off1 (grid0.coords t) 200#32 = ![400 * t.val + 200, 0] :=
  (by decide +kernel : ∀ t : Fin grid0.N, t.val < 25 → k0_off1 (grid0.coords t) 200#32 = ![400 * t.val + 200, 0])

/-! ## Two stacked row slices of a two-axis buffer

Two stores of `h` full rows each, the earlier at rows `n … n + h − 1` and the later at rows `n + h … n + 2h − 1`:
a row below `n` keeps what the buffer held, a row of the earlier slice reads the earlier payload, a row of the
later slice the later payload — each at the row's offset inside its slice. -/

section TwoSlices

variable {κ : Kind} {sp : Space} {R C h : ℕ} {e : EltTy}

/-- The coordinate inside a slice of `h` rows from row `o` of an element whose row lies in the slice. -/
abbrev inSlice (o : ℕ) (j : (⟨2, ![R, C]⟩ : Shape).Idx) (hj : o ≤ (j 0).val ∧ (j 0).val < o + h) : (⟨2, ![h, C]⟩ : Shape).Idx :=
  ValueIdx.ix2 (⟨(j 0).val - o, by omega⟩ : Fin h) (j 1)

/-- The slice places that coordinate back on the element. -/
theorem emb_inSlice (o : ℕ) (off : Fin 2 → ℕ) (hoff : off = ![o, 0])
    (inb : ∀ a, off a + (⟨2, ![h, C]⟩ : Shape).size a ≤ (⟨2, ![R, C]⟩ : Shape).size a)
    (j : (⟨2, ![R, C]⟩ : Shape).Idx) (hj : o ≤ (j 0).val ∧ (j 0).val < o + h) :
    (Rect.unit (s := ⟨2, ![R, C]⟩) off (⟨2, ![h, C]⟩ : Shape).size inb).emb (inSlice o j hj) = j := by
  subst hoff
  refine funext fun a => Fin.ext ?_
  rw [Rect.emb_apply]
  match a with
  | ⟨0, _⟩ => show o + 1 * ((j 0).val - o) = (j 0).val; omega
  | ⟨1, _⟩ => show 0 + 1 * (j 1).val = (j 1).val; omega

/-- An element whose row is outside a slice's rows is not in the slice. -/
theorem not_mem_slice (o : ℕ) (off : Fin 2 → ℕ) (hoff : off = ![o, 0])
    (inb : ∀ a, off a + (⟨2, ![h, C]⟩ : Shape).size a ≤ (⟨2, ![R, C]⟩ : Shape).size a)
    (j : (⟨2, ![R, C]⟩ : Shape).Idx) (hj : (j 0).val < o ∨ o + h ≤ (j 0).val) :
    j ∉ (Rect.unit (s := ⟨2, ![R, C]⟩) off (⟨2, ![h, C]⟩ : Shape).size inb).set := by
  subst hoff
  rw [Rect.mem_set_unit]
  intro hm
  have h0 := hm 0
  have h1 : o ≤ (j 0).val ∧ (j 0).val < o + h := h0
  omega

variable (v : View sig κ sp ⟨2, ![R, C]⟩ e) (f : v.ty.Contents (Elt F))
  (n : ℕ) (offH offL : Fin 2 → ℕ) (hL : offL = ![n, 0]) (hH : offH = ![n + h, 0])
  (inbH : ∀ a, offH a + (⟨2, ![h, C]⟩ : Shape).size a ≤ (⟨2, ![R, C]⟩ : Shape).size a)
  (inbL : ∀ a, offL a + (⟨2, ![h, C]⟩ : Shape).size a ≤ (⟨2, ![R, C]⟩ : Shape).size a)
  (wH wL : (⟨2, ![h, C]⟩ : Shape).Idx → Elt F e) (j : (⟨2, ![R, C]⟩ : Shape).Idx)

include hL hH in
/-- A row below both slices keeps the buffer's contents. -/
theorem read_twoSlices_below (hj : (j 0).val < n) :
    v.read (Elt F) (v.writes (Elt F) f
      [⟨Rect.unit (s := ⟨2, ![R, C]⟩) offH (⟨2, ![h, C]⟩ : Shape).size inbH, wH⟩,
       ⟨Rect.unit (s := ⟨2, ![R, C]⟩) offL (⟨2, ![h, C]⟩ : Shape).size inbL, wL⟩]) j = v.read (Elt F) f j := by
  refine View.read_writes_apply_of_forall_not_mem v f j _ fun p hp => ?_
  rcases List.mem_cons.mp hp with rfl | hp
  · exact not_mem_slice (n + h) offH hH inbH j (by omega)
  · rcases List.mem_cons.mp hp with rfl | hp
    · exact not_mem_slice n offL hL inbL j (by omega)
    · exact absurd hp List.not_mem_nil

include hL hH in
/-- A row of the earlier slice reads the earlier payload. -/
theorem read_twoSlices_lo (hj : n ≤ (j 0).val ∧ (j 0).val < n + h) :
    v.read (Elt F) (v.writes (Elt F) f
      [⟨Rect.unit (s := ⟨2, ![R, C]⟩) offH (⟨2, ![h, C]⟩ : Shape).size inbH, wH⟩,
       ⟨Rect.unit (s := ⟨2, ![R, C]⟩) offL (⟨2, ![h, C]⟩ : Shape).size inbL, wL⟩]) j = wL (inSlice n j hj) := by
  rw [View.writes_cons, View.read_slice_write_of_not_mem _ _ _ _
    (by rw [Rect.map_emb_univ]; exact not_mem_slice (n + h) offH hH inbH j (by omega))]
  have key := View.read_writes_cons_emb v f (Rect.unit (s := ⟨2, ![R, C]⟩) offL (⟨2, ![h, C]⟩ : Shape).size inbL) wL [] (inSlice n j hj)
  rw [emb_inSlice n offL hL inbL j hj] at key
  exact key

include hH in
/-- A row of the later slice reads the later payload. -/
theorem read_twoSlices_hi (hj : n + h ≤ (j 0).val ∧ (j 0).val < n + h + h) :
    v.read (Elt F) (v.writes (Elt F) f
      [⟨Rect.unit (s := ⟨2, ![R, C]⟩) offH (⟨2, ![h, C]⟩ : Shape).size inbH, wH⟩,
       ⟨Rect.unit (s := ⟨2, ![R, C]⟩) offL (⟨2, ![h, C]⟩ : Shape).size inbL, wL⟩]) j = wH (inSlice (n + h) j hj) := by
  have key := View.read_writes_cons_emb v f (Rect.unit (s := ⟨2, ![R, C]⟩) offH (⟨2, ![h, C]⟩ : Shape).size inbH) wH
    [⟨Rect.unit (s := ⟨2, ![R, C]⟩) offL (⟨2, ![h, C]⟩ : Shape).size inbL, wL⟩] (inSlice (n + h) j hj)
  rw [emb_inSlice (n + h) offH hH inbH j hj] at key
  exact key

end TwoSlices

/-! ## The hidden array on the rows a first-phase point stores -/

/-- On the upper 200 rows of point `t`'s block the hidden array is the top window's payload. -/
theorem H1v_lo (c : Dev nD) (t : Fin cfg0.N) (j : S10000x128.Idx)
    (hj : 400 * t.val ≤ (j 0).val ∧ (j 0).val < 400 * t.val + 200) :
    H1v m c j = k0_pay2 (b7 m c t) (S1v m c) (b2 m c t) (inSlice (400 * t.val) j hj) := by
  have hmod : (j 0).val % 400 = (j 0).val - 400 * t.val := by omega
  have hlt : (j 0).val % 400 < 200 := by omega
  have hpt : ptOf j = t := Fin.ext (by show (j 0).val / 400 = t.val; omega)
  unfold H1v
  rw [dif_pos hlt, hpt]
  refine congrArg _ (funext fun a => ?_)
  match a with
  | ⟨0, _⟩ => exact Fin.ext hmod
  | ⟨1, _⟩ => rfl

/-- On the lower 200 rows of point `t`'s block the hidden array is the bottom window's payload. -/
theorem H1v_hi (c : Dev nD) (t : Fin cfg0.N) (j : S10000x128.Idx)
    (hj : 400 * t.val + 200 ≤ (j 0).val ∧ (j 0).val < 400 * t.val + 200 + 200) :
    H1v m c j = k0_pay3 (b8 m c t) (S1v m c) (b2 m c t) (inSlice (400 * t.val + 200) j hj) := by
  have hmod : (j 0).val % 400 - 200 = (j 0).val - (400 * t.val + 200) := by omega
  have hge : ¬ (j 0).val % 400 < 200 := by omega
  have hpt : ptOf j = t := Fin.ext (by show (j 0).val / 400 = t.val; omega)
  unfold H1v
  rw [dif_neg hge, hpt]
  refine congrArg _ (funext fun a => ?_)
  match a with
  | ⟨0, _⟩ => exact Fin.ext hmod
  | ⟨1, _⟩ => rfl

/-- One more first-phase point: after its two slice stores the scratch holds the hidden array on 400 more rows. -/
theorem HInv_step {κ : Kind} {sp : Space} (v : View sig κ sp S10000x128 .f32) (c : Dev nD) (t : Fin cfg0.N) (h25 : t.val < 25)
    (hc2 : cond2 (grid0.coords t)) (f : v.ty.Contents (Elt F)) (hH : HInv m c t.val (v.read (Elt F) f))
    (S : Vec F S10000x128 .f32) (hS : S = S1v m c) :
    HInv m c (t.val + 1) (v.read (Elt F) (v.writes (Elt F) f
      [⟨Rect.unit (s := S10000x128) (k0_off1 (grid0.coords t) 200#32) S200x128.size (k0_off1_inb (grid0.coords t) hc2 1), k0_pay3 (b8 m c t) S (b2 m c t)⟩,
       ⟨Rect.unit (s := S10000x128) (k0_off1 (grid0.coords t) 0#32) S200x128.size (k0_off1_inb (grid0.coords t) hc2 0), k0_pay2 (b7 m c t) S (b2 m c t)⟩])) := by
  subst hS
  intro j hj
  have hlo := k0_off1_lo t h25
  have hhi := k0_off1_hi t h25
  by_cases h1 : (j 0).val < 400 * t.val
  · rw [read_twoSlices_below (h := 200) v f (400 * t.val) _ _ hlo hhi _ _ _ _ j h1]
    exact hH j h1
  · by_cases h2 : (j 0).val < 400 * t.val + 200
    · rw [read_twoSlices_lo (h := 200) v f (400 * t.val) _ _ hlo hhi _ _ _ _ j ⟨by omega, h2⟩]
      exact (H1v_lo m c t j ⟨by omega, h2⟩).symm
    · rw [read_twoSlices_hi (h := 200) v f (400 * t.val) _ _ hhi _ _ _ _ j ⟨by omega, by omega⟩]
      exact (H1v_hi m c t j ⟨by omega, by omega⟩).symm

/-- The two half-block stores of a second-phase point read back as that point's output block, whatever was there. -/
theorem Oblk_eq {κ : Kind} {sp : Space} (v : View sig κ sp S400x40 .f32) (c : Dev nD) (t : Fin cfg0.N) (f : v.ty.Contents (Elt F))
    (S : Vec F S10000x128 .f32) (hS : S = S2v m c) :
    v.read (Elt F) (v.writes (Elt F) f
      [⟨Rect.unit (s := S400x40) ![200, 0] S200x40.size inb_S400x40_S200x40_200_0,
          k0_pay5 (k0_pay7 (b8 m c t) S (b4 m c t)) (b5 m c t) (constant S200x40 .f32 0x00000000#32) (b6 m c t)⟩,
       ⟨Rect.unit (s := S400x40) ![0, 0] S200x40.size inb_S400x40_S200x40_0_0,
          k0_pay6 (b7 m c t) S (b4 m c t) (b5 m c t) (b6 m c t)⟩]) = Oblk m c t := by
  subst hS
  funext j
  have h400 : (j 0).val < 400 := (j 0).isLt
  by_cases h1 : (j 0).val < 200
  · rw [read_twoSlices_lo (h := 200) v f 0 _ _ rfl rfl _ _ _ _ j ⟨by omega, by omega⟩]
    unfold Oblk
    rw [dif_pos h1]
    refine congrArg _ (funext fun a => ?_)
    match a with
    | ⟨0, _⟩ => exact Fin.ext (Nat.sub_zero _)
    | ⟨1, _⟩ => rfl
  · rw [read_twoSlices_hi (h := 200) v f 0 _ _ rfl _ _ _ _ j ⟨by omega, by omega⟩]
    unfold Oblk
    rw [dif_neg h1]

end Cert.KernelIdeal.Hand

end
-- ==== Proof.KI.BodyA.lean ====
/-
  The body obligation at the first grid point: both scratch buffers hold anything; the point leaves S₁ in the support
  scratch and the hidden array's first 400 rows in the hidden scratch.
-/
import proofs.«155996_g78357383349033_cont_sun_m_330_6_alg».proof.Proof.KI.BodyDefs
import proofs.«155996_g78357383349033_cont_sun_m_330_6_alg».proof.Proof.KI.RunA
import proofs.«155996_g78357383349033_cont_sun_m_330_6_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (h0 : t.val = 0) :
    bodyPre m c t ⊢ wp frame (wpE (defs₀ (F := F)) Variants.none c none) Set.univ (bodyAt0 t) (fun _ => bodyPost m c t) := by
  have h25 : t.val < 25 := by omega
  have hc1 : cond1 (grid0.coords t) := (hcond1 t).mpr h0
  have hc2 : cond2 (grid0.coords t) := (hcond2 t).mpr h25
  have hc3 : ¬cond3 (grid0.coords t) := fun h => by have := (hcond3 t).mp h; omega
  have hc4 : ¬cond4 (grid0.coords t) := fun h => by have := (hcond4 t).mp h; omega
  have hS : k0_pay1 (b0 m c t) (b1 m c t) = S1v m c := by
    have ht : t = t0 := Fin.ext h0
    subst ht; rfl
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, show Phi m c t.val = Phi m c 0 from by rw [h0], Phi_zero,
    Phi_lo m c (t.val + 1) (Nat.succ_ne_zero _) h25]
  rw [leaves0, leaves1, leaves2, leaves3, leaves4, leaves5, leaves6, leaves7, leaves8, leaves9_lo m c t h25]
  iintro ⟨⟨⟨%dH, HH⟩, ⟨%dS, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b0 m c t) (b1 m c t) (b2 m c t) (b7 m c t) (b8 m c t) dH dS Set.univ _)
  isplitl [H0]; · iexact H0
  isplitl [H1]; · iexact H1
  isplitl [H2]; · iexact H2
  isplitl [H7]; · iexact H7
  isplitl [H8]; · iexact H8
  isplitl [HH]; · iexact HH
  isplitl [HS]; · iexact HS
  iintro ⟨H0, H1, H2, H7, H8, HH, HS⟩
  isplitl [HH HS]
  · isplitl [HH]
    · iexists _
      isplitr
      swap
      · unfold owns; iexists _; isplitr
        swap; · iexact HH
        ipureintro; rfl
      · ipureintro
        exact HInv_step m scH.view c t h25 hc2 _ (fun j hj => by rw [h0] at hj; omega) _ hS
    · rw [← hS]; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Hand

end
-- ==== Proof.KI.RunB.lean ====
/-
  The kernel body at a first-phase point after the first: two blocks of 200 rows of the adjacency matrix are multiplied
  with the resident support product, the bias row is added, the rectifier applied, and the two results stored into the
  hidden scratch at rows 400·i … 400·i + 399; nothing else is written.
-/
import proofs.«155996_g78357383349033_cont_sun_m_330_6_alg».proof.Proof.KI.Common
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

set_option maxHeartbeats 4000000 in
/-- The body run at a point of the first phase other than its first: the hidden scratch ends with the two slice stores
    written over what it held; the inputs and the support scratch are handed back as found. -/
theorem runB (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : ¬cond1 i) (hc2 : cond2 i) (hc3 : ¬cond3 i) (hc4 : ¬cond4 i)
    (x2 : Vec F S1x128 .f32) (x7 x8 : Vec F S200x10000 .f32) (xh xs : Vec F S10000x128 .f32)
    (E : Set ℕ) (K : PUnit → sProp 𝕄) :
    iprop(owns (c : Thread nD τ) arg4 fullShare x2 ∗ owns (c : Thread nD τ) arg9 fullShare x7 ∗ owns (c : Thread nD τ) arg10 fullShare x8 ∗ owns (c : Thread nD τ) arg12 fullShare xh ∗ owns (c : Thread nD τ) arg13 fullShare xs
        ∗ (iprop(owns (c : Thread nD τ) arg4 fullShare x2 ∗ owns (c : Thread nD τ) arg9 fullShare x7 ∗ owns (c : Thread nD τ) arg10 fullShare x8
            ∗ (arg12.view.loc (c : Thread nD τ) ↦[arg12.view.set]{fullShare} arg12.view.writes (Elt F) (harg12.unread xh)
                [⟨Rect.unit (s := S10000x128) (k0_off1 i 200#32) S200x128.size (k0_off1_inb i hc2 1), k0_pay3 x8 xs x2⟩,
                 ⟨Rect.unit (s := S10000x128) (k0_off1 i 0#32) S200x128.size (k0_off1_inb i hc2 0), k0_pay2 x7 xs x2⟩])
            ∗ owns (c : Thread nD τ) arg13 fullShare xs) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  unfold owns
  iintro ⟨⟨%f2, %hf2, H2⟩, ⟨%f7, %hf7, H7⟩, ⟨%f8, %hf8, H8⟩, ⟨%fh, %hfh, HH⟩, ⟨%fs, %hfs, HS⟩, Hk⟩
  obtain rfl := harg4.eq_unread hf2; obtain rfl := harg9.eq_unread hf7; obtain rfl := harg10.eq_unread hf8
  obtain rfl := harg12.eq_unread hfh; obtain rfl := harg13.eq_unread hfs
  sl_exec (disch := first | exact hc1 | exact hc2 | exact hc3 | exact hc4)
  sl_step
  have e2 : View.readAt (Elt F) arg4.view (Rect.unit ![0, 0] S1x128.size inb_S1x128_S1x128_0_0).toLoadRect (harg4.unread x2) = x2 := by
    rw [View.readAt_eq_ld, harg4.read_unread]; exact View.ld_unit_zero (S := S1x128) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  have es : View.readAt (Elt F) arg13.view (Rect.unit ![0, 0] S10000x128.size inb_S10000x128_S10000x128_0_0).toLoadRect (harg13.unread xs) = xs := by
    rw [View.readAt_eq_ld, harg13.read_unread]; exact View.ld_unit_zero (S := S10000x128) hz _ _
  rw [e2, e7, e8, es]
  iapply Hk
  isplitl [H2]
  · iexists _; isplitr; · ipureintro; exact harg4.read_unread _
    iexact H2
  isplitl [H7]
  · iexists _; isplitr; · ipureintro; exact harg9.read_unread _
    iexact H7
  isplitl [H8]
  · iexists _; isplitr; · ipureintro; exact harg10.read_unread _
    iexact H8
  isplitl [HH]
  · iexact HH
  · iexists _; isplitr; · ipureintro; exact harg13.read_unread _
    iexact HS

end Cert.KernelIdeal.Hand

end
-- ==== Proof.KI.BodyB.lean ====
/-
  The body obligation at a first-phase point after the first: the support scratch holds S₁ and is only read; the hidden
  scratch, right on its first 400·t rows, is right on 400 more after the point's two slice stores; every window's buffer
  is handed back as found.
-/
import proofs.«155996_g78357383349033_cont_sun_m_330_6_alg».proof.Proof.KI.BodyDefs
import proofs.«155996_g78357383349033_cont_sun_m_330_6_alg».proof.Proof.KI.RunB
import proofs.«155996_g78357383349033_cont_sun_m_330_6_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  have hc1 : ¬cond1 (grid0.coords t) := fun h => h0 ((hcond1 t).mp h)
  have hc2 : cond2 (grid0.coords t) := (hcond2 t).mpr h25
  have hc3 : ¬cond3 (grid0.coords t) := fun h => by have := (hcond3 t).mp h; omega
  have hc4 : ¬cond4 (grid0.coords t) := fun h => by have := (hcond4 t).mp h; omega
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, Phi_lo m c t.val h0 (Nat.le_of_lt h25), Phi_lo m c (t.val + 1) (Nat.succ_ne_zero _) h25]
  rw [leaves0, leaves1, leaves2, leaves3, leaves4, leaves5, leaves6, leaves7, leaves8, leaves9_lo m c t h25]
  iintro ⟨⟨⟨%H, %hH, HH⟩, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b2 m c t) (b7 m c t) (b8 m c t) H (S1v m c) Set.univ _)
  isplitl [H2]; · iexact H2
  isplitl [H7]; · iexact H7
  isplitl [H8]; · iexact H8
  isplitl [HH]; · iexact HH
  isplitl [HS]; · iexact HS
  iintro ⟨H2, H7, H8, HH, HS⟩
  isplitl [HH HS]
  · isplitl [HH]
    · iexists _
      isplitr
      swap
      · unfold owns; iexists _; isplitr
        swap; · iexact HH
        ipureintro; rfl
      · ipureintro
        exact HInv_step m scH.view c t h25 hc2 _
          (show HInv m c t.val (scH.view.read (Elt F) ((Memref.isWhole_whole _ : scH.IsWhole).unread H)) from by
            rw [Memref.IsWhole.read_unread]; exact hH) _ rfl
    · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

end Cert.KernelIdeal.Hand

end
-- ==== Proof.KI.RunC.lean ====
/-
  The kernel body at the first point of the second phase: the support product H · W2 of the whole hidden scratch is stored
  into the support scratch, then read back by the two adjacency blocks' products, which go through the class weights and the
  row-wise log-softmax into the two halves of the output block.
-/
import proofs.«155996_g78357383349033_cont_sun_m_330_6_alg».proof.Proof.KI.Common
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem hz2 : (![0, 0] : Fin 2 → ℕ) = fun _ => 0 := by funext a; fin_cases a <;> rfl

/-- A whole-buffer store over anything reads back as its payload. -/
private theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

set_option maxHeartbeats 8000000 in
/-- The body run at the first point of the second phase: the support scratch ends at H · W2 (H what the hidden scratch holds),
    the output block with its two halves stored; the inputs and the hidden scratch are handed back as found. -/
theorem runC (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : ¬cond1 i) (hc2 : ¬cond2 i) (hc3 : cond3 i) (hc4 : cond4 i)
    (x3 : Vec F S128x128 .f32) (x4 : Vec F S1x128 .f32) (x5 : Vec F S128x40 .f32) (x6 : Vec F S1x40 .f32) (x7 x8 : Vec F S200x10000 .f32) (xo : Vec F S400x40 .f32) (xh xs : Vec F S10000x128 .f32)
    (E : Set ℕ) (K : PUnit → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xh ∗ owns (c : Thread nD τ) arg13 fullShare xs
        ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (arg11.view.loc (c : Thread nD τ) ↦[arg11.view.set]{fullShare} arg11.view.writes (Elt F) (harg11.unread xo)
                [⟨Rect.unit (s := S400x40) ![200, 0] S200x40.size inb_S400x40_S200x40_200_0, k0_pay5 (k0_pay7 x8 (k0_pay4 xh x3) x4) x5 (constant S200x40 .f32 0x00000000#32) x6⟩,
                 ⟨Rect.unit (s := S400x40) ![0, 0] S200x40.size inb_S400x40_S200x40_0_0, k0_pay6 x7 (k0_pay4 xh x3) x4 x5 x6⟩])
            ∗ owns (c : Thread nD τ) arg12 fullShare xh ∗ owns (c : Thread nD τ) arg13 fullShare (k0_pay4 xh x3)) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fh, %hfh, HH⟩, ⟨%fs, %hfs, HS⟩, Hk⟩
  obtain rfl := harg5.eq_unread hf3
  obtain rfl := harg6.eq_unread hf4; obtain rfl := harg7.eq_unread hf5; obtain rfl := harg8.eq_unread hf6
  obtain rfl := harg9.eq_unread hf7; obtain rfl := harg10.eq_unread hf8
  obtain rfl := harg11.eq_unread hfo; obtain rfl := harg12.eq_unread hfh; obtain rfl := harg13.eq_unread hfs
  sl_exec (disch := first | exact hc1 | exact hc2 | exact hc3 | exact hc4)
  sl_step
  sl_unfold_run_names
  have e3 : View.readAt (Elt F) arg5.view (Rect.unit ![0, 0] S128x128.size inb_S128x128_S128x128_0_0).toLoadRect (harg5.unread x3) = x3 := by
    rw [View.readAt_eq_ld, harg5.read_unread]; exact View.ld_unit_zero (S := S128x128) hz _ _
  have e4 : View.readAt (Elt F) arg6.view (Rect.unit ![0, 0] S1x128.size inb_S1x128_S1x128_0_0).toLoadRect (harg6.unread x4) = x4 := by
    rw [View.readAt_eq_ld, harg6.read_unread]; exact View.ld_unit_zero (S := S1x128) hz _ _
  have e5 : View.readAt (Elt F) arg7.view (Rect.unit ![0, 0] S128x40.size inb_S128x40_S128x40_0_0).toLoadRect (harg7.unread x5) = x5 := by
    rw [View.readAt_eq_ld, harg7.read_unread]; exact View.ld_unit_zero (S := S128x40) hz _ _
  have e6 : View.readAt (Elt F) arg8.view (Rect.unit ![0, 0] S1x40.size inb_S1x40_S1x40_0_0).toLoadRect (harg8.unread x6) = x6 := by
    rw [View.readAt_eq_ld, harg8.read_unread]; exact View.ld_unit_zero (S := S1x40) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  have eh : View.readAt (Elt F) arg12.view (Rect.unit ![0, 0] S10000x128.size inb_S10000x128_S10000x128_0_0).toLoadRect (harg12.unread xh) = xh := by
    rw [View.readAt_eq_ld, harg12.read_unread]; exact View.ld_unit_zero (S := S10000x128) hz _ _
  rw [e3, e4, e5, e6, e7, e8, eh]
  rw [View.readCov_unit_zero (Val := Elt F) (S := S10000x128) (e := .f32) arg13.view hz inb_S10000x128_S10000x128_0_0 (k0_pay4 xh x3)]
  iapply Hk
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexact HO
  isplitl [HH]
  · iexists _; isplitr; · ipureintro; exact harg12.read_unread _
    iexact HH
  · iexists _; isplitr
    swap; · iexact HS
    ipureintro; exact read_writes_whole _ _ hz _ _

end Cert.KernelIdeal.Hand

end
-- ==== Proof.KI.BodyC.lean ====
/-
  The body obligation at the first point of the second phase: the hidden scratch holds the whole hidden array; the point
  leaves S₂ in the support scratch and stores the first output block.
-/
import proofs.«155996_g78357383349033_cont_sun_m_330_6_alg».proof.Proof.KI.BodyDefs
import proofs.«155996_g78357383349033_cont_sun_m_330_6_alg».proof.Proof.KI.RunC
import proofs.«155996_g78357383349033_cont_sun_m_330_6_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (h25 : t.val = 25) :
    bodyPre m c t ⊢ wp frame (wpE (defs₀ (F := F)) Variants.none c none) Set.univ (bodyAt0 t) (fun _ => bodyPost m c t) := by
  have hge : 25 ≤ t.val := by omega
  have hc1 : ¬cond1 (grid0.coords t) := fun h => by have := (hcond1 t).mp h; omega
  have hc2 : ¬cond2 (grid0.coords t) := fun h => by have := (hcond2 t).mp h; omega
  have hc3 : cond3 (grid0.coords t) := (hcond3 t).mpr h25
  have hc4 : cond4 (grid0.coords t) := (hcond4 t).mpr hge
  have hS : k0_pay4 (H1v m c) (b3 m c t) = S2v m c := by
    have ht : t = t25 := Fin.ext h25
    subst ht; rfl
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, Phi_lo m c t.val (by omega) (by omega), Phi_hi m c (t.val + 1) (by omega)]
  rw [leaves0, leaves1, leaves2, leaves3, leaves4, leaves5, leaves6, leaves7, leaves8, leaves9_hi m c t hge]
  iintro ⟨⟨⟨%H, %hH, HH⟩, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hHe : H = H1v m c := HInv_full m c t.val hge H hH
  subst hHe
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b3 m c t) (b4 m c t) (b5 m c t) (b6 m c t) (b7 m c t) (b8 m c t) ((dats m 0 c).before 9 t d9) (H1v m c) (S1v m c) Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HH]; · iexact HH
  isplitl [HS]; · iexact HS
  iintro ⟨H3, H4, H5, H6, H7, H8, H9, HH, HS⟩
  isplitl [HH HS]
  · isplitl [HH]
    · iexists _
      isplitr
      · ipureintro; rw [h25] at hH; exact hH
      · iexact HH
    · rw [← hS]; iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact Oblk_eq m (ms9 t).view c t _ _ hS

end Cert.KernelIdeal.Hand

end
-- ==== Proof.KI.RunD.lean ====
/-
  The kernel body at a second-phase point after its first: each of the two adjacency blocks is multiplied with the resident
  support product, the bias row added, the result multiplied with the class weights, the class bias added, and the row-wise
  log-softmax stored into the upper and the lower 200 rows of the output block.
-/
import proofs.«155996_g78357383349033_cont_sun_m_330_6_alg».proof.Proof.KI.Common
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem hz2 : (![0, 0] : Fin 2 → ℕ) = fun _ => 0 := by funext a; fin_cases a <;> rfl

set_option maxHeartbeats 8000000 in
/-- The body run at a point of the second phase other than its first: the output block ends with its two halves stored;
    the inputs and the support scratch are handed back as found. -/
theorem runD (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S200x10000 .f32) (harg9 : arg9.IsWhole) (arg10 : Memref sig .tc .vmem S200x10000 .f32) (harg10 : arg10.IsWhole) (arg11 : Memref sig .tc .vmem S400x40 .f32) (harg11 : arg11.IsWhole) (arg12 : Memref sig .tc .vmem S10000x128 .f32) (harg12 : arg12.IsWhole) (arg13 : Memref sig .tc .vmem S10000x128 .f32) (harg13 : arg13.IsWhole)
    (hc1 : ¬cond1 i) (hc2 : ¬cond2 i) (hc3 : ¬cond3 i) (hc4 : cond4 i)
    (x4 : Vec F S1x128 .f32) (x5 : Vec F S128x40 .f32) (x6 : Vec F S1x40 .f32) (x7 x8 : Vec F S200x10000 .f32) (xo : Vec F S400x40 .f32) (xs : Vec F S10000x128 .f32)
    (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg13 fullShare xs
        ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (arg11.view.loc (c : Thread nD τ) ↦[arg11.view.set]{fullShare} arg11.view.writes (Elt F) (harg11.unread xo)
                [⟨Rect.unit (s := S400x40) ![200, 0] S200x40.size inb_S400x40_S200x40_200_0, k0_pay5 (k0_pay7 x8 xs x4) x5 (constant S200x40 .f32 0x00000000#32) x6⟩,
                 ⟨Rect.unit (s := S400x40) ![0, 0] S200x40.size inb_S400x40_S200x40_0_0, k0_pay6 x7 xs x4 x5 x6⟩])
            ∗ owns (c : Thread nD τ) arg13 fullShare xs) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  have hz := hz2
  simp only [cc0__gcn_body_eq_skeleton]; unfold cc0__gcn_body_skel
  simp only [k0_part1_eq_skeleton]
  unfold owns
  iintro ⟨⟨%f4, %hf4, H4⟩, ⟨%f5, %hf5, H5⟩, ⟨%f6, %hf6, H6⟩, ⟨%f7, %hf7, H7⟩, ⟨%f8, %hf8, H8⟩, ⟨%fo, %hfo, HO⟩, ⟨%fs, %hfs, HS⟩, Hk⟩
  obtain rfl := harg6.eq_unread hf4; obtain rfl := harg7.eq_unread hf5; obtain rfl := harg8.eq_unread hf6
  obtain rfl := harg9.eq_unread hf7; obtain rfl := harg10.eq_unread hf8
  obtain rfl := harg11.eq_unread hfo; obtain rfl := harg13.eq_unread hfs
  sl_exec (disch := first | exact hc1 | exact hc2 | exact hc3 | exact hc4)
  sl_step
  sl_unfold_run_names
  have e4 : View.readAt (Elt F) arg6.view (Rect.unit ![0, 0] S1x128.size inb_S1x128_S1x128_0_0).toLoadRect (harg6.unread x4) = x4 := by
    rw [View.readAt_eq_ld, harg6.read_unread]; exact View.ld_unit_zero (S := S1x128) hz _ _
  have e5 : View.readAt (Elt F) arg7.view (Rect.unit ![0, 0] S128x40.size inb_S128x40_S128x40_0_0).toLoadRect (harg7.unread x5) = x5 := by
    rw [View.readAt_eq_ld, harg7.read_unread]; exact View.ld_unit_zero (S := S128x40) hz _ _
  have e6 : View.readAt (Elt F) arg8.view (Rect.unit ![0, 0] S1x40.size inb_S1x40_S1x40_0_0).toLoadRect (harg8.unread x6) = x6 := by
    rw [View.readAt_eq_ld, harg8.read_unread]; exact View.ld_unit_zero (S := S1x40) hz _ _
  have e7 : View.readAt (Elt F) arg9.view (Rect.unit ![0, 0] S200x10000.size inb_S200x10000_S200x10000_0_0).toLoadRect (harg9.unread x7) = x7 := by
    rw [View.readAt_eq_ld, harg9.read_unread]; exact View.ld_unit_zero (S := S200x10000) hz _ _
  have e8 : View.readAt (Elt F) arg10.view (Rect.unit ![0, 0] S200x10000.size inb_S200x10000_S200x10000_0_0).toLoadRect (harg10.unread x8) = x8 := by
    rw [View.readAt_eq_ld, harg10.read_unread]; exact View.ld_unit_zero (S := S200x10000) hz _ _
  have es : View.readAt (Elt F) arg13.view (Rect.unit ![0, 0] S10000x128.size inb_S10000x128_S10000x128_0_0).toLoadRect (harg13.unread xs) = xs := by
    rw [View.readAt_eq_ld, harg13.read_unread]; exact View.ld_unit_zero (S := S10000x128) hz _ _
  rw [e4, e5, e6, e7, e8, es]
  iapply Hk
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HO]
  · iexact HO
  · iexists _; isplitr; · ipureintro; exact harg13.read_unread _
    iexact HS

end Cert.KernelIdeal.Hand

end
-- ==== Proof.KI.BodyD.lean ====
/-
  The body obligation at a second-phase point after its first: the support scratch holds S₂ and is only read; the point
  stores its output block.
-/
import proofs.«155996_g78357383349033_cont_sun_m_330_6_alg».proof.Proof.KI.BodyDefs
import proofs.«155996_g78357383349033_cont_sun_m_330_6_alg».proof.Proof.KI.RunD
import proofs.«155996_g78357383349033_cont_sun_m_330_6_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_D (c : Dev nD) (t : Fin cfg0.N) (h25 : 25 < t.val) :
    bodyPre m c t ⊢ wp frame (wpE (defs₀ (F := F)) Variants.none c none) Set.univ (bodyAt0 t) (fun _ => bodyPost m c t) := by
  have hge : 25 ≤ t.val := by omega
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr hge
  unfold bodyPre bodyPost bodyAt0
  simp only [before0, before1, before2, before3, before4, before5, before6, before7, before8]
  rw [show (dats m 0 c).owesAt () t.succ = (dats m 0 c).owesAt () t.castSucc from rfl]
  rw [Phi_castSucc, Phi_succ, Phi_hi m c t.val h25, Phi_hi m c (t.val + 1) (by omega)]
  rw [leaves0, leaves1, leaves2, leaves3, leaves4, leaves5, leaves6, leaves7, leaves8, leaves9_hi m c t hge]
  iintro ⟨⟨HH, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scS (Memref.isWhole_whole _) hc1 hc2 hc3 hc4 (b4 m c t) (b5 m c t) (b6 m c t) (b7 m c t) (b8 m c t) ((dats m 0 c).before 9 t d9) (S2v m c) Set.univ _)
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H4, H5, H6, H7, H8, H9, HS⟩
  isplitl [HH HS]
  · isplitl [HH]
    · iexact HH
    · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  exact Oblk_eq m (ms9 t).view c t _ _ rfl

end Cert.KernelIdeal.Hand

end
-- ==== Proof.KI.Body.lean ====
/-
  The body obligation at every grid point: the point is the first, a later one of the first phase, the first of the second
  phase, or a later one of the second phase.
-/
import proofs.«155996_g78357383349033_cont_sun_m_330_6_alg».proof.Proof.KI.BodyA
import proofs.«155996_g78357383349033_cont_sun_m_330_6_alg».proof.Proof.KI.BodyB
import proofs.«155996_g78357383349033_cont_sun_m_330_6_alg».proof.Proof.KI.BodyC
import proofs.«155996_g78357383349033_cont_sun_m_330_6_alg».proof.Proof.KI.BodyD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 25
  · exact sound_B m c t h0 h1
  by_cases h2 : t.val = 25
  · exact sound_C m c t h2
  · exact sound_D m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Final.lean ====
/-
  The kernel's whole result array. Point t of the second phase writes its block of 400 rows back to rows
  400·(t − 25) … 400·(t − 25) + 399 of the result, once; the 25 blocks tile the 10000 rows: the array ends holding, at row r,
  row r mod 400 of the block of point 25 + r / 400.
-/
import proofs.«155996_g78357383349033_cont_sun_m_330_6_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second-phase point whose block holds result row `r`. -/
def ptOut (j : S10000x40.Idx) : Fin cfg0.N := ⟨25 + (j 0).val / 400, by
  have h : (j 0).val < 10000 := (j 0).isLt
  have hN : cfg0.N = 50 := N_0
  omega⟩

/-- The kernel's result array. -/
def Gout (c : Dev nD) : Vec F S10000x40 .f32 := fun j =>
  Oblk m c (ptOut j) (ValueIdx.ix2 (⟨(j 0).val % 400, Nat.mod_lt _ (by decide)⟩ : Fin 400) (j 1))

/-- The result window's printed index map, decided once over the grid: at a point of the second phase the block index is
    the point's number within the phase on the rows and zero on the columns. -/
theorem idx9 : ∀ t : Fin cfg0.N, 25 ≤ t.val → win0_9.index t (0 : Fin 2) = t.val - 25 ∧ win0_9.index t (1 : Fin 2) = 0 :=
  (by decide +kernel : ∀ t : Fin grid0.N, 25 ≤ t.val → win0_9.index t (0 : Fin 2) = t.val - 25 ∧ win0_9.index t (1 : Fin 2) = 0)

/-- What a point t of the second phase writes back is its block of the result array: the element y of the block sits at
    row 400·(t − 25) + y₀, whose covering point is t and whose row inside that point's block is y₀. -/
theorem flushed9_eq (c : Dev nD) (t : Fin cfg0.N) (ht : 25 ≤ t.val) :
    (dats m 0 c).flushed 9 t = ((cfg0.win 9).blk t).view.read (Elt F) (Gout m c) := by
  show (cfg0.win 9).cut (grid0.coords t) ((dats m 0 c).after 9 t) = _
  rw [after9]
  obtain ⟨e0, e1⟩ := idx9 t ht
  have hN : cfg0.N = 50 := N_0
  have htN : t.val < 50 := hN ▸ t.isLt
  funext y
  have hy0 : (y 0).val < 400 := (y 0).isLt
  have hy1 : (y 1).val < 40 := (y 1).isLt
  -- the array index of the block's element y: block index × block size + the coordinate inside the block
  have k0 : ((((cfg0.win 9).blk t).view.emb y : S10000x40.Idx) 0).val = (t.val - 25) * 400 + (y 0).val := by
    show win0_9.index t (0 : Fin 2) * 400 + 1 * (y 0).val = _
    rw [e0]; omega
  have k1 : ((((cfg0.win 9).blk t).view.emb y : S10000x40.Idx) 1).val = (y 1).val := by
    show win0_9.index t (1 : Fin 2) * 40 + 1 * (y 1).val = _
    rw [e1]; omega
  show Oblk m c t ((cfg0.win 9).xinj (grid0.coords t) y)
    = Oblk m c (ptOut (((cfg0.win 9).blk t).view.emb y))
        (ValueIdx.ix2 (⟨((((cfg0.win 9).blk t).view.emb y : S10000x40.Idx) 0).val % 400, Nat.mod_lt _ (by decide)⟩ : Fin 400)
          ((((cfg0.win 9).blk t).view.emb y : S10000x40.Idx) 1))
  -- the point covering that row is t itself
  have hp : ptOut (((cfg0.win 9).blk t).view.emb y) = t :=
    Fin.ext (by show 25 + ((((cfg0.win 9).blk t).view.emb y : S10000x40.Idx) 0).val / 400 = t.val; rw [k0]; omega)
  rw [hp]
  congr 1
  funext a
  apply Fin.ext
  match a with
  | ⟨0, _⟩ => show (y 0).val = ((((cfg0.win 9).blk t).view.emb y : S10000x40.Idx) 0).val % 400; rw [k0]; omega
  | ⟨1, _⟩ => show (y 1).val = ((((cfg0.win 9).blk t).view.emb y : S10000x40.Idx) 1).val; rw [k1]

/-- An index of the result array is in point t's block iff each coordinate is in the block's range on its axis. -/
theorem mem_blk9 (t : Fin cfg0.N) (i : S10000x40.Idx) :
    i ∈ ((cfg0.win 9).blk t).view.set ↔ ∀ a : Fin 2, win0_9.index t a * S400x40.size a ≤ (i a).val ∧ (i a).val < win0_9.index t a * S400x40.size a + S400x40.size a := by
  show i ∈ ((View.whole main_v0).slice (win0_9.rect t)).set ↔ _
  rw [View.set_slice_whole, Rect.mem_set_unit]
  exact Iff.rfl

/-- The 25 blocks of the second phase tile the 10000 rows: row r is in the block of point 25 + r / 400, which writes back. -/
theorem cover9 (i : S10000x40.Idx) : ∃ t : Fin cfg0.N, (cfg0.win 9).flush t = true ∧ i ∈ ((cfg0.win 9).blk t).view.set := by
  have hi0 : (i 0).val < 10000 := (i 0).isLt
  have hi1 : (i 1).val < 40 := (i 1).isLt
  have hv : (ptOut i).val = 25 + (i 0).val / 400 := rfl
  have hp : 25 ≤ (ptOut i).val := by omega
  obtain ⟨e0, e1⟩ := idx9 (ptOut i) hp
  refine ⟨ptOut i, flush9_hi _ hp, ?_⟩
  rw [mem_blk9]
  intro a
  match a with
  | ⟨0, _⟩ =>
    show win0_9.index (ptOut i) (0 : Fin 2) * 400 ≤ (i 0).val ∧ (i 0).val < win0_9.index (ptOut i) (0 : Fin 2) * 400 + 400
    rw [e0, hv]; omega
  | ⟨1, _⟩ =>
    show win0_9.index (ptOut i) (1 : Fin 2) * 40 ≤ (i 1).val ∧ (i 1).val < win0_9.index (ptOut i) (1 : Fin 2) * 40 + 40
    rw [e1]; omega

/-- After the last point the result window's array holds the result array. -/
theorem final9 (c : Dev nD) : (dats m 0 c).arrAt 9 cfg0.N = Gout m c :=
  (dats m 0 c).arrAt_eq_of_cover 9 (Gout m c)
    (fun t hf => flushed9_eq m c t (by
      by_contra h
      have hlo : (cfg0.win 9).flush t = false := noFlush9_lo t (by omega)
      rw [hlo] at hf
      exact Bool.false_ne_true hf))
    cover9

end Cert.KernelIdeal.Hand

end
-- ==== Proof.KI.VArgs.lean ====
/-
  The arrays as the kernel region finds them: the eight argument arrays are untouched by the three reshapes before the
  region, and each reshaped bias row holds the bias vector's entries.
-/
import proofs.«155996_g78357383349033_cont_sun_m_330_6_alg».proof.Proof.KI.Common
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each of the three reshapes writes only its own result row, and an argument is none of those three references. -/
local macro "not_written" : tactic =>
  `(tactic| (simp only [hostOps0, List.Forall, StableHlo.TRef.reshape, StableHlo.reshape_writes, Finset.mem_singleton]
             repeat' apply And.intro
             all_goals exact StableHlo.devRef_ne_of_ne (by decide)))

/-- None of the three reshapes writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by not_written))
/-- None of the three reshapes writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by not_written))
/-- None of the three reshapes writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by not_written))
/-- None of the three reshapes writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by not_written))
/-- None of the three reshapes writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by not_written))
/-- None of the three reshapes writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by not_written))
/-- None of the three reshapes writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by not_written))
/-- None of the three reshapes writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by not_written))

/-- The first bias row: entry (0, k) is the first bias vector's entry k. -/
theorem V_b1row (c : Dev nD) (k : Fin 128) :
    (V m c main_call0_v0 : S1x128.Idx → Elt F .f32) (ValueIdx.ix2 0 k) = (m ((c : Thread nD τ).loc main_arg3) : S128.Idx → Elt F .f32) (ValueIdx.ix1 k) := by
  -- the row is the vector recast to one row of the same length
  have e : (V m c main_call0_v0 : S1x128.Idx → Elt F .f32)
      = shapeCast S1x128 (m ((c : Thread nD τ).loc main_arg3) : S128.Idx → Elt F .f32) shapeCasts_S128_S1x128 := by
    dsimp only [V, V0, hostOps0]; after_results; rfl
  rw [e]
  -- a recast keeps the row-major position: entry (0, k) of the row sits at position 0 * 128 + k = k
  exact shapeCast_apply _ _ (ValueIdx.ix2 0 k) (ValueIdx.ix1 k) (by
    rw [Shape.rowMajor_val_two, Shape.rowMajor_val_one]; show k.val = 0 * 128 + k.val; omega)

/-- The second bias row. -/
theorem V_b2row (c : Dev nD) (k : Fin 128) :
    (V m c main_call0_v1 : S1x128.Idx → Elt F .f32) (ValueIdx.ix2 0 k) = (m ((c : Thread nD τ).loc main_arg5) : S128.Idx → Elt F .f32) (ValueIdx.ix1 k) := by
  -- the row is the vector recast to one row of the same length
  have e : (V m c main_call0_v1 : S1x128.Idx → Elt F .f32)
      = shapeCast S1x128 (m ((c : Thread nD τ).loc main_arg5) : S128.Idx → Elt F .f32) shapeCasts_S128_S1x128 := by
    dsimp only [V, V0, hostOps0]; after_results; rfl
  rw [e]
  -- a recast keeps the row-major position: entry (0, k) of the row sits at position 0 * 128 + k = k
  exact shapeCast_apply _ _ (ValueIdx.ix2 0 k) (ValueIdx.ix1 k) (by
    rw [Shape.rowMajor_val_two, Shape.rowMajor_val_one]; show k.val = 0 * 128 + k.val; omega)

/-- The class bias row. -/
theorem V_bfcrow (c : Dev nD) (k : Fin 40) :
    (V m c main_call0_v2 : S1x40.Idx → Elt F .f32) (ValueIdx.ix2 0 k) = (m ((c : Thread nD τ).loc main_arg7) : S40.Idx → Elt F .f32) (ValueIdx.ix1 k) := by
  -- the row is the vector recast to one row of the same length
  have e : (V m c main_call0_v2 : S1x40.Idx → Elt F .f32)
      = shapeCast S1x40 (m ((c : Thread nD τ).loc main_arg7) : S40.Idx → Elt F .f32) shapeCasts_S40_S1x40 := by
    dsimp only [V, V0, hostOps0]; after_results; rfl
  rw [e]
  -- a recast keeps the row-major position: entry (0, k) of the row sits at position 0 * 40 + k = k
  exact shapeCast_apply _ _ (ValueIdx.ix2 0 k) (ValueIdx.ix1 k) (by
    rw [Shape.rowMajor_val_two, Shape.rowMajor_val_one]; show k.val = 0 * 40 + k.val; omega)

end Cert.KernelIdeal.Hand

end
-- ==== Proof.KI.Frame.lean ====
/-
  The run of the program: the launch over the proof data and the body obligation; then what it leaves — the eight argument
  arrays as they were, and the result array at the kernel's result function.
-/
import proofs.«155996_g78357383349033_cont_sun_m_330_6_alg».proof.Proof.KI.Body
import proofs.«155996_g78357383349033_cont_sun_m_330_6_alg».proof.Proof.KI.Final
import proofs.«155996_g78357383349033_cont_sun_m_330_6_alg».proof.Proof.KI.VArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region — the two scratch buffers at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_eq, show (dats m 0 c).Φ 0 = Phi m c 0 from rfl, Phi_zero]

/-- After the last point the invariant gives the two scratch buffers back, their contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  have hN : (Fin.last cfg0.N).val = 50 := by rw [Fin.val_last]; exact N_0
  rw [scopedRest_eq, show (dats m 0 c).Φ (Fin.last cfg0.N) = Phi m c (Fin.last cfg0.N).val from rfl, hN, Phi_hi m c 50 (by decide)]
  iintro ⟨⟨%H, -, HH⟩, HS⟩
  isplitl [HH]
  · iexists _; iexact HH
  · iexists _; iexact HS

/-- Every weakly fair execution of the program terminates, each window's array at what the write-backs leave and every
    other unscoped buffer as the region found it. -/
theorem run_main : θ_run (defs (F := F)) (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  launch m ρ (dats m) (fun c => (body_obligation m c).loose) (fun _ _ => rfl) (A_eq m) (fun _ _ => rfl) (hin m) (hout m)

/-- The program runs, and its argument arrays end unchanged, its result array at the kernel's result function. -/
theorem run_value : θ_run (defs (F := F)) (onTc (τ := τ) (main (F := F))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c =>
    ⟨((h c).1 9).trans (final9 m c),
     ((h c).1 0).trans (((dats m 0 c).arrAt_in 0 rfl _).trans ((A_eq m c 0).trans (V_main_arg0 m c))),
     ((h c).1 7).trans (((dats m 0 c).arrAt_in 7 rfl _).trans ((A_eq m c 7).trans (V_main_arg1 m c))),
     ((h c).1 1).trans (((dats m 0 c).arrAt_in 1 rfl _).trans ((A_eq m c 1).trans (V_main_arg2 m c))),
     ((h c).2 main_arg3 (Pipeline.mem_restRefs_of main_arg3 rfl (by decide))).trans (V_main_arg3 m c),
     ((h c).1 3).trans (((dats m 0 c).arrAt_in 3 rfl _).trans ((A_eq m c 3).trans (V_main_arg4 m c))),
     ((h c).2 main_arg5 (Pipeline.mem_restRefs_of main_arg5 rfl (by decide))).trans (V_main_arg5 m c),
     ((h c).1 5).trans (((dats m 0 c).arrAt_in 5 rfl _).trans ((A_eq m c 5).trans (V_main_arg6 m c))),
     ((h c).2 main_arg7 (Pipeline.mem_restRefs_of main_arg7 rfl (by decide))).trans (V_main_arg7 m c)⟩) (run_main m ρ)

/-- The frame: the program runs and its argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c => (h c).2) (run_value m ρ)

end Cert.KernelIdeal.Hand

end
-- ==== Proof.Spec.lean ====
/-
  The mathematics both programs compute, written once over the extended reals, entry by entry.

  A two-layer graph convolution with a dense adjacency matrix followed by a linear layer and a row-wise
  log-softmax:
    support₁ = x · W1,            hidden = max (adj · support₁ + b1, 0),
    support₂ = hidden · W2,       agg = adj · support₂ + b2,
    logit   = agg · Wfc + bfc,    out = log_softmax (logit)  (row by row over the 40 classes).
  Every matrix product is the plain sum over the contracted axis.  The log-softmax has two spellings,
  `lsmRef`: (u − m) − log Σ exp (u − m) and `lsmKer`: u − (log Σ exp (u − m) + m), with m the row's maximum
  (the fold of `max` from −∞); they agree when the row is finite.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Vc (a : ℕ) : Type := (⟨1, ![a]⟩ : Shape).Idx → EReal

/-- The maximum of a row of 40 logits, as the fold of `max` from −∞. -/
def rowmax (u : Fin 40 → EReal) : EReal := (Finset.univ : Finset (Fin 40)).fold max ⊥ u

/-- log-softmax, the shifted spelling: (u − m) − log Σ exp (u − m). -/
def lsmRef (u : Fin 40 → EReal) (c : Fin 40) : EReal :=
  (u c - rowmax u) - Ideal.log (∑ c' : Fin 40, Ideal.exp (u c' - rowmax u))

/-- log-softmax, the log-sum-exp spelling: u − (log Σ exp (u − m) + m). -/
def lsmKer (u : Fin 40 → EReal) (c : Fin 40) : EReal :=
  u c - (Ideal.log (∑ c' : Fin 40, Ideal.exp (u c' - rowmax u)) + rowmax u)

variable (x : Mat 10000 128) (adj : Mat 10000 10000) (W1 : Mat 128 128) (b1 : Vc 128) (W2 : Mat 128 128) (b2 : Vc 128)
  (Wfc : Mat 128 40) (bfc : Vc 40)

/-- support₁ = x · W1. -/
def sup1 (r : Fin 10000) (c : Fin 128) : EReal := ∑ k : Fin 128, x (ix2 r k) * W1 (ix2 k c)

/-- hidden = max (adj · support₁ + b1, 0). -/
def hid (r : Fin 10000) (c : Fin 128) : EReal :=
  max ((∑ k : Fin 10000, adj (ix2 r k) * sup1 x W1 k c) + b1 (ix1 c)) 0

/-- support₂ = hidden · W2. -/
def sup2 (r : Fin 10000) (c : Fin 128) : EReal := ∑ k : Fin 128, hid x adj W1 b1 r k * W2 (ix2 k c)

/-- agg = adj · support₂ + b2. -/
def agg2 (r : Fin 10000) (c : Fin 128) : EReal :=
  (∑ k : Fin 10000, adj (ix2 r k) * sup2 x adj W1 b1 W2 k c) + b2 (ix1 c)

/-- logit = agg · Wfc + bfc. -/
def logit (r : Fin 10000) (c : Fin 40) : EReal :=
  (∑ k : Fin 128, agg2 x adj W1 b1 W2 b2 r k * Wfc (ix2 k c)) + bfc (ix1 c)

/-- The result in the reference's spelling. -/
def outRef : Mat 10000 40 := fun j => lsmRef (logit x adj W1 b1 W2 b2 Wfc bfc (j 0)) (j 1)

/-- The result in the kernel's spelling. -/
def outKer : Mat 10000 40 := fun j => lsmKer (logit x adj W1 b1 W2 b2 Wfc bfc (j 0)) (j 1)

/-- Every entry of an array is a real number. -/
def Fin2 {a b : ℕ} (M : Mat a b) : Prop := ∀ j, ∃ r : ℝ, M j = (r : EReal)
def Fin1 {a : ℕ} (v : Vc a) : Prop := ∀ j, ∃ r : ℝ, v j = (r : EReal)

end Cert.Spec

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KernelPay.lean ====
/-
  The kernel body's stored values, read at an entry over the extended reals: each matrix product the sum over its
  contracted axis, the bias row broadcast down the rows, the rectifier the maximum with zero, and the last stage the
  log-sum-exp spelling of log-softmax along a row of 40 classes.
-/
import proofs.«155996_g78357383349033_cont_sun_m_330_6_alg».proof.Proof.Gen.KernelIdeal.Skeleton
import proofs.«155996_g78357383349033_cont_sun_m_330_6_alg».proof.Proof.Spec
import proofs.«155996_g78357383349033_cont_sun_m_330_6_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

variable [Cert.KernelIdeal.Facts]

/-- x · W : the first-layer (and, on the hidden array, second-layer) support. -/
theorem pay1_at (x : Vec Ideal S10000x128 .f32) (W : Vec Ideal S128x128 .f32) (r : Fin 10000) (c : Fin 128) :
    k0_pay1 (F := Ideal) x W (ix2 r c) = ∑ k : Fin 128, x (ix2 r k) * W (ix2 k c) := by
  unfold k0_pay1
  simp only [shapeCast_self]
  exact Cert.LibMatmulAt.matmul_zero_at dot_S10000x128_S128x128_S10000x128_1_0_0_1_n_n rfl rfl rfl rfl rfl rfl none x W r c

theorem pay4_at (x : Vec Ideal S10000x128 .f32) (W : Vec Ideal S128x128 .f32) (r : Fin 10000) (c : Fin 128) :
    k0_pay4 (F := Ideal) x W (ix2 r c) = ∑ k : Fin 128, x (ix2 r k) * W (ix2 k c) :=
  pay1_at x W r c

/-- max (a · S + b, 0) on a block of 200 rows of the adjacency matrix. -/
theorem pay2_at (a : Vec Ideal S200x10000 .f32) (S : Vec Ideal S10000x128 .f32) (b : Vec Ideal S1x128 .f32) (p : Fin 200) (c : Fin 128) :
    k0_pay2 (F := Ideal) a S b (ix2 p c) = max ((∑ k : Fin 10000, a (ix2 p k) * S (ix2 k c)) + b (ix2 0 c)) 0 := by
  unfold k0_pay2
  simp only [shapeCast_self, maximumf_apply, addf_apply, broadcast_apply, broadcastTo_1b_ab_apply]
  exact congrArg₂ max
    (congrArg (· + b (ix2 0 c))
      (Cert.LibMatmulAt.matmul_zero_at dot_S200x10000_S10000x128_S200x128_1_0_0_1_n_n rfl rfl rfl rfl rfl rfl none a S p c))
    Ideal.ofBits_zero_f32

theorem pay3_at (a : Vec Ideal S200x10000 .f32) (S : Vec Ideal S10000x128 .f32) (b : Vec Ideal S1x128 .f32) (p : Fin 200) (c : Fin 128) :
    k0_pay3 (F := Ideal) a S b (ix2 p c) = max ((∑ k : Fin 10000, a (ix2 p k) * S (ix2 k c)) + b (ix2 0 c)) 0 :=
  pay2_at a S b p c

/-- a · S + b on a block of 200 rows. -/
theorem pay7_at (a : Vec Ideal S200x10000 .f32) (S : Vec Ideal S10000x128 .f32) (b : Vec Ideal S1x128 .f32) (p : Fin 200) (c : Fin 128) :
    k0_pay7 (F := Ideal) a S b (ix2 p c) = (∑ k : Fin 10000, a (ix2 p k) * S (ix2 k c)) + b (ix2 0 c) := by
  unfold k0_pay7
  simp only [shapeCast_self, addf_apply, broadcastTo_1b_ab_apply]
  exact congrArg (· + b (ix2 0 c))
    (Cert.LibMatmulAt.matmul_zero_at dot_S200x10000_S10000x128_S200x128_1_0_0_1_n_n rfl rfl rfl rfl rfl rfl none a S p c)

/-- A vector of length a viewed as a column: the entry (i, 0) of the column is the entry i of the vector. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows: the entry (p, c) is the column's entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with the column k put back. -/
theorem lift_row (hR : S200x40.Reduces [1] S200) (p : Fin 200) (k : Fin 40) : hR.lift (ix1 p) k = ix2 p k :=
  funext fun a => Fin.ext (by
    match a with
    | ⟨0, _⟩ => rfl
    | ⟨1, _⟩ => rfl)

/-- The single-precision pattern of −∞ is the bottom of the extended reals. -/
theorem ofBits_neg_inf : Ideal.ofBits .f32 0xFF800000#32 = ⊥ := by simp [Ideal.ofBits, Ideal.ieee]

/-- A row's maximum. -/
theorem rowmax_at (v : FVec Ideal S200x40 .f32) (hR : S200x40.Reduces [1] S200) (hφ : FKind.Formats .f32)
    (hacc : (0xFF800000#32 : BitVec 32) = FKind.maximumf.neutral .f32 hφ) (p : Fin 200) :
    multiReduction .maximumf [1] S200 v 0xFF800000#32 hR hφ hacc (ix1 p) = Cert.Spec.rowmax (fun c' => v (ix2 p c')) := by
  refine (Ideal.multiReduction_maximumf_single v _ hR hφ hacc (ix1 p)).trans ?_
  unfold Cert.Spec.rowmax
  show (Finset.univ : Finset (Fin 40)).fold max (Ideal.ofBits .f32 0xFF800000#32) (v ∘ hR.lift (ix1 p)) = _
  rw [ofBits_neg_inf]
  exact congrArg ((Finset.univ : Finset (Fin 40)).fold max ⊥) (funext fun k => congrArg v (lift_row hR p k))

/-- A row's sum. -/
theorem rowsum_at (v : FVec Ideal S200x40 .f32) (hR : S200x40.Reduces [1] S200) (hφ : FKind.Formats .f32)
    (hacc : (0x00000000#32 : BitVec 32) = FKind.add.neutral .f32 hφ) (p : Fin 200) :
    multiReduction .add [1] S200 v 0x00000000#32 hR hφ hacc (ix1 p) = ∑ c' : Fin 40, v (ix2 p c') := by
  refine (Ideal.multiReduction_add_single v _ hR hφ hacc (ix1 p)).trans ?_
  show ∑ k : Fin 40, v (hR.lift (ix1 p) k) = _
  exact Finset.sum_congr rfl fun k _ => congrArg v (lift_row hR p k)

/-- The log-sum-exp tail on a block of logits: subtract from each entry the logarithm of the row's sum of exponentials
    of the entries less the row's maximum, plus that maximum. -/
theorem lsm_tail (v : FVec Ideal S200x40 .f32) (hR : S200x40.Reduces [1] S200) (hC : S200.ShapeCasts S200x1)
    (hB : S200x1.Broadcasts S200x40) (hφ : FKind.Formats .f32)
    (hm : (0xFF800000#32 : BitVec 32) = FKind.maximumf.neutral .f32 hφ)
    (hs : (0x00000000#32 : BitVec 32) = FKind.add.neutral .f32 hφ) (p : Fin 200) (c : Fin 40) :
    subf v (broadcastTo S200x40 (addf (log (shapeCast S200x1 (multiReduction .add [1] S200
        (exp (subf v (broadcastTo S200x40 (shapeCast S200x1 (multiReduction .maximumf [1] S200 v 0xFF800000#32 hR hφ hm) hC) hB)))
        0x00000000#32 hR hφ hs) hC)) (shapeCast S200x1 (multiReduction .maximumf [1] S200 v 0xFF800000#32 hR hφ hm) hC)) hB) (ix2 p c)
      = Cert.Spec.lsmKer (fun c' => v (ix2 p c')) c := by
  unfold Cert.Spec.lsmKer
  rw [subf_apply, broadcastTo_a1_ab_apply, addf_apply, shapeCast_a_a1_apply, rowmax_at]
  show v (ix2 p c) - (Ideal.log (shapeCast S200x1 _ hC (ix2 p (0 : Fin 1))) + _) = _
  rw [shapeCast_a_a1_apply, rowsum_at]
  refine congrArg (fun z => v (ix2 p c) - (Ideal.log z + _)) (Finset.sum_congr rfl fun c' _ => ?_)
  show Ideal.exp (v (ix2 p c') - broadcastTo S200x40 _ hB (ix2 p c')) = _
  rw [broadcastTo_a1_ab_apply, shapeCast_a_a1_apply, rowmax_at]

/-- The last stage from the aggregated block t: log-softmax (log-sum-exp spelling) of t · Wfc + bfc along each row. -/
theorem pay5_at (t : FVec Ideal S200x128 .f32) (Wfc : Vec Ideal S128x40 .f32) (bfc : Vec Ideal S1x40 .f32) (p : Fin 200) (c : Fin 40) :
    k0_pay5 (F := Ideal) t Wfc (constant S200x40 .f32 0x00000000#32) bfc (ix2 p c)
      = Cert.Spec.lsmKer (fun c' => (∑ k : Fin 128, t (ix2 p k) * Wfc (ix2 k c')) + bfc (ix2 0 c')) c := by
  unfold k0_pay5
  refine (lsm_tail _ _ _ _ _ _ _ p c).trans ?_
  refine congrArg (fun u => Cert.Spec.lsmKer u c) (funext fun c' => ?_)
  simp only [shapeCast_self, addf_apply, broadcastTo_1b_ab_apply]
  exact congrArg (· + bfc (ix2 0 c'))
    (Cert.LibMatmulAt.matmul_zero_at dot_S200x128_S128x40_S200x40_1_0_0_1_n_n rfl rfl rfl rfl rfl rfl none t Wfc p c')

/-- The same with the aggregation a · S + b2 inlined (the upper half-block's store). -/
theorem pay6_at (a : Vec Ideal S200x10000 .f32) (S : Vec Ideal S10000x128 .f32) (b2 : Vec Ideal S1x128 .f32) (Wfc : Vec Ideal S128x40 .f32)
    (bfc : Vec Ideal S1x40 .f32) (p : Fin 200) (c : Fin 40) :
    k0_pay6 (F := Ideal) a S b2 Wfc bfc (ix2 p c)
      = Cert.Spec.lsmKer (fun c' => (∑ k : Fin 128, ((∑ k' : Fin 10000, a (ix2 p k') * S (ix2 k' k)) + b2 (ix2 0 k)) * Wfc (ix2 k c')) + bfc (ix2 0 c')) c := by
  unfold k0_pay6
  refine (lsm_tail _ _ _ _ _ _ _ p c).trans ?_
  refine congrArg (fun u => Cert.Spec.lsmKer u c) (funext fun c' => ?_)
  simp only [shapeCast_self, addf_apply, broadcastTo_1b_ab_apply]
  refine (congrArg (· + bfc (ix2 0 c'))
    (Cert.LibMatmulAt.matmul_zero_at dot_S200x128_S128x40_S200x40_1_0_0_1_n_n rfl rfl rfl rfl rfl rfl none _ Wfc p c')).trans ?_
  refine congrArg (· + bfc (ix2 0 c')) (Finset.sum_congr rfl fun k _ => congrArg (· * Wfc (ix2 k c')) ?_)
  simp only [addf_apply, broadcastTo_1b_ab_apply]
  exact congrArg (· + b2 (ix2 0 k))
    (Cert.LibMatmulAt.matmul_zero_at dot_S200x10000_S10000x128_S200x128_1_0_0_1_n_n rfl rfl rfl rfl rfl rfl none a S p k)

end Cert.KernelIdeal.Pay

end
-- ==== Proof.KernelValue.lean ====
/-
  The kernel's result array at the extended reals, entry by entry: it is the specification's result in the log-sum-exp
  spelling, of the eight argument arrays.
-/
import proofs.«155996_g78357383349033_cont_sun_m_330_6_alg».proof.Proof.KI.Final
import proofs.«155996_g78357383349033_cont_sun_m_330_6_alg».proof.Proof.KI.VArgs
import proofs.«155996_g78357383349033_cont_sun_m_330_6_alg».proof.Proof.KernelPay
import proofs.«155996_g78357383349033_cont_sun_m_330_6_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## Each window's block, read at an entry

The first seven windows hold their whole array at every point; the two adjacency windows hold, at point t, rows
200·(2·(t mod 25)) … and 200·(2·(t mod 25) + 1) … of the adjacency matrix. -/

theorem idxW0 : ∀ t : Fin cfg0.N, win0_0.index t 0 = 0 ∧ win0_0.index t 1 = 0 :=
  (by decide +kernel : ∀ t : Fin grid0.N, win0_0.index t 0 = 0 ∧ win0_0.index t 1 = 0)

theorem b0_at (c : Dev nD) (t : Fin cfg0.N) (r : Fin 10000) (k : Fin 128) :
    b0 (F := Ideal) m c t (ix2 r k) = (V m c main_arg0 : S10000x128.Idx → Elt Ideal .f32) (ix2 r k) := by
  obtain ⟨e0, e1⟩ := idxW0 t
  show V m c main_arg0 (((cfg0.win 0).blk t).view.emb (ix2 r k)) = V m c main_arg0 _
  refine congrArg _ (funext fun a => Fin.ext ?_)
  match a with
  | ⟨0, _⟩ => show win0_0.index t (0 : Fin 2) * 10000 + 1 * r.val = r.val; omega
  | ⟨1, _⟩ => show win0_0.index t (1 : Fin 2) * 128 + 1 * k.val = k.val; omega

theorem idxW1 : ∀ t : Fin cfg0.N, win0_1.index t 0 = 0 ∧ win0_1.index t 1 = 0 :=
  (by decide +kernel : ∀ t : Fin grid0.N, win0_1.index t 0 = 0 ∧ win0_1.index t 1 = 0)

theorem b1_at (c : Dev nD) (t : Fin cfg0.N) (r : Fin 128) (k : Fin 128) :
    b1 (F := Ideal) m c t (ix2 r k) = (V m c main_arg2 : S128x128.Idx → Elt Ideal .f32) (ix2 r k) := by
  obtain ⟨e0, e1⟩ := idxW1 t
  show V m c main_arg2 (((cfg0.win 1).blk t).view.emb (ix2 r k)) = V m c main_arg2 _
  refine congrArg _ (funext fun a => Fin.ext ?_)
  match a with
  | ⟨0, _⟩ => show win0_1.index t (0 : Fin 2) * 128 + 1 * r.val = r.val; omega
  | ⟨1, _⟩ => show win0_1.index t (1 : Fin 2) * 128 + 1 * k.val = k.val; omega

theorem idxW2 : ∀ t : Fin cfg0.N, win0_2.index t 0 = 0 ∧ win0_2.index t 1 = 0 :=
  (by decide +kernel : ∀ t : Fin grid0.N, win0_2.index t 0 = 0 ∧ win0_2.index t 1 = 0)

theorem b2_at (c : Dev nD) (t : Fin cfg0.N) (r : Fin 1) (k : Fin 128) :
    b2 (F := Ideal) m c t (ix2 r k) = (V m c main_call0_v0 : S1x128.Idx → Elt Ideal .f32) (ix2 r k) := by
  obtain ⟨e0, e1⟩ := idxW2 t
  show V m c main_call0_v0 (((cfg0.win 2).blk t).view.emb (ix2 r k)) = V m c main_call0_v0 _
  refine congrArg _ (funext fun a => Fin.ext ?_)
  match a with
  | ⟨0, _⟩ => show win0_2.index t (0 : Fin 2) * 1 + 1 * r.val = r.val; omega
  | ⟨1, _⟩ => show win0_2.index t (1 : Fin 2) * 128 + 1 * k.val = k.val; omega

theorem idxW3 : ∀ t : Fin cfg0.N, win0_3.index t 0 = 0 ∧ win0_3.index t 1 = 0 :=
  (by decide +kernel : ∀ t : Fin grid0.N, win0_3.index t 0 = 0 ∧ win0_3.index t 1 = 0)

theorem b3_at (c : Dev nD) (t : Fin cfg0.N) (r : Fin 128) (k : Fin 128) :
    b3 (F := Ideal) m c t (ix2 r k) = (V m c main_arg4 : S128x128.Idx → Elt Ideal .f32) (ix2 r k) := by
  obtain ⟨e0, e1⟩ := idxW3 t
  show V m c main_arg4 (((cfg0.win 3).blk t).view.emb (ix2 r k)) = V m c main_arg4 _
  refine congrArg _ (funext fun a => Fin.ext ?_)
  match a with
  | ⟨0, _⟩ => show win0_3.index t (0 : Fin 2) * 128 + 1 * r.val = r.val; omega
  | ⟨1, _⟩ => show win0_3.index t (1 : Fin 2) * 128 + 1 * k.val = k.val; omega

theorem idxW4 : ∀ t : Fin cfg0.N, win0_4.index t 0 = 0 ∧ win0_4.index t 1 = 0 :=
  (by decide +kernel : ∀ t : Fin grid0.N, win0_4.index t 0 = 0 ∧ win0_4.index t 1 = 0)

theorem b4_at (c : Dev nD) (t : Fin cfg0.N) (r : Fin 1) (k : Fin 128) :
    b4 (F := Ideal) m c t (ix2 r k) = (V m c main_call0_v1 : S1x128.Idx → Elt Ideal .f32) (ix2 r k) := by
  obtain ⟨e0, e1⟩ := idxW4 t
  show V m c main_call0_v1 (((cfg0.win 4).blk t).view.emb (ix2 r k)) = V m c main_call0_v1 _
  refine congrArg _ (funext fun a => Fin.ext ?_)
  match a with
  | ⟨0, _⟩ => show win0_4.index t (0 : Fin 2) * 1 + 1 * r.val = r.val; omega
  | ⟨1, _⟩ => show win0_4.index t (1 : Fin 2) * 128 + 1 * k.val = k.val; omega

theorem idxW5 : ∀ t : Fin cfg0.N, win0_5.index t 0 = 0 ∧ win0_5.index t 1 = 0 :=
  (by decide +kernel : ∀ t : Fin grid0.N, win0_5.index t 0 = 0 ∧ win0_5.index t 1 = 0)

theorem b5_at (c : Dev nD) (t : Fin cfg0.N) (r : Fin 128) (k : Fin 40) :
    b5 (F := Ideal) m c t (ix2 r k) = (V m c main_arg6 : S128x40.Idx → Elt Ideal .f32) (ix2 r k) := by
  obtain ⟨e0, e1⟩ := idxW5 t
  show V m c main_arg6 (((cfg0.win 5).blk t).view.emb (ix2 r k)) = V m c main_arg6 _
  refine congrArg _ (funext fun a => Fin.ext ?_)
  match a with
  | ⟨0, _⟩ => show win0_5.index t (0 : Fin 2) * 128 + 1 * r.val = r.val; omega
  | ⟨1, _⟩ => show win0_5.index t (1 : Fin 2) * 40 + 1 * k.val = k.val; omega

theorem idxW6 : ∀ t : Fin cfg0.N, win0_6.index t 0 = 0 ∧ win0_6.index t 1 = 0 :=
  (by decide +kernel : ∀ t : Fin grid0.N, win0_6.index t 0 = 0 ∧ win0_6.index t 1 = 0)

theorem b6_at (c : Dev nD) (t : Fin cfg0.N) (r : Fin 1) (k : Fin 40) :
    b6 (F := Ideal) m c t (ix2 r k) = (V m c main_call0_v2 : S1x40.Idx → Elt Ideal .f32) (ix2 r k) := by
  obtain ⟨e0, e1⟩ := idxW6 t
  show V m c main_call0_v2 (((cfg0.win 6).blk t).view.emb (ix2 r k)) = V m c main_call0_v2 _
  refine congrArg _ (funext fun a => Fin.ext ?_)
  match a with
  | ⟨0, _⟩ => show win0_6.index t (0 : Fin 2) * 1 + 1 * r.val = r.val; omega
  | ⟨1, _⟩ => show win0_6.index t (1 : Fin 2) * 40 + 1 * k.val = k.val; omega

theorem idx7 : ∀ t : Fin cfg0.N, win0_7.index t 0 = 2 * (t.val % 25) ∧ win0_7.index t 1 = 0 :=
  (by decide +kernel : ∀ t : Fin grid0.N, win0_7.index t 0 = 2 * (t.val % 25) ∧ win0_7.index t 1 = 0)

theorem idx8 : ∀ t : Fin cfg0.N, win0_8.index t 0 = 2 * (t.val % 25) + 1 ∧ win0_8.index t 1 = 0 :=
  (by decide +kernel : ∀ t : Fin grid0.N, win0_8.index t 0 = 2 * (t.val % 25) + 1 ∧ win0_8.index t 1 = 0)

/-- Row p of the top adjacency block at point t is row 200·(2·(t mod 25)) + p of the adjacency matrix. -/
theorem b7_at (c : Dev nD) (t : Fin cfg0.N) (p : Fin 200) (k : Fin 10000) (q : Fin 10000)
    (hq : q.val = 200 * (2 * (t.val % 25)) + p.val) :
    b7 (F := Ideal) m c t (ix2 p k) = (V m c main_arg1 : S10000x10000.Idx → Elt Ideal .f32) (ix2 q k) := by
  obtain ⟨e0, e1⟩ := idx7 t
  show V m c main_arg1 (((cfg0.win 7).blk t).view.emb (ix2 p k)) = V m c main_arg1 _
  refine congrArg _ (funext fun a => Fin.ext ?_)
  match a with
  | ⟨0, _⟩ => show win0_7.index t (0 : Fin 2) * 200 + 1 * p.val = q.val; omega
  | ⟨1, _⟩ => show win0_7.index t (1 : Fin 2) * 10000 + 1 * k.val = k.val; omega

/-- Row p of the bottom adjacency block at point t is row 200·(2·(t mod 25) + 1) + p of the adjacency matrix. -/
theorem b8_at (c : Dev nD) (t : Fin cfg0.N) (p : Fin 200) (k : Fin 10000) (q : Fin 10000)
    (hq : q.val = 200 * (2 * (t.val % 25) + 1) + p.val) :
    b8 (F := Ideal) m c t (ix2 p k) = (V m c main_arg1 : S10000x10000.Idx → Elt Ideal .f32) (ix2 q k) := by
  obtain ⟨e0, e1⟩ := idx8 t
  show V m c main_arg1 (((cfg0.win 8).blk t).view.emb (ix2 p k)) = V m c main_arg1 _
  refine congrArg _ (funext fun a => Fin.ext ?_)
  match a with
  | ⟨0, _⟩ => show win0_8.index t (0 : Fin 2) * 200 + 1 * p.val = q.val; omega
  | ⟨1, _⟩ => show win0_8.index t (1 : Fin 2) * 10000 + 1 * k.val = k.val; omega

/-! ## The argument arrays as the launch memory holds them -/

abbrev aX (c : Dev nD) : Cert.Spec.Mat 10000 128 := m ((c.tc : Thread nD τ).loc main_arg0)
abbrev aAdj (c : Dev nD) : Cert.Spec.Mat 10000 10000 := m ((c.tc : Thread nD τ).loc main_arg1)
abbrev aW1 (c : Dev nD) : Cert.Spec.Mat 128 128 := m ((c.tc : Thread nD τ).loc main_arg2)
abbrev aB1 (c : Dev nD) : Cert.Spec.Vc 128 := m ((c.tc : Thread nD τ).loc main_arg3)
abbrev aW2 (c : Dev nD) : Cert.Spec.Mat 128 128 := m ((c.tc : Thread nD τ).loc main_arg4)
abbrev aB2 (c : Dev nD) : Cert.Spec.Vc 128 := m ((c.tc : Thread nD τ).loc main_arg5)
abbrev aWfc (c : Dev nD) : Cert.Spec.Mat 128 40 := m ((c.tc : Thread nD τ).loc main_arg6)
abbrev aBfc (c : Dev nD) : Cert.Spec.Vc 40 := m ((c.tc : Thread nD τ).loc main_arg7)

/-- S₁ is the first support x · W1. -/
theorem S1v_at (c : Dev nD) (r : Fin 10000) (k : Fin 128) :
    S1v (F := Ideal) m c (ix2 r k) = Cert.Spec.sup1 (aX m c) (aW1 m c) r k := by
  unfold S1v Cert.Spec.sup1
  refine (Pay.pay1_at (b0 m c t0) (b1 m c t0) r k).trans ?_
  refine Finset.sum_congr rfl fun j _ => ?_
  exact congrArg₂ (· * ·) ((b0_at m c t0 r j).trans (congrFun (V_main_arg0 m c) _))
    ((b1_at m c t0 j k).trans (congrFun (V_main_arg2 m c) _))

/-- The hidden array is max (adj · S₁ + b1, 0), row by row. -/
theorem H1v_at (c : Dev nD) (j : S10000x128.Idx) :
    H1v (F := Ideal) m c j = Cert.Spec.hid (aX m c) (aAdj m c) (aW1 m c) (aB1 m c) (j 0) (j 1) := by
  have hr : (j 0).val < 10000 := (j 0).isLt
  unfold H1v Cert.Spec.hid
  split
  · rename_i h
    refine (Pay.pay2_at (b7 m c (ptOf j)) (S1v m c) (b2 m c (ptOf j)) ⟨(j 0).val % 400, h⟩ (j 1)).trans ?_
    refine congrArg₂ max (congrArg₂ (· + ·) (Finset.sum_congr rfl fun k _ => ?_) ?_) rfl
    · exact congrArg₂ (· * ·)
        ((b7_at m c (ptOf j) ⟨(j 0).val % 400, h⟩ k (j 0)
          (by show (j 0).val = 200 * (2 * ((j 0).val / 400 % 25)) + (j 0).val % 400; omega)).trans
          (congrFun (V_main_arg1 m c) _))
        (S1v_at m c k (j 1))
    · exact (b2_at m c (ptOf j) 0 (j 1)).trans (V_b1row m c (j 1))
  · rename_i h
    refine (Pay.pay3_at (b8 m c (ptOf j)) (S1v m c) (b2 m c (ptOf j)) ⟨(j 0).val % 400 - 200, by omega⟩ (j 1)).trans ?_
    refine congrArg₂ max (congrArg₂ (· + ·) (Finset.sum_congr rfl fun k _ => ?_) ?_) rfl
    · exact congrArg₂ (· * ·)
        ((b8_at m c (ptOf j) ⟨(j 0).val % 400 - 200, by omega⟩ k (j 0)
          (by show (j 0).val = 200 * (2 * ((j 0).val / 400 % 25) + 1) + ((j 0).val % 400 - 200); omega)).trans
          (congrFun (V_main_arg1 m c) _))
        (S1v_at m c k (j 1))
    · exact (b2_at m c (ptOf j) 0 (j 1)).trans (V_b1row m c (j 1))

/-- S₂ is the second support hidden · W2. -/
theorem S2v_at (c : Dev nD) (r : Fin 10000) (k : Fin 128) :
    S2v (F := Ideal) m c (ix2 r k) = Cert.Spec.sup2 (aX m c) (aAdj m c) (aW1 m c) (aB1 m c) (aW2 m c) r k := by
  unfold S2v Cert.Spec.sup2
  refine (Pay.pay4_at (H1v m c) (b3 m c t25) r k).trans ?_
  refine Finset.sum_congr rfl fun j _ => ?_
  exact congrArg₂ (· * ·) (H1v_at m c (ix2 r j)) ((b3_at m c t25 j k).trans (congrFun (V_main_arg4 m c) _))

/-- The kernel's result array is the specification's result (log-sum-exp spelling) of the argument arrays. -/
theorem Gout_eq_spec (c : Dev nD) :
    Gout (F := Ideal) m c
      = Cert.Spec.outKer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  funext j
  have hr : (j 0).val < 10000 := (j 0).isLt
  have hm : (j 0).val % 400 < 400 := Nat.mod_lt _ (by decide)
  unfold Gout Oblk Cert.Spec.outKer
  split
  · rename_i h0
    have h : (j 0).val % 400 < 200 := h0
    refine (Pay.pay6_at (b7 m c (ptOut j)) (S2v m c) (b4 m c (ptOut j)) (b5 m c (ptOut j)) (b6 m c (ptOut j))
      ⟨(j 0).val % 400, h⟩ (j 1)).trans ?_
    refine congrArg (fun u => Cert.Spec.lsmKer u (j 1)) (funext fun c' => ?_)
    unfold Cert.Spec.logit
    refine congrArg₂ (· + ·) (Finset.sum_congr rfl fun k _ => congrArg₂ (· * ·) ?_ ?_) ?_
    · unfold Cert.Spec.agg2
      refine congrArg₂ (· + ·) (Finset.sum_congr rfl fun k' _ => ?_) ?_
      · exact congrArg₂ (· * ·)
          ((b7_at m c (ptOut j) ⟨(j 0).val % 400, h⟩ k' (j 0)
            (by show (j 0).val = 200 * (2 * ((25 + (j 0).val / 400) % 25)) + (j 0).val % 400; omega)).trans
            (congrFun (V_main_arg1 m c) _))
          (S2v_at m c k' k)
      · exact (b4_at m c (ptOut j) 0 k).trans (V_b2row m c k)
    · exact (b5_at m c (ptOut j) k c').trans (congrFun (V_main_arg6 m c) _)
    · exact (b6_at m c (ptOut j) 0 c').trans (V_bfcrow m c c')
  · rename_i h0
    have h : ¬ (j 0).val % 400 < 200 := h0
    refine (Pay.pay5_at (k0_pay7 (b8 m c (ptOut j)) (S2v m c) (b4 m c (ptOut j))) (b5 m c (ptOut j)) (b6 m c (ptOut j))
      ⟨(j 0).val % 400 - 200, by omega⟩ (j 1)).trans ?_
    refine congrArg (fun u => Cert.Spec.lsmKer u (j 1)) (funext fun c' => ?_)
    unfold Cert.Spec.logit
    refine congrArg₂ (· + ·) (Finset.sum_congr rfl fun k _ => congrArg₂ (· * ·) ?_ ?_) ?_
    · refine (Pay.pay7_at (b8 m c (ptOut j)) (S2v m c) (b4 m c (ptOut j)) ⟨(j 0).val % 400 - 200, by omega⟩ k).trans ?_
      unfold Cert.Spec.agg2
      refine congrArg₂ (· + ·) (Finset.sum_congr rfl fun k' _ => ?_) ?_
      · exact congrArg₂ (· * ·)
          ((b8_at m c (ptOut j) ⟨(j 0).val % 400 - 200, by omega⟩ k' (j 0)
            (by show (j 0).val = 200 * (2 * ((25 + (j 0).val / 400) % 25) + 1) + ((j 0).val % 400 - 200); omega)).trans
            (congrFun (V_main_arg1 m c) _))
          (S2v_at m c k' k)
      · exact (b4_at m c (ptOut j) 0 k).trans (V_b2row m c k)
    · exact (b5_at m c (ptOut j) k c').trans (congrFun (V_main_arg6 m c) _)
    · exact (b6_at m c (ptOut j) 0 c').trans (V_bfcrow m c c')

end Cert.KernelIdeal.Hand

end
-- ==== Proof.RefSide.lean ====
/-
  The reference program's result, read entry by entry: it is the specification's result in the shifted spelling of
  log-softmax — each host matrix product the sum over its contracted axis, each bias broadcast down the rows, the
  rectifier the maximum with zero, the row maximum the fold of max from −∞.
-/
import proofs.«155996_g78357383349033_cont_sun_m_330_6_alg».proof.Proof.Gen.ReferenceIdeal
import proofs.«155996_g78357383349033_cont_sun_m_330_6_alg».proof.Proof.RefRunP
import proofs.«155996_g78357383349033_cont_sun_m_330_6_alg».proof.Proof.RefReadP
import proofs.«155996_g78357383349033_cont_sun_m_330_6_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.TcCoe Idealize.SL.Sem Idealize.ShloMosaic.ValueIdx Cert.ReferenceIdeal Cert.ReferenceIdeal.Gen

variable [Cert.ReferenceIdeal.Facts]

/-! ## Constants and the row maximum -/

/-- The pattern of −∞ denotes the bottom of the extended reals. -/
theorem negInf_f32 : Ideal.ofBits .f32 0xFF800000#32 = (⊥ : EReal) := by simp [Ideal.ofBits, Ideal.ieee]

/-- The class axis of a 10000 × 40 matrix is dropped into a vector of 10000 rows. -/
theorem red_S10000x40 : S10000x40.Reduces [1] S10000 := by decide

/-- The host's maximum over the classes of a row, from −∞, is the row's maximum: the fold of max from ⊥ over the row. -/
theorem hostRowmax_at (u : (⟨S10000x40, .f32⟩ : BufTy).Contents (Elt Ideal)) (r : Fin 10000) :
    Host.reduce FloatOps.maximumf u (constant (F := Ideal) S_ .f32 0xFF800000#32) reducesTo_S10000x40_S10000_d1 h_S_ (ix1 r)
      = Cert.Spec.rowmax (fun c' : Fin 40 => u (ix2 r c')) := by
  refine (Host.reduce_eq_fold_single (α := Ideal .f32) FloatOps.maximumf u _ reducesTo_S10000x40_S10000_d1 red_S10000x40 h_S_ (ix1 r)).trans ?_
  unfold Cert.Spec.rowmax
  have hf : (u ∘ red_S10000x40.lift (ix1 r)) = fun c' : Fin 40 => u (ix2 r c') :=
    funext fun k => congrArg u (funext fun a => Fin.ext (by match a with | ⟨0, _⟩ => rfl | ⟨1, _⟩ => rfl))
  rw [hf]
  show Finset.fold max (Ideal.ofBits .f32 0xFF800000#32) _ _ = _
  rw [negInf_f32]
  rfl

/-! ## The index maps of the stages, at an entry (r, c) -/

section Indices

variable (r : Fin 10000)

theorem lidx_v0 (c k : Fin 128) : Read.lidx_main_v0 (ix2 r c) k = ix2 r k :=
  funext fun a => Fin.ext (by match a with | ⟨0, _⟩ => rfl | ⟨1, _⟩ => rfl)
theorem ridx_v0 (c k : Fin 128) : Read.ridx_main_v0 (ix2 r c) k = ix2 k c :=
  funext fun a => Fin.ext (by match a with | ⟨0, _⟩ => rfl | ⟨1, _⟩ => rfl)
theorem lidx_v1 (c : Fin 128) (k : Fin 10000) : Read.lidx_main_v1 (ix2 r c) k = ix2 r k :=
  funext fun a => Fin.ext (by match a with | ⟨0, _⟩ => rfl | ⟨1, _⟩ => rfl)
theorem ridx_v1 (c : Fin 128) (k : Fin 10000) : Read.ridx_main_v1 (ix2 r c) k = ix2 k c :=
  funext fun a => Fin.ext (by match a with | ⟨0, _⟩ => rfl | ⟨1, _⟩ => rfl)
theorem idx_v2v3 (c : Fin 128) : Read.idx_main_v2 (Read.idx_main_v3 (ix2 r c)) = ix1 c :=
  funext fun a => Fin.ext (by match a with | ⟨0, _⟩ => rfl)
theorem lidx_v6 (c k : Fin 128) : Read.lidx_main_v6 (ix2 r c) k = ix2 r k :=
  funext fun a => Fin.ext (by match a with | ⟨0, _⟩ => rfl | ⟨1, _⟩ => rfl)
theorem ridx_v6 (c k : Fin 128) : Read.ridx_main_v6 (ix2 r c) k = ix2 k c :=
  funext fun a => Fin.ext (by match a with | ⟨0, _⟩ => rfl | ⟨1, _⟩ => rfl)
theorem lidx_v7 (c : Fin 128) (k : Fin 10000) : Read.lidx_main_v7 (ix2 r c) k = ix2 r k :=
  funext fun a => Fin.ext (by match a with | ⟨0, _⟩ => rfl | ⟨1, _⟩ => rfl)
theorem ridx_v7 (c : Fin 128) (k : Fin 10000) : Read.ridx_main_v7 (ix2 r c) k = ix2 k c :=
  funext fun a => Fin.ext (by match a with | ⟨0, _⟩ => rfl | ⟨1, _⟩ => rfl)
theorem idx_v8v9 (c : Fin 128) : Read.idx_main_v8 (Read.idx_main_v9 (ix2 r c)) = ix1 c :=
  funext fun a => Fin.ext (by match a with | ⟨0, _⟩ => rfl)
theorem lidx_v11 (c : Fin 40) (k : Fin 128) : Read.lidx_main_v11 (ix2 r c) k = ix2 r k :=
  funext fun a => Fin.ext (by match a with | ⟨0, _⟩ => rfl | ⟨1, _⟩ => rfl)
theorem ridx_v11 (c : Fin 40) (k : Fin 128) : Read.ridx_main_v11 (ix2 r c) k = ix2 k c :=
  funext fun a => Fin.ext (by match a with | ⟨0, _⟩ => rfl | ⟨1, _⟩ => rfl)
theorem idx_v12v13 (c : Fin 40) : Read.idx_main_v12 (Read.idx_main_v13 (ix2 r c)) = ix1 c :=
  funext fun a => Fin.ext (by match a with | ⟨0, _⟩ => rfl)
theorem idx_c1v3v4 (c : Fin 40) : Read.idx_main_call1_v3 (Read.idx_main_call1_v4 (ix2 r c)) = ix1 r :=
  funext fun a => Fin.ext (by match a with | ⟨0, _⟩ => rfl)
theorem idx_c1v7 (k : Fin 40) : Read.idx_main_call1_v7 (ix1 r) k = ix2 r k :=
  funext fun a => Fin.ext (by match a with | ⟨0, _⟩ => rfl | ⟨1, _⟩ => rfl)
theorem idx_c1v8v10 (c : Fin 40) : Read.idx_main_call1_v8 (Read.idx_main_call1_v10 (ix2 r c)) = ix1 r :=
  funext fun a => Fin.ext (by match a with | ⟨0, _⟩ => rfl)

end Indices

/-! ## The stages, layer by layer -/

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x40, .f32⟩ : BufTy).Contents (Elt Ideal)) (x7 : (⟨S40, .f32⟩ : BufTy).Contents (Elt Ideal))

/-- support₁ = x · W1, entry by entry. -/
theorem sup1_at (r : Fin 10000) (c : Fin 128) :
    Read.val_main_v0 (F := Ideal) x0 x2 (ix2 r c) = Cert.Spec.sup1 x0 x2 r c := by
  rw [Read.val_main_v0_apply]
  unfold Cert.Spec.sup1
  refine Finset.sum_congr rfl fun k _ => ?_
  rw [lidx_v0, ridx_v0]

/-- hidden = max (adj · support₁ + b1, 0), entry by entry. -/
theorem hid_at (r : Fin 10000) (c : Fin 128) :
    Read.val_main_v5 (F := Ideal) x0 x1 x2 x3 (ix2 r c) = Cert.Spec.hid x0 x1 x2 x3 r c := by
  rw [Read.val_main_v5_apply, Read.val_main_v4_apply, Read.val_main_v1_apply, Read.val_main_v3_apply, Read.val_main_v2_apply,
    Read.val_main_call0_v0_apply, Read.val_main_call0_cst_apply, idx_v2v3]
  have hs : ∑ k : Fin 10000, x1 (Read.lidx_main_v1 (ix2 r c) k) * Read.val_main_v0 (F := Ideal) x0 x2 (Read.ridx_main_v1 (ix2 r c) k)
      = ∑ k : Fin 10000, x1 (ix2 r k) * Cert.Spec.sup1 x0 x2 k c :=
    Finset.sum_congr rfl fun k _ => by rw [lidx_v1, ridx_v1, sup1_at]
  rw [hs]
  unfold Cert.Spec.hid
  show max (_ + _) (Ideal.ofBits .f32 0x00000000#32) = _
  rw [Ideal.ofBits_zero_f32]

/-- support₂ = hidden · W2, entry by entry. -/
theorem sup2_at (r : Fin 10000) (c : Fin 128) :
    Read.val_main_v6 (F := Ideal) x0 x1 x2 x3 x4 (ix2 r c) = Cert.Spec.sup2 x0 x1 x2 x3 x4 r c := by
  rw [Read.val_main_v6_apply]
  unfold Cert.Spec.sup2
  refine Finset.sum_congr rfl fun k _ => ?_
  rw [lidx_v6, ridx_v6, hid_at]

/-- agg = adj · support₂ + b2, entry by entry. -/
theorem agg2_at (r : Fin 10000) (c : Fin 128) :
    Read.val_main_v10 (F := Ideal) x0 x1 x2 x3 x4 x5 (ix2 r c) = Cert.Spec.agg2 x0 x1 x2 x3 x4 x5 r c := by
  rw [Read.val_main_v10_apply, Read.val_main_v7_apply, Read.val_main_v9_apply, Read.val_main_v8_apply, idx_v8v9]
  have hs : ∑ k : Fin 10000, x1 (Read.lidx_main_v7 (ix2 r c) k) * Read.val_main_v6 (F := Ideal) x0 x1 x2 x3 x4 (Read.ridx_main_v7 (ix2 r c) k)
      = ∑ k : Fin 10000, x1 (ix2 r k) * Cert.Spec.sup2 x0 x1 x2 x3 x4 k c :=
    Finset.sum_congr rfl fun k _ => by rw [lidx_v7, ridx_v7, sup2_at]
  rw [hs]
  unfold Cert.Spec.agg2
  rfl

/-- logit = agg · Wfc + bfc, entry by entry. -/
theorem logit_at (r : Fin 10000) (c : Fin 40) :
    Read.val_main_v14 (F := Ideal) x0 x1 x2 x3 x4 x5 x6 x7 (ix2 r c) = Cert.Spec.logit x0 x1 x2 x3 x4 x5 x6 x7 r c := by
  rw [Read.val_main_v14_apply, Read.val_main_v11_apply, Read.val_main_v13_apply, Read.val_main_v12_apply, idx_v12v13]
  have hs : ∑ k : Fin 128, Read.val_main_v10 (F := Ideal) x0 x1 x2 x3 x4 x5 (Read.lidx_main_v11 (ix2 r c) k) * x6 (Read.ridx_main_v11 (ix2 r c) k)
      = ∑ k : Fin 128, Cert.Spec.agg2 x0 x1 x2 x3 x4 x5 r k * x6 (ix2 k c) :=
    Finset.sum_congr rfl fun k _ => by rw [lidx_v11, ridx_v11, agg2_at]
  rw [hs]
  unfold Cert.Spec.logit
  rfl

/-! ## The log-softmax tail, over the logits stage as it stands -/

/-- The row maximum stage is the maximum of the row of logits. -/
theorem rowmaxStage_at (r : Fin 10000) :
    Read.val_main_call1_v2 (F := Ideal) x0 x1 x2 x3 x4 x5 x6 x7 (ix1 r)
      = Cert.Spec.rowmax (fun c' : Fin 40 => Read.val_main_v14 (F := Ideal) x0 x1 x2 x3 x4 x5 x6 x7 (ix2 r c')) := by
  rw [Read.val_main_call1_v2_apply, Read.val_main_call1_v1_apply, Read.val_main_call1_cst_0_apply]
  unfold Read.val_main_call1_v0 Read.val_main_call1_cst
  generalize Read.val_main_v14 (F := Ideal) x0 x1 x2 x3 x4 x5 x6 x7 = u
  rw [hostRowmax_at u r]
  show max (Ideal.ofBits .f32 0xFF800000#32) _ = _
  rw [negInf_f32]
  exact max_bot_left _

/-- The shifted logits: each logit less its row's maximum. -/
theorem shifted_at (r : Fin 10000) (c : Fin 40) :
    Read.val_main_call1_v5 (F := Ideal) x0 x1 x2 x3 x4 x5 x6 x7 (ix2 r c)
      = Read.val_main_v14 (F := Ideal) x0 x1 x2 x3 x4 x5 x6 x7 (ix2 r c)
        - Cert.Spec.rowmax (fun c' : Fin 40 => Read.val_main_v14 (F := Ideal) x0 x1 x2 x3 x4 x5 x6 x7 (ix2 r c')) := by
  rw [Read.val_main_call1_v5_apply, Read.val_main_call1_v4_apply, Read.val_main_call1_v3_apply, idx_c1v3v4, rowmaxStage_at]
  rfl

/-- The row's sum of exponentials of the shifted logits. -/
theorem sumexp_at (r : Fin 10000) :
    Read.val_main_call1_v7 (F := Ideal) x0 x1 x2 x3 x4 x5 x6 x7 (ix1 r)
      = ∑ c' : Fin 40, Ideal.exp (Read.val_main_v14 (F := Ideal) x0 x1 x2 x3 x4 x5 x6 x7 (ix2 r c')
          - Cert.Spec.rowmax (fun c'' : Fin 40 => Read.val_main_v14 (F := Ideal) x0 x1 x2 x3 x4 x5 x6 x7 (ix2 r c''))) := by
  rw [Read.val_main_call1_v7_apply, Read.val_main_call1_cst_1_apply]
  show Ideal.ofBits .f32 0x00000000#32 + _ = _
  rw [Ideal.ofBits_zero_f32, zero_add]
  refine Finset.sum_congr rfl fun k _ => ?_
  rw [Read.val_main_call1_v6_apply, idx_c1v7, shifted_at]
  rfl

/-- The result stage is the shifted spelling of log-softmax of the row of logits. -/
theorem lsm_at (r : Fin 10000) (c : Fin 40) :
    Read.val_main_v15 (F := Ideal) x0 x1 x2 x3 x4 x5 x6 x7 (ix2 r c)
      = Cert.Spec.lsmRef (fun c' : Fin 40 => Read.val_main_v14 (F := Ideal) x0 x1 x2 x3 x4 x5 x6 x7 (ix2 r c')) c := by
  rw [Read.val_main_v15_apply, shifted_at, Read.val_main_call1_v10_apply, Read.val_main_call1_v9_apply, Read.val_main_call1_v8_apply,
    idx_c1v8v10, sumexp_at]
  generalize Read.val_main_v14 (F := Ideal) x0 x1 x2 x3 x4 x5 x6 x7 = u
  rfl

/-- The last stage is the specification's result. -/
theorem stage_eq_spec :
    Read.val_main_v15 (F := Ideal) x0 x1 x2 x3 x4 x5 x6 x7 = Cert.Spec.outRef x0 x1 x2 x3 x4 x5 x6 x7 := by
  funext j
  obtain ⟨r, c, rfl⟩ : ∃ (r : Fin 10000) (c : Fin 40), j = ix2 r c := ⟨j 0, j 1, eq_ix2 j⟩
  rw [lsm_at]
  show _ = Cert.Spec.lsmRef (Cert.Spec.logit x0 x1 x2 x3 x4 x5 x6 x7 r) c
  exact congrArg (fun u => Cert.Spec.lsmRef u c) (funext fun c' => logit_at x0 x1 x2 x3 x4 x5 x6 x7 r c')

/-- The reference run's result term, at the extended reals, is the specification's result of the argument arrays. -/
theorem res_eq_spec (m : (ℓ : Loc nD τ sig) → Buf (Elt Ideal) ℓ) (c : Dev nD) :
    Cert.ReferenceIdeal.Value.res_out0 (F := Ideal) m c
      = Cert.Spec.outRef (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) :=
  (Read.val_main_v15_eq m c).trans (stage_eq_spec _ _ _ _ _ _ _ _)

end Cert.ReferenceIdeal.RefValue

end
-- ==== Proof.SpecAlgebra.lean ====
/-
  The two spellings of the row-wise log-softmax agree on finite rows, and finiteness passes through the layers.
-/
import proofs.«155996_g78357383349033_cont_sun_m_330_6_alg».proof.Proof.Spec

noncomputable section

open scoped BigOperators

namespace Cert.Spec

open Idealize.ShloMosaic Idealize.ShloMosaic.ValueIdx

/-! ### Real-valued extended reals -/

/-- An extended real that is a real number. -/
def IsR (a : EReal) : Prop := ∃ r : ℝ, a = (r : EReal)

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.max_zero {a : EReal} (ha : IsR a) : IsR (max a 0) := by
  obtain ⟨r, rfl⟩ := ha
  rcases le_total (r : EReal) 0 with h | h
  · exact ⟨0, by rw [max_eq_right h, EReal.coe_zero]⟩
  · exact ⟨r, by rw [max_eq_left h]⟩

/-- A finite sum of real numbers is a real number. -/
theorem IsR.sum {ι : Type} (s : Finset ι) (f : ι → EReal) (hf : ∀ i, IsR (f i)) :
    IsR (∑ i ∈ s, f i) := by
  classical
  induction s using Finset.induction_on with
  | empty => exact ⟨0, by rw [Finset.sum_empty, EReal.coe_zero]⟩
  | insert a s ha ih => rw [Finset.sum_insert ha]; exact (hf a).add ih

/-- A finite sum of coerced reals is the coercion of the real sum. -/
theorem coe_sum_real {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ### The row maximum of a real row is a real -/

/-- The fold of max from −∞ over any set of reals is −∞ or a real. -/
theorem fold_max_bot_or_real (s : Finset (Fin 40)) (f : Fin 40 → ℝ) :
    s.fold max ⊥ (fun c => (f c : EReal)) = ⊥ ∨ IsR (s.fold max ⊥ (fun c => (f c : EReal))) := by
  classical
  induction s using Finset.induction_on with
  | empty => left; rw [Finset.fold_empty]
  | insert a s ha ih =>
    right
    rw [Finset.fold_insert ha]
    rcases ih with h | ⟨M, h⟩
    · rw [h, max_eq_left bot_le]; exact ⟨f a, rfl⟩
    · rw [h]
      rcases le_total (f a : EReal) (M : EReal) with h' | h'
      · rw [max_eq_right h']; exact ⟨M, rfl⟩
      · rw [max_eq_left h']; exact ⟨f a, rfl⟩

theorem rowmax_real (f : Fin 40 → ℝ) : IsR (rowmax (fun c => (f c : EReal))) := by
  classical
  unfold rowmax
  have huniv : (Finset.univ : Finset (Fin 40)) = insert 0 (Finset.univ.erase 0) :=
    (Finset.insert_erase (Finset.mem_univ _)).symm
  rw [huniv, Finset.fold_insert (Finset.notMem_erase _ _)]
  rcases fold_max_bot_or_real (Finset.univ.erase 0) f with h | ⟨M, h⟩
  · rw [h, max_eq_left bot_le]; exact ⟨f 0, rfl⟩
  · rw [h]
    rcases le_total (f 0 : EReal) (M : EReal) with h' | h'
    · rw [max_eq_right h']; exact ⟨M, rfl⟩
    · rw [max_eq_left h']; exact ⟨f 0, rfl⟩

/-- On a row of real numbers the log-sum-exp spelling and the shifted spelling of log-softmax are one value. -/
theorem lsmKer_eq_lsmRef (u : Fin 40 → EReal) (hu : ∀ c, ∃ r : ℝ, u c = (r : EReal)) (c : Fin 40) :
    lsmKer u c = lsmRef u c := by
  choose u' hu' using hu
  obtain rfl : u = fun c => (u' c : EReal) := funext hu'
  obtain ⟨M, hM⟩ := rowmax_real u'
  unfold lsmKer lsmRef
  rw [hM]
  -- every shifted entry is a real, so every exponential is a positive real
  have hexp : ∀ c' : Fin 40, Ideal.exp ((u' c' : EReal) - (M : EReal)) = ((Real.exp (u' c' - M) : ℝ) : EReal) := by
    intro c'
    rw [← EReal.coe_sub, Ideal.exp_coe]
  simp only [hexp]
  rw [coe_sum_real]
  have hpos : 0 < ∑ c' : Fin 40, Real.exp (u' c' - M) :=
    Finset.sum_pos (fun _ _ => Real.exp_pos _) Finset.univ_nonempty
  rw [Ideal.log_coe, if_neg (not_le.mpr hpos)]
  -- both sides are now coercions of reals
  rw [← EReal.coe_add, ← EReal.coe_sub, ← EReal.coe_sub, ← EReal.coe_sub]
  congr 1
  ring

variable (x : Mat 10000 128) (adj : Mat 10000 10000) (W1 : Mat 128 128) (b1 : Vc 128) (W2 : Mat 128 128) (b2 : Vc 128)
  (Wfc : Mat 128 40) (bfc : Vc 40)

theorem sup1_real (hx : Fin2 x) (hW1 : Fin2 W1) (r : Fin 10000) (c : Fin 128) : IsR (sup1 x W1 r c) :=
  IsR.sum _ _ fun k => IsR.mul (hx (ix2 r k)) (hW1 (ix2 k c))

theorem hid_real (hx : Fin2 x) (hadj : Fin2 adj) (hW1 : Fin2 W1) (hb1 : Fin1 b1) (r : Fin 10000) (c : Fin 128) :
    IsR (hid x adj W1 b1 r c) :=
  IsR.max_zero (IsR.add (IsR.sum _ _ fun k => IsR.mul (hadj (ix2 r k)) (sup1_real x W1 hx hW1 k c)) (hb1 (ix1 c)))

theorem sup2_real (hx : Fin2 x) (hadj : Fin2 adj) (hW1 : Fin2 W1) (hb1 : Fin1 b1) (hW2 : Fin2 W2)
    (r : Fin 10000) (c : Fin 128) : IsR (sup2 x adj W1 b1 W2 r c) :=
  IsR.sum _ _ fun k => IsR.mul (hid_real x adj W1 b1 hx hadj hW1 hb1 r k) (hW2 (ix2 k c))

theorem agg2_real (hx : Fin2 x) (hadj : Fin2 adj) (hW1 : Fin2 W1) (hb1 : Fin1 b1) (hW2 : Fin2 W2) (hb2 : Fin1 b2)
    (r : Fin 10000) (c : Fin 128) : IsR (agg2 x adj W1 b1 W2 b2 r c) :=
  IsR.add (IsR.sum _ _ fun k => IsR.mul (hadj (ix2 r k)) (sup2_real x adj W1 b1 W2 hx hadj hW1 hb1 hW2 k c))
    (hb2 (ix1 c))

/-- With real inputs every logit is a real number. -/
theorem logit_real (hx : Fin2 x) (hadj : Fin2 adj) (hW1 : Fin2 W1) (hb1 : Fin1 b1) (hW2 : Fin2 W2) (hb2 : Fin1 b2)
    (hWfc : Fin2 Wfc) (hbfc : Fin1 bfc) (r : Fin 10000) (c : Fin 40) :
    ∃ v : ℝ, logit x adj W1 b1 W2 b2 Wfc bfc r c = (v : EReal) :=
  IsR.add (IsR.sum _ _ fun k =>
      IsR.mul (agg2_real x adj W1 b1 W2 b2 hx hadj hW1 hb1 hW2 hb2 r k) (hWfc (ix2 k c)))
    (hbfc (ix1 c))

/-- With real inputs the kernel's spelling of the result is the reference's. -/
theorem outKer_eq_outRef (hx : Fin2 x) (hadj : Fin2 adj) (hW1 : Fin2 W1) (hb1 : Fin1 b1) (hW2 : Fin2 W2) (hb2 : Fin1 b2)
    (hWfc : Fin2 Wfc) (hbfc : Fin1 bfc) :
    outKer x adj W1 b1 W2 b2 Wfc bfc = outRef x adj W1 b1 W2 b2 Wfc bfc := by
  funext j
  unfold outKer outRef
  exact lsmKer_eq_lsmRef _
    (fun c => logit_real x adj W1 b1 W2 b2 Wfc bfc hx hadj hW1 hb1 hW2 hb2 hWfc hbfc (j 0) c) (j 1)

end Cert.Spec

end
-- ==== Proof.Finite.lean ====
/-
  The precondition "every float input is finite" read entry by entry: each entry of each argument array is a real number.
-/
import proofs.«155996_g78357383349033_cont_sun_m_330_6_alg».proof.Pre_finite_inputs
import proofs.«155996_g78357383349033_cont_sun_m_330_6_alg».proof.Proof.Gen.Pre_finite_inputs
import proofs.«155996_g78357383349033_cont_sun_m_330_6_alg».proof.Proof.Spec
import Idealize.ShloMosaic.Lib.ReduceAll

noncomputable section

namespace Cert.Proof.Finite

open Idealize.ShloMosaic Idealize.ShloMosaic.ValueIdx Cert.Pre_finite_inputs

/-- The rank-0 shape has exactly one index. -/
instance : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One all(|a| < +∞) read back: if the reduction by and of the entrywise comparison is one, every entry of a is real. -/
theorem all_lt_top_imp_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf a) (broadcastInDim s ![] hb (constant (F := Ideal) S_ .f32 0x7F800000#32))) init hr hu ix0
        = 1#1) :
    ∀ j, ∃ r : ℝ, a j = (r : EReal) := by
  intro j
  have e := Host.reduce_andi_all _ _ hr hu _ h j
  apply real_of_abs_lt_top
  have e' : BitVec.ofBool (decide (max (a j) (-(a j)) < Ideal.ofBits .f32 0x7F800000#32)) = 1#1 := e
  rw [ofBits_inf] at e'
  by_contra hlt
  rw [decide_eq_false hlt] at e'
  exact absurd e' (by decide)

/-- If the printed predicate is all ones on the eight arrays, every entry of every array is a real number. -/
theorem of_pre [Cert.Pre_finite_inputs.Facts] (a0 : FVec Ideal S10000x128 .f32) (a1 : FVec Ideal S10000x10000 .f32) (a2 : FVec Ideal S128x128 .f32)
    (a3 : FVec Ideal S128 .f32) (a4 : FVec Ideal S128x128 .f32) (a5 : FVec Ideal S128 .f32) (a6 : FVec Ideal S128x40 .f32)
    (a7 : FVec Ideal S40 .f32)
    (h : Cert.Pre_finite_inputs.fn (F := Ideal) a0 a1 a2 a3 a4 a5 a6 a7 = fun _ => 1#1) :
    Cert.Spec.Fin2 a0 ∧ Cert.Spec.Fin2 a1 ∧ Cert.Spec.Fin2 a2 ∧ Cert.Spec.Fin1 a3 ∧ Cert.Spec.Fin2 a4 ∧ Cert.Spec.Fin1 a5
      ∧ Cert.Spec.Fin2 a6 ∧ Cert.Spec.Fin1 a7 := by
  have h0 := congrFun h ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨all_lt_top_imp_real a0 _ _ _ _ e0, all_lt_top_imp_real a1 _ _ _ _ e1, all_lt_top_imp_real a2 _ _ _ _ e2,
    all_lt_top_imp_real a3 _ _ _ _ e3, all_lt_top_imp_real a4 _ _ _ _ e4, all_lt_top_imp_real a5 _ _ _ _ e5,
    all_lt_top_imp_real a6 _ _ _ _ e6, all_lt_top_imp_real a7 _ _ _ _ e7⟩

end Cert.Proof.Finite

end
-- ==== Proof.lean ====
/-
  A two-layer graph convolution over a dense adjacency matrix, a linear layer and a row-wise log-softmax: the Pallas kernel
  (one region on a 2 × 25 grid: the first phase builds the hidden array in scratch 400 rows a point, the second streams the
  adjacency matrix again and stores 400 result rows a point) against the plain reference.

  The three programs run and leave their arguments unchanged; the idealization rewrote nothing; and over the extended reals
  the kernel's result array is the reference's: both are the specification's result (every matrix product the sum over its
  contracted axis), the kernel in the log-sum-exp spelling of log-softmax, the reference in the shifted spelling, which agree
  because finite inputs make every logit a real number.
-/
import proofs.«155996_g78357383349033_cont_sun_m_330_6_alg».proof.Defs
import proofs.«155996_g78357383349033_cont_sun_m_330_6_alg».proof.Proof.Gen.Kernel
import proofs.«155996_g78357383349033_cont_sun_m_330_6_alg».proof.Proof.Gen.KernelIdeal
import proofs.«155996_g78357383349033_cont_sun_m_330_6_alg».proof.Proof.Gen.ReferenceIdeal
import proofs.«155996_g78357383349033_cont_sun_m_330_6_alg».proof.Proof.Gen.Pre_finite_inputs
import proofs.«155996_g78357383349033_cont_sun_m_330_6_alg».proof.Proof.K.Frame
import proofs.«155996_g78357383349033_cont_sun_m_330_6_alg».proof.Proof.KI.Frame
import proofs.«155996_g78357383349033_cont_sun_m_330_6_alg».proof.Proof.KernelValue
import proofs.«155996_g78357383349033_cont_sun_m_330_6_alg».proof.Proof.RefSide
import proofs.«155996_g78357383349033_cont_sun_m_330_6_alg».proof.Proof.SpecAlgebra
import proofs.«155996_g78357383349033_cont_sun_m_330_6_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- The idealized kernel runs and leaves its arguments unchanged. -/
theorem frame_ki : Cert.frame_KernelIdeal := fun m ρ _ => Cert.KernelIdeal.Hand.frame (F := Ideal) m ρ

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments, the kernel and the reference end with one result:
    the specification's, in two spellings of log-softmax that agree on finite rows. -/
theorem algebraic : Cert.algebraic_KernelIdeal_ReferenceIdeal := by
  intro m ρ m' ρ' hpre hagree
  refine ⟨fun c => Cert.KernelIdeal.Hand.Gout (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.Gout (F := Ideal) m c
  obtain ⟨h0, h1, h2, h3, h4, h5, h6, h7⟩ := Cert.Proof.Finite.of_pre _ _ _ _ _ _ _ _ (hpre c)
  rw [Cert.KernelIdeal.Hand.Gout_eq_spec m c, Cert.Spec.outKer_eq_outRef _ _ _ _ _ _ _ _ h0 h1 h2 h3 h4 h5 h6 h7]
  refine (Cert.ReferenceIdeal.RefValue.res_eq_spec m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
